-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x192x256 : Shape := ⟨4, ![4, 128, 192, 256]⟩
abbrev S_ : Shape := ⟨0, ![]⟩

class Facts : Prop where
  bcast_S_S4x128x192x256 : S_.BroadcastsInDim S4x128x192x256 (![] : Fin 0 → Fin S4x128x192x256.rank)
  reducesTo_S4x128x192x256_S_d0_1_2_3 : S4x128x192x256.ReducesTo [0, 1, 2, 3] S_
  h_S_ : 0 < S_.numel

variable [Facts]

def fn {F : FTy → Type} [FloatOps F] (main_arg0 : FVec F S4x128x192x256 .f32) (main_arg1 : FVec F S4x128x192x256 .f32) : IVec S_ 1 :=
  let main_v0 : FVec F S4x128x192x256 .f32 := Host.absf main_arg0
  let main_cst : FVec F S_ .f32 := constant S_ .f32 0x7F800000#32
  let main_v1 : FVec F S4x128x192x256 .f32 := broadcastInDim S4x128x192x256 ![] bcast_S_S4x128x192x256 main_cst
  let main_v2 : IVec S4x128x192x256 1 := cmpf .olt main_v0 main_v1
  let main_c : IVec S_ 1 := constantI S_ 1 1#1
  let main_v3 : IVec S_ 1 := (fun x v => Host.reduce IntOp.andi x v reducesTo_S4x128x192x256_S_d0_1_2_3 h_S_) main_v2 main_c
  let main_v4 : FVec F S4x128x192x256 .f32 := Host.absf main_arg1
  let main_cst_0 : FVec F S_ .f32 := constant S_ .f32 0x7F800000#32
  let main_v5 : FVec F S4x128x192x256 .f32 := broadcastInDim S4x128x192x256 ![] bcast_S_S4x128x192x256 main_cst_0
  let main_v6 : IVec S4x128x192x256 1 := cmpf .olt main_v4 main_v5
  let main_c_1 : IVec S_ 1 := constantI S_ 1 1#1
  let main_v7 : IVec S_ 1 := (fun x v => Host.reduce IntOp.andi x v reducesTo_S4x128x192x256_S_d0_1_2_3 h_S_) main_v6 main_c_1
  let main_v8 : IVec S_ 1 := andi main_v3 main_v7
  main_v8
-- ==== Kernel.lean ====
abbrev S4x128x192x256 : Shape := ⟨4, ![4, 128, 192, 256]⟩
abbrev S1x128x16x256 : Shape := ⟨4, ![1, 128, 16, 256]⟩
abbrev S128x16x256 : Shape := ⟨3, ![128, 16, 256]⟩
abbrev S16x256 : Shape := ⟨2, ![16, 256]⟩
abbrev S1x16x256 : Shape := ⟨3, ![1, 16, 256]⟩
abbrev S_ : Shape := ⟨0, ![]⟩
abbrev S4x128x194x258 : Shape := ⟨4, ![4, 128, 194, 258]⟩
abbrev S4x9x192x256 : Shape := ⟨4, ![4, 9, 192, 256]⟩
abbrev S1x16x194x258 : Shape := ⟨4, ![1, 16, 194, 258]⟩
abbrev S1x9x192x256 : Shape := ⟨4, ![1, 9, 192, 256]⟩
abbrev S9x192x256 : Shape := ⟨3, ![9, 192, 256]⟩
abbrev S16x194x258 : Shape := ⟨3, ![16, 194, 258]⟩
abbrev S16x192x256 : Shape := ⟨3, ![16, 192, 256]⟩
abbrev S192x256 : Shape := ⟨2, ![192, 256]⟩
abbrev S1x192x256 : Shape := ⟨3, ![1, 192, 256]⟩

abbrev nBuf : Space → Nat
  | .hbm => 11
  | .vmem => 15
  | .smem => 0
  | _ => 0

abbrev bufTy : (tb : Table) → Fin (tcTables nBuf tb) → BufTy
  | .hbm, ⟨0, _⟩ => ⟨S4x128x192x256, .f32⟩
  | .hbm, ⟨1, _⟩ => ⟨S4x128x192x256, .f32⟩
  | .hbm, ⟨2, _⟩ => ⟨S4x128x192x256, .f32⟩
  | .hbm, ⟨3, _⟩ => ⟨S4x128x192x256, .f32⟩
  | .hbm, ⟨4, _⟩ => ⟨S_, .i32⟩
  | .hbm, ⟨5, _⟩ => ⟨S_, .f32⟩
  | .hbm, ⟨6, _⟩ => ⟨S4x128x194x258, .f32⟩
  | .hbm, ⟨7, _⟩ => ⟨S_, .i32⟩
  | .hbm, ⟨8, _⟩ => ⟨S_, .f32⟩
  | .hbm, ⟨9, _⟩ => ⟨S4x128x194x258, .f32⟩
  | .hbm, ⟨10, _⟩ => ⟨S4x9x192x256, .f32⟩
  | .local _ .vmem, ⟨0, _⟩ => ⟨S1x128x16x256, .f32⟩
  | .local _ .vmem, ⟨1, _⟩ => ⟨S1x128x16x256, .f32⟩
  | .local _ .vmem, ⟨2, _⟩ => ⟨S1x128x16x256, .f32⟩
  | .local _ .vmem, ⟨3, _⟩ => ⟨S1x128x16x256, .f32⟩
  | .local _ .vmem, ⟨4, _⟩ => ⟨S1x128x16x256, .f32⟩
  | .local _ .vmem, ⟨5, _⟩ => ⟨S1x128x16x256, .f32⟩
  | .local _ .vmem, ⟨6, _⟩ => ⟨S1x128x16x256, .f32⟩
  | .local _ .vmem, ⟨7, _⟩ => ⟨S1x128x16x256, .f32⟩
  | .local _ .vmem, ⟨8, _⟩ => ⟨S1x16x194x258, .f32⟩
  | .local _ .vmem, ⟨9, _⟩ => ⟨S1x16x194x258, .f32⟩
  | .local _ .vmem, ⟨10, _⟩ => ⟨S1x16x194x258, .f32⟩
  | .local _ .vmem, ⟨11, _⟩ => ⟨S1x16x194x258, .f32⟩
  | .local _ .vmem, ⟨12, _⟩ => ⟨S1x9x192x256, .f32⟩
  | .local _ .vmem, ⟨13, _⟩ => ⟨S1x9x192x256, .f32⟩
  | .local _ .vmem, ⟨14, _⟩ => ⟨S9x192x256, .f32⟩
  | _, _ => ⟨S4x128x192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v97 : BitVec 1 := Scalar.cmpi .eq arg1 c7_i32
  let v98 : BitVec 32 := Scalar.extui v97
  let c0_i32_62 : BitVec 32 := 0#32
  let v99 : BitVec 1 := Scalar.cmpi .ne v98 c0_i32_62
  v99

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x194x258 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x194x258 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x9x192x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x128x16x256_S1x128x16x256_0_0_0_0 : ∀ a, (![0, 0, 0, 0] : Fin 4 → Nat) a + S1x128x16x256.size a ≤ S1x128x16x256.size a
  h_S1x128x16x256 : 0 < S1x128x16x256.numel
  shapeCasts_S1x128x16x256_S128x16x256 : S1x128x16x256.ShapeCasts S128x16x256
  reduces_S128x16x256_S16x256 : S128x16x256.Reduces [0] S16x256
  shapeCasts_S16x256_S1x16x256 : S16x256.ShapeCasts S1x16x256
  broadcasts_S1x16x256_S128x16x256 : S1x16x256.Broadcasts S128x16x256
  shapeCasts_S128x16x256_S1x128x16x256 : S128x16x256.ShapeCasts S1x128x16x256
  pads_S4x128x192x256_S4x128x194x258_000_000_110_110 : S4x128x192x256.Pads (![0, 0, 1, 1] : Fin 4 → Nat) ![0, 0, 1, 1] ![0, 0, 0, 0] S4x128x194x258
  h_S_ : 0 < S_.numel
  inb_S9x192x256_S9x192x256_0_0_0 : ∀ a, (![0, 0, 0] : Fin 3 → Nat) a + S9x192x256.size a ≤ S9x192x256.size a
  h_S9x192x256 : 0 < S9x192x256.numel
  shapeCasts_S9x192x256_S9x192x256 : S9x192x256.ShapeCasts S9x192x256
  inb_S1x16x194x258_S1x16x194x258_0_0_0_0 : ∀ a, (![0, 0, 0, 0] : Fin 4 → Nat) a + S1x16x194x258.size a ≤ S1x16x194x258.size a
  h_S1x16x194x258 : 0 < S1x16x194x258.numel
  shapeCasts_S1x16x194x258_S16x194x258 : S1x16x194x258.ShapeCasts S16x194x258
  slices_S16x194x258_o0_0_0_S16x192x256 : S16x194x258.Slices ![0, 0, 0] S16x192x256
  reduces_S16x192x256_S192x256 : S16x192x256.Reduces [0] S192x256
  inb_S9x192x256_S1x192x256_0_0_0 : ∀ a, (![0, 0, 0] : Fin 3 → Nat) a + S1x192x256.size a ≤ S9x192x256.size a
  h_S1x192x256 : 0 < S1x192x256.numel
  shapeCasts_S1x192x256_S192x256 : S1x192x256.ShapeCasts S192x256
  shapeCasts_S192x256_S1x192x256 : S192x256.ShapeCasts S1x192x256
  slices_S16x194x258_o0_0_1_S16x192x256 : S16x194x258.Slices ![0, 0, 1] S16x192x256
  inb_S9x192x256_S1x192x256_1_0_0 : ∀ a, (![1, 0, 0] : Fin 3 → Nat) a + S1x192x256.size a ≤ S9x192x256.size a
  slices_S16x194x258_o0_0_2_S16x192x256 : S16x194x258.Slices ![0, 0, 2] S16x192x256
  inb_S9x192x256_S1x192x256_2_0_0 : ∀ a, (![2, 0, 0] : Fin 3 → Nat) a + S1x192x256.size a ≤ S9x192x256.size a
  slices_S16x194x258_o0_1_0_S16x192x256 : S16x194x258.Slices ![0, 1, 0] S16x192x256
  inb_S9x192x256_S1x192x256_3_0_0 : ∀ a, (![3, 0, 0] : Fin 3 → Nat) a + S1x192x256.size a ≤ S9x192x256.size a
  slices_S16x194x258_o0_1_1_S16x192x256 : S16x194x258.Slices ![0, 1, 1] S16x192x256
  inb_S9x192x256_S1x192x256_4_0_0 : ∀ a, (![4, 0, 0] : Fin 3 → Nat) a + S1x192x256.size a ≤ S9x192x256.size a
  slices_S16x194x258_o0_1_2_S16x192x256 : S16x194x258.Slices ![0, 1, 2] S16x192x256
  inb_S9x192x256_S1x192x256_5_0_0 : ∀ a, (![5, 0, 0] : Fin 3 → Nat) a + S1x192x256.size a ≤ S9x192x256.size a
  slices_S16x194x258_o0_2_0_S16x192x256 : S16x194x258.Slices ![0, 2, 0] S16x192x256
  inb_S9x192x256_S1x192x256_6_0_0 : ∀ a, (![6, 0, 0] : Fin 3 → Nat) a + S1x192x256.size a ≤ S9x192x256.size a
  slices_S16x194x258_o0_2_1_S16x192x256 : S16x194x258.Slices ![0, 2, 1] S16x192x256
  inb_S9x192x256_S1x192x256_7_0_0 : ∀ a, (![7, 0, 0] : Fin 3 → Nat) a + S1x192x256.size a ≤ S9x192x256.size a
  slices_S16x194x258_o0_2_2_S16x192x256 : S16x194x258.Slices ![0, 2, 2] S16x192x256
  inb_S9x192x256_S1x192x256_8_0_0 : ∀ a, (![8, 0, 0] : Fin 3 → Nat) a + S1x192x256.size a ≤ S9x192x256.size a
  inb_S1x9x192x256_S1x9x192x256_0_0_0_0 : ∀ a, (![0, 0, 0, 0] : Fin 4 → Nat) a + S1x9x192x256.size a ≤ S1x9x192x256.size a
  h_S1x9x192x256 : 0 < S1x9x192x256.numel
  shapeCasts_S1x9x192x256_S9x192x256 : S1x9x192x256.ShapeCasts S9x192x256
  shapeCasts_S9x192x256_S1x9x192x256 : S9x192x256.ShapeCasts S1x9x192x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x256.size a ≤ S4x128x192x256.size a
  hwx0_0 : ∀ i : grid0.Coords, EltTy.bits .f32 = 32 ∨ (Rect.block (s := S4x128x192x256) S1x128x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x256.size a ≤ S4x128x192x256.size a
  hwx0_1 : ∀ i : grid0.Coords, EltTy.bits .f32 = 32 ∨ (Rect.block (s := S4x128x192x256) S1x128x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x16x256.size a ≤ S4x128x192x256.size a
  hwx0_2 : ∀ i : grid0.Coords, EltTy.bits .f32 = 32 ∨ (Rect.block (s := S4x128x192x256) S1x128x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16x256.size a ≤ S4x128x192x256.size a
  hwx0_3 : ∀ i : grid0.Coords, EltTy.bits .f32 = 32 ∨ (Rect.block (s := S4x128x192x256) S1x128x16x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x194x258.size a ≤ S4x128x194x258.size a
  hwx1_0 : ∀ i : grid1.Coords, EltTy.bits .f32 = 32 ∨ (Rect.block (s := S4x128x194x258) S1x16x194x258.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x194x258.size a ≤ S4x128x194x258.size a
  hwx1_1 : ∀ i : grid1.Coords, EltTy.bits .f32 = 32 ∨ (Rect.block (s := S4x128x194x258) S1x16x194x258.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x9x192x256.size a ≤ S4x9x192x256.size a
  hwx1_2 : ∀ i : grid1.Coords, EltTy.bits .f32 = 32 ∨ (Rect.block (s := S4x9x192x256) S1x9x192x256.size (cc1_transform_2 i) (hinb1_2 i)).WholeWords (EltTy.packing .f32)

variable [Facts₀]

abbrev win0_0 : Pipeline.Window sig grid0 :=
  Pipeline.Window.ofSpec (Memref.whole main_arg0) S1x128x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x16x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x16x194x258.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x16x194x258.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x9x192x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x128x192x256 : Shape := ⟨4, ![4, 128, 192, 256]⟩
abbrev S_ : Shape := ⟨0, ![]⟩
abbrev S4x192x256 : Shape := ⟨3, ![4, 192, 256]⟩
abbrev S4x1x192x256 : Shape := ⟨4, ![4, 1, 192, 256]⟩
abbrev S4x128x194x258 : Shape := ⟨4, ![4, 128, 194, 258]⟩
abbrev S4x9x192x256 : Shape := ⟨4, ![4, 9, 192, 256]⟩

abbrev nBuf : Space → Nat
  | .hbm => 86
  | .vmem => 0
  | .smem => 0
  | _ => 0

abbrev bufTy : (tb : Table) → Fin (tcTables nBuf tb) → BufTy
  | .hbm, ⟨0, _⟩ => ⟨S4x128x192x256, .f32⟩
  | .hbm, ⟨1, _⟩ => ⟨S4x128x192x256, .f32⟩
  | .hbm, ⟨2, _⟩ => ⟨S4x128x192x256, .f32⟩
  | .hbm, ⟨3, _⟩ => ⟨S_, .f32⟩
  | .hbm, ⟨4, _⟩ => ⟨S4x192x256, .f32⟩
  | .hbm, ⟨5, _⟩ => ⟨S4x1x192x256, .f32⟩
  | .hbm, ⟨6, _⟩ => ⟨S4x1x192x256, .f32⟩
  | .hbm, ⟨7, _⟩ => ⟨S_, .f32⟩
  | .hbm, ⟨8, _⟩ => ⟨S4x1x192x256, .f32⟩
  | .hbm, ⟨9, _⟩ => ⟨S4x1x192x256, .f32⟩
  | .hbm, ⟨10, _⟩ => ⟨S4x128x192x256, .f32⟩
  | .hbm, ⟨11, _⟩ => ⟨S4x128x192x256, .f32⟩
  | .hbm, ⟨12, _⟩ => ⟨S4x128x192x256, .f32⟩
  | .hbm, ⟨13, _⟩ => ⟨S_, .f32⟩
  | .hbm, ⟨14, _⟩ => ⟨S4x192x256, .f32⟩
  | .hbm, ⟨15, _⟩ => ⟨S4x1x192x256, .f32⟩
  | .hbm, ⟨16, _⟩ => ⟨S4x1x192x256, .f32⟩
  | .hbm, ⟨17, _⟩ => ⟨S_, .f32⟩
  | .hbm, ⟨18, _⟩ => ⟨S4x1x192x256, .f32⟩
  | .hbm, ⟨19, _⟩ => ⟨S4x1x192x256, .f32⟩
  | .hbm, ⟨20, _⟩ => ⟨S4x128x192x256, .f32⟩
  | .hbm, ⟨21, _⟩ => ⟨S4x128x192x256, .f32⟩
  | .hbm, ⟨22, _⟩ => ⟨S_, .i32⟩
  | .hbm, ⟨23, _⟩ => ⟨S_, .f32⟩
  | .hbm, ⟨24, _⟩ => ⟨S4x128x194x258, .f32⟩
  | .hbm, ⟨25, _⟩ => ⟨S_, .i32⟩
  | .hbm, ⟨26, _⟩ => ⟨S_, .f32⟩
  | .hbm, ⟨27, _⟩ => ⟨S4x128x194x258, .f32⟩
  | .hbm, ⟨28, _⟩ => ⟨S4x128x192x256, .f32⟩
  | .hbm, ⟨29, _⟩ => ⟨S4x128x192x256, .f32⟩
  | .hbm, ⟨30, _⟩ => ⟨S4x128x192x256, .f32⟩
  | .hbm, ⟨31, _⟩ => ⟨S_, .f32⟩
  | .hbm, ⟨32, _⟩ => ⟨S4x192x256, .f32⟩
  | .hbm, ⟨33, _⟩ => ⟨S4x128x192x256, .f32⟩
  | .hbm, ⟨34, _⟩ => ⟨S4x128x192x256, .f32⟩
  | .hbm, ⟨35, _⟩ => ⟨S4x128x192x256, .f32⟩
  | .hbm, ⟨36, _⟩ => ⟨S_, .f32⟩
  | .hbm, ⟨37, _⟩ => ⟨S4x192x256, .f32⟩
  | .hbm, ⟨38, _⟩ => ⟨S4x128x192x256, .f32⟩
  | .hbm, ⟨39, _⟩ => ⟨S4x128x192x256, .f32⟩
  | .hbm, ⟨40, _⟩ => ⟨S4x128x192x256, .f32⟩
  | .hbm, ⟨41, _⟩ => ⟨S_, .f32⟩
  | .hbm, ⟨42, _⟩ => ⟨S4x192x256, .f32⟩
  | .hbm, ⟨43, _⟩ => ⟨S4x128x192x256, .f32⟩
  | .hbm, ⟨44, _⟩ => ⟨S4x128x192x256, .f32⟩
  | .hbm, ⟨45, _⟩ => ⟨S4x128x192x256, .f32⟩
  | .hbm, ⟨46, _⟩ => ⟨S_, .f32⟩
  | .hbm, ⟨47, _⟩ => ⟨S4x192x256, .f32⟩
  | .hbm, ⟨48, _⟩ => ⟨S4x128x192x256, .f32⟩
  | .hbm, ⟨49, _⟩ => ⟨S4x128x192x256, .f32⟩
  | .hbm, ⟨50, _⟩ => ⟨S4x128x192x256, .f32⟩
  | .hbm, ⟨51, _⟩ => ⟨S_, .f32⟩
  | .hbm, ⟨52, _⟩ => ⟨S4x192x256, .f32⟩
  | .hbm, ⟨53, _⟩ => ⟨S4x128x192x256, .f32⟩
  | .hbm, ⟨54, _⟩ => ⟨S4x128x192x256, .f32⟩
  | .hbm, ⟨55, _⟩ => ⟨S4x128x192x256, .f32⟩
  | .hbm, ⟨56, _⟩ => ⟨S_, .f32⟩
  | .hbm, ⟨57, _⟩ => ⟨S4x192x256, .f32⟩
  | .hbm, ⟨58, _⟩ => ⟨S4x128x192x256, .f32⟩
  | .hbm, ⟨59, _⟩ => ⟨S4x128x192x256, .f32⟩
  | .hbm, ⟨60, _⟩ => ⟨S4x128x192x256, .f32⟩
  | .hbm, ⟨61, _⟩ => ⟨S_, .f32⟩
  | .hbm, ⟨62, _⟩ => ⟨S4x192x256, .f32⟩
  | .hbm, ⟨63, _⟩ => ⟨S4x128x192x256, .f32⟩
  | .hbm, ⟨64, _⟩ => ⟨S4x128x192x256, .f32⟩
  | .hbm, ⟨65, _⟩ => ⟨S4x128x192x256, .f32⟩
  | .hbm, ⟨66, _⟩ => ⟨S_, .f32⟩
  | .hbm, ⟨67, _⟩ => ⟨S4x192x256, .f32⟩
  | .hbm, ⟨68, _⟩ => ⟨S4x128x192x256, .f32⟩
  | .hbm, ⟨69, _⟩ => ⟨S4x128x192x256, .f32⟩
  | .hbm, ⟨70, _⟩ => ⟨S4x128x192x256, .f32⟩
  | .hbm, ⟨71, _⟩ => ⟨S_, .f32⟩
  | .hbm, ⟨72, _⟩ => ⟨S4x192x256, .f32⟩
  | .hbm, ⟨73, _⟩ => ⟨S4x1x192x256, .f32⟩
  | .hbm, ⟨74, _⟩ => ⟨S4x1x192x256, .f32⟩
  | .hbm, ⟨75, _⟩ => ⟨S4x1x192x256, .f32⟩
  | .hbm, ⟨76, _⟩ => ⟨S4x1x192x256, .f32⟩
  | .hbm, ⟨77, _⟩ => ⟨S4x1x192x256, .f32⟩
  | .hbm, ⟨78, _⟩ => ⟨S4x1x192x256, .f32⟩
  | .hbm, ⟨79, _⟩ => ⟨S4x1x192x256, .f32⟩
  | .hbm, ⟨80, _⟩ => ⟨S4x1x192x256, .f32⟩
  | .hbm, ⟨81, _⟩ => ⟨S4x1x192x256, .f32⟩
  | .hbm, ⟨82, _⟩ => ⟨S4x9x192x256, .f32⟩
  | .hbm, ⟨83, _⟩ => ⟨S_, .f32⟩
  | .hbm, ⟨84, _⟩ => ⟨S4x9x192x256, .f32⟩
  | .hbm, ⟨85, _⟩ => ⟨S4x9x192x256, .f32⟩
  | _, _ => ⟨S4x128x192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_c_3 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  reducesTo_S4x128x192x256_S4x192x256_d1 : S4x128x192x256.ReducesTo [1] S4x192x256
  h_S_ : 0 < S_.numel
  bcast_S4x192x256_S4x1x192x256_0_2_3 : S4x192x256.BroadcastsInDim S4x1x192x256 (![0, 2, 3] : Fin 3 → Fin S4x1x192x256.rank)
  bcast_S_S4x1x192x256 : S_.BroadcastsInDim S4x1x192x256 (![] : Fin 0 → Fin S4x1x192x256.rank)
  bcast_S4x1x192x256_S4x128x192x256_0_1_2_3 : S4x1x192x256.BroadcastsInDim S4x128x192x256 (![0, 1, 2, 3] : Fin 4 → Fin S4x128x192x256.rank)
  pads_S4x128x192x256_S4x128x194x258_000_000_110_110 : S4x128x192x256.Pads (![0, 0, 1, 1] : Fin 4 → Nat) ![0, 0, 1, 1] ![0, 0, 0, 0] S4x128x194x258
  slices_S4x128x194x258_S4x128x192x256_0_0_0_0 : S4x128x194x258.Slices ![0, 0, 0, 0] S4x128x192x256
  slices_S4x128x194x258_S4x128x192x256_0_0_0_1 : S4x128x194x258.Slices ![0, 0, 0, 1] S4x128x192x256
  slices_S4x128x194x258_S4x128x192x256_0_0_0_2 : S4x128x194x258.Slices ![0, 0, 0, 2] S4x128x192x256
  slices_S4x128x194x258_S4x128x192x256_0_0_1_0 : S4x128x194x258.Slices ![0, 0, 1, 0] S4x128x192x256
  slices_S4x128x194x258_S4x128x192x256_0_0_1_1 : S4x128x194x258.Slices ![0, 0, 1, 1] S4x128x192x256
  slices_S4x128x194x258_S4x128x192x256_0_0_1_2 : S4x128x194x258.Slices ![0, 0, 1, 2] S4x128x192x256
  slices_S4x128x194x258_S4x128x192x256_0_0_2_0 : S4x128x194x258.Slices ![0, 0, 2, 0] S4x128x192x256
  slices_S4x128x194x258_S4x128x192x256_0_0_2_1 : S4x128x194x258.Slices ![0, 0, 2, 1] S4x128x192x256
  slices_S4x128x194x258_S4x128x192x256_0_0_2_2 : S4x128x194x258.Slices ![0, 0, 2, 2] S4x128x192x256
  concatenates_S4x1x192x256_S4x1x192x256_S4x1x192x256_S4x1x192x256_S4x1x192x256_S4x1x192x256_S4x1x192x256_S4x1x192x256_S4x1x192x256_S4x9x192x256_d1 : Shape.Concatenates [S4x1x192x256, S4x1x192x256, S4x1x192x256, S4x1x192x256, S4x1x192x256, S4x1x192x256, S4x1x192x256, S4x1x192x256, S4x1x192x256] S4x9x192x256 1
  bcast_S_S4x9x192x256 : S_.BroadcastsInDim S4x9x192x256 (![] : Fin 0 → Fin S4x9x192x256.rank)

variable [Facts₀]

class Facts : Prop extends Facts₀ where

variable [Facts]
-- ==== Proof.Reg0Bits.lean ====
/-
  The normalisation kernel (the first of the program's two kernel regions), at any float instance and at a
  PARAMETER V: the contents of the core's buffers when the region is entered.

  At grid point t = (b, s) the region stages block (b, 0, s, 0) of each input (all 128 channels of 16 rows),
  the body loads both, stores x / max (sqrt (sum over the channels of x^2)) eps of each into the matching
  output block (one store covering the whole block), and the block is written back. So each output's staging
  buffer after the body is one covering piece whose payload is a function of that input's block alone; the inputs'
  buffers are left as found. The body also loads each output buffer before storing into it; the loaded value is
  unused, so the outputs' contents on entry are arbitrary.
-/
import proofs.«111086_j22445499089557_1_alg».proof.Proof.Gen.Kernel.Launch
import proofs.«111086_j22445499089557_1_alg».proof.Proof.Gen.Kernel.Skeleton
import proofs.«111086_j22445499089557_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole block. -/
abbrev rN : Rect S1x128x16x256 := Rect.unit (s := S1x128x16x256) ![0, 0, 0, 0] S1x128x16x256.size inb_S1x128x16x256_S1x128x16x256_0_0_0_0

/-- The first output's staging buffer after the body: the normalised first input block. -/
def out0_2 (x0 : Vec F S1x128x16x256 .f32) : Vec F S1x128x16x256 .f32 :=
  View.canon [⟨rN, k0_pay1 (View.ld x0 rN)⟩]
/-- The second output's staging buffer after the body: the normalised second input block. -/
def out0_3 (x1 : Vec F S1x128x16x256 .f32) : Vec F S1x128x16x256 .f32 :=
  View.canon [⟨rN, k0_pay2 (View.ld x1 rN)⟩]

/-- One whole-block store covers the buffer. -/
theorem coverN (p0 : Vec F S1x128x16x256 .f32) (y : S1x128x16x256.Idx) :
    ∃ pc ∈ ([⟨rN, p0⟩] : List (View.Piece (Elt F) S1x128x16x256 .f32)), y ∈ pc.1.set :=
  View.cover_of_tiled [⟨rN, p0⟩] S1x128x16x256.size (by rfl) y

set_option maxHeartbeats 2000000 in
/-- The body on whole staging memrefs: the inputs at x0, x1, the outputs at anything; it ends with the inputs as
    they were and each output at the normalisation of its input. -/
theorem sound_kernel0 (c : Dev nD) (E : Set ℕ) (i : grid0.Coords)
    (arg2 : Memref sig .tc .vmem S1x128x16x256 .f32) (harg2 : arg2.IsWhole) (arg3 : Memref sig .tc .vmem S1x128x16x256 .f32) (harg3 : arg3.IsWhole)
    (arg4 : Memref sig .tc .vmem S1x128x16x256 .f32) (harg4 : arg4.IsWhole) (arg5 : Memref sig .tc .vmem S1x128x16x256 .f32) (harg5 : arg5.IsWhole)
    (x0 x1 : Vec F S1x128x16x256 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0) ∗ owns (c : Thread nD τ) arg5 fullShare (out0_3 x1)) -∗ K ⟨⟩))
      ⊢ wp frame (wpE (defs₀ (F := F)) Variants.none c none) E (cc0__l2norm_kernel i arg2 harg2 arg3 harg3 arg4 harg4 arg5 harg5) K := by
  simp only [cc0__l2norm_kernel_eq_skeleton]; unfold cc0__l2norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverN _)
  iexists _; isplitr
  swap; · iexact H3
  ipureintro
  exact View.read_writes_eq_canon _ _ _ (coverN _)

/-- The proof data of the region on core c: the arrays as found; after the body each input's buffer at its block,
    each output's at the normalisation of the matching input block; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.Reg1DefsBits.lean ====
/-
  The correlation kernel (the second kernel region): what its three control cases share.

  The grid is (batch, channel group) = (4, 8); point t = 8 b + g. The body resets its scratch accumulator
  (nine rows of 192 x 256, one per window offset) when g = 0, adds into each row the sum over the group's sixteen
  channels of the shifted products, and when g = 7 stores max(accumulator, 0) into the output block, which the
  pipeline writes back at exactly those points; at every other point the output window is idle.
  So a point is in one of three cases: A (g = 0: reset, then accumulate), B (0 < g < 7: accumulate),
  C (g = 7: accumulate, then store the output). Both conditions at once never happen on this grid.
-/
import proofs.«111086_j22445499089557_1_alg».proof.Proof.Gen.Kernel.Launch
import proofs.«111086_j22445499089557_1_alg».proof.Proof.Gen.Kernel.Skeleton
import proofs.«111086_j22445499089557_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "this is the group's first point" (the reset), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "this is the group's last point" (the output store). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x9x192x256 .f32 := (Memref.whole cc1_stg2_0 : Memref sig .tc .vmem S1x9x192x256 .f32).view
abbrev ms1_0 (t : Fin cfg1.N) : Memref sig .tc .vmem S1x16x194x258 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x194x258 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x9x192x256 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S9x192x256 .f32 := Memref.whole cc1_scratch0
abbrev VS1_0 : View sig .tc .vmem S9x192x256 .f32 := scM1_0.view

/-- The other scoped buffers of the core (the first region's staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's plain invariant hands out the scratch accumulator as a memref owned at some contents, -/
theorem PhiA1_open (c : Dev nD) :
    (Pipeline.ΦA spec1 c : sProp 𝕄)
      ⊢ iprop(others1 (F := F) c ∗ (∃ d, owns (c : Thread nD τ) scM1_0 fullShare d) ∗ (∃ r, prngReg c r)) := by
  unfold Pipeline.ΦA others1; rw [scopedRest1_eq]; simp only [scM1_0, owns_whole]
  iintro ⟨⟨H0, H1, H2, H3, H4, H5, H6, H7, H8⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iexact Hg

/-- and takes it back at any contents. -/
theorem PhiA1_close (c : Dev nD) :
    iprop(others1 (F := F) c ∗ (∃ d, owns (c : Thread nD τ) scM1_0 fullShare d) ∗ (∃ r, prngReg c r))
      ⊢ (Pipeline.ΦA spec1 c : sProp 𝕄) := by
  unfold Pipeline.ΦA others1; rw [scopedRest1_eq]; simp only [scM1_0, owns_whole]
  iintro ⟨⟨H0, H1, H2, H3, H4, H5, H6, H7⟩, H8, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

end Cert.Kernel.Frm

end
-- ==== Proof.Reg1RunABits.lean ====
/-
  The correlation kernel's body in case A (a group's first point): the scratch accumulator, at arbitrary contents on
  entry, is reset whole and then each of its nine rows is replaced by itself plus that offset's channel sum; the
  output buffer is not touched. The pieces the scratch ends with are found by running the body.
-/
import proofs.«111086_j22445499089557_1_alg».proof.Proof.Reg1DefsBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) :
    Σ' (L2 : List (View.Piece (Elt F) S1x9x192x256 .f32)), { LS0 : List (View.Piece (Elt F) S9x192x256 .f32) //
      ∀ (xi2 : Vec F S1x9x192x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__corr_kernel i arg2 harg2 arg3 harg3 arg4 harg4 arg5 harg5) K } := by
  refine ⟨[], ?_, fun xi2 E K => ?run⟩
  case run =>
    simp only [cc1__corr_kernel_eq_skeleton]; unfold cc1__corr_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frm

end
-- ==== Proof.Reg1RunBBits.lean ====
/-
  The correlation kernel's body in case B (a middle point of a group): each of the scratch accumulator's nine rows,
  at the contents the point before left, is replaced by itself plus that offset's channel sum; no reset, and the output
  buffer is not touched.
-/
import proofs.«111086_j22445499089557_1_alg».proof.Proof.Reg1RunABits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) :
    Σ' (L2 : List (View.Piece (Elt F) S1x9x192x256 .f32)), { LS0 : List (View.Piece (Elt F) S9x192x256 .f32) //
      ∀ (xi2 : Vec F S1x9x192x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__corr_kernel i arg2 harg2 arg3 harg3 arg4 harg4 arg5 harg5) K } := by
  refine ⟨[], ?_, fun xi2 E K => ?run⟩
  case run =>
    simp only [cc1__corr_kernel_eq_skeleton]; unfold cc1__corr_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Frm

end
-- ==== Proof.Reg1RunCBits.lean ====
/-
  The correlation kernel's body in case C (a group's last point): the nine rows of the scratch accumulator are
  updated as at a middle point, and then max(accumulator, 0) is stored over the whole output buffer, whose contents
  on entry are arbitrary.
-/
import proofs.«111086_j22445499089557_1_alg».proof.Proof.Reg1RunBBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) :
    Σ' (L2 : List (View.Piece (Elt F) S1x9x192x256 .f32)), { LS0 : List (View.Piece (Elt F) S9x192x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__corr_kernel i arg2 harg2 arg3 harg3 arg4 harg4 arg5 harg5) K } := by
  refine ⟨?_, ?_, fun E K => ?run⟩
  case run =>
    simp only [cc1__corr_kernel_eq_skeleton]; unfold cc1__corr_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Frm

end
-- ==== Proof.Reg1Bits.lean ====
/-
  The correlation kernel region at a parameter V (the buffers' contents when the region is entered): what the output
  buffer and the scratch accumulator hold after each grid point, the region's proof data, and its body obligation.

  After point t = 8 b + g the scratch accumulator holds, row by row, the sum over channel groups 0 .. g of batch b of
  the shifted products (case A starts it from zero, cases B and C add to what point t - 1 left); the output buffer is
  written only at g = 7. The invariant carried from point to point is the scratch at exactly those contents, beside the
  core's other scoped buffers and the generator register, which the body does not touch.
-/
import proofs.«111086_j22445499089557_1_alg».proof.Proof.Reg1RunCBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: what the body leaves in the output buffer is nothing (the window is idle there): a placeholder nothing consults. -/
def out1_A_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) : Vec F S1x9x192x256 .f32 :=
  VO1_2.read (Elt F) (VO1_2.writes (Elt F) VO1_2.junk (kernelRun1_A c i arg2 harg2 arg3 harg3 arg4 harg4 arg5 harg5 hc0 hc1 x0 x1).1)

/-- Case A's pieces for the scratch accumulator cover it: the nine row pieces tile it. -/
theorem scover1_A_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) (y : S9x192x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x192x256.size (by sl_kernel_rfl) y

/-- What case A leaves in the scratch accumulator: its pieces read back. -/
def sout1_A_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) : Vec F S9x192x256 .f32 :=
  VS1_0.read (Elt F) (VS1_0.writes (Elt F) VS1_0.junk (kernelRun1_A c i arg2 harg2 arg3 harg3 arg4 harg4 arg5 harg5 hc0 hc1 x0 x1).2.1)

/-- Case B: what the body leaves in the output buffer is nothing (the window is idle there): a placeholder nothing consults. -/
def out1_B_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) : Vec F S1x9x192x256 .f32 :=
  VO1_2.read (Elt F) (VO1_2.writes (Elt F) VO1_2.junk (kernelRun1_B c i arg2 harg2 arg3 harg3 arg4 harg4 arg5 harg5 hc0 hc1 x0 x1 xs0).1)

/-- Case B's pieces for the scratch accumulator cover it: the nine row pieces tile it. -/
theorem scover1_B_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) (y : S9x192x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x192x256.size (by sl_kernel_rfl) y

/-- What case B leaves in the scratch accumulator: its pieces read back. -/
def sout1_B_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) : Vec F S9x192x256 .f32 :=
  VS1_0.read (Elt F) (VS1_0.writes (Elt F) VS1_0.junk (kernelRun1_B c i arg2 harg2 arg3 harg3 arg4 harg4 arg5 harg5 hc0 hc1 x0 x1 xs0).2.1)

/-- Case C: what the body leaves in the output buffer: its one covering piece read back. -/
def out1_C_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) : Vec F S1x9x192x256 .f32 :=
  VO1_2.read (Elt F) (VO1_2.writes (Elt F) VO1_2.junk (kernelRun1_C c i arg2 harg2 arg3 harg3 arg4 harg4 arg5 harg5 hc0 hc1 x0 x1 xs0).1)

/-- Case C's pieces for the scratch accumulator cover it: the nine row pieces tile it. -/
theorem scover1_C_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) (y : S9x192x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x192x256.size (by sl_kernel_rfl) y

/-- What case C leaves in the scratch accumulator: its pieces read back. -/
def sout1_C_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) : Vec F S9x192x256 .f32 :=
  VS1_0.read (Elt F) (VS1_0.writes (Elt F) VS1_0.junk (kernelRun1_C c i arg2 harg2 arg3 harg3 arg4 harg4 arg5 harg5 hc0 hc1 x0 x1 xs0).2.1)

/-- Case C's one piece for the output buffer covers it. -/
theorem cover1_C_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) (y : S1x9x192x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x9x192x256.size (by sl_kernel_rfl) y

section Region1
variable (V : (c : Dev nD) → (b : Ref sig .tc) → Buf (Elt F) ((c : Thread nD τ).loc b))

/-- THE ACCUMULATION: what the output buffer and the scratch accumulator hold after the body at position n, by
    recursion on n: the case the position is in, run on the point's input blocks, cases B and C over what position
    n - 1 left in the scratch. -/
def outsAt1 (c : Dev nD) : (n : ℕ) → n < cfg1.N → Vec F S1x9x192x256 .f32 × Vec F S9x192x256 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the plain one (every scoped buffer at anything);
    afterwards the scratch accumulator at what the point before left, the other scoped buffers at anything, the generator
    register at some state. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2) ∗ (∃ r, prngReg c r)) := by
  cases n with
  | zero => exact absurd rfl hz
  | succ n => rfl

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]

set_option maxHeartbeats 4800000 in
/-- The body at any point: the inputs' memrefs hold their blocks; the closed forms of the two conditions say which
    case the point is in; the invariant hands the body the scratch accumulator at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 32 := lt_of_lt_of_eq t.isLt (show cfg1.N = 32 from N_1)
  by_cases h0 : t.val % 8 = 0
  · have h1 : ¬t.val % 8 = 7 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_open (F := F) c) $$ HΦ
      icases HΦ' with ⟨Hoth, HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ )
        iexact Hg
      isplitl [Ho]; · iexact Ho
      isplitl [H0]; · iexact H0
      isplitl [H1]; · iexact H1
      iexists _; iexact H2
    · rw [PhiS1_castSucc V c t, PhiS1_pos V c _ _ hz]
      iintro ⟨⟨Hoth, HS0, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ )
        iexact Hg
      isplitl [Ho]; · iexact Ho
      isplitl [H0]; · iexact H0
      isplitl [H1]; · iexact H1
      iexists _; iexact H2
  · have hz : t.val ≠ 0 := fun hz => h0 (by rw [hz])
    by_cases h1 : t.val % 8 = 7
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨Hoth, HS0, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ )
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨Hoth, HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ )
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the plain one back: the scratch accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨Hoth, HS0, Hg⟩
  iapply (PhiA1_close (F := F) c)
  isplitl [Hoth]; · iexact Hoth
  isplitl [HS0]; · iexists _; iexact HS0
  iexact Hg

end Region1

end Cert.Kernel.Frm

end
-- ==== Proof.RunBits.lean ====
/-
  The whole program's run, at any float instance: @main is the normalisation region, four short stretches of host
  operations (two integer zeros, their conversions to f32, and the two zero paddings), and the correlation region.

  The contents of the core's unscoped buffers at each boundary are a fold from the launch memory: a region leaves its
  arrays at what its write-backs leave and every other buffer as entered; a host stretch leaves what its operations
  compute. Each region's proof data is taken at its own entry contents. The run theorem says every weakly fair
  execution terminates with every unscoped buffer at the fold's last stage; the frame (the two arguments end as
  launched) and the value of the result buffer are read off that stage.
-/
import proofs.«111086_j22445499089557_1_alg».proof.Proof.Reg0Bits
import proofs.«111086_j22445499089557_1_alg».proof.Proof.Reg1Bits
import proofs.«111086_j22445499089557_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the normalisation region's entry). -/
abbrev W0 : Dev nD → Valuation τ sig (Elt F) := fun c b => m (c, b)
abbrev V0 : (c : Dev nD) → (b : Ref sig .tc) → Buf (Elt F) ((c : Thread nD τ).loc b) := fun c b => W0 m c b
/-- After the normalisation region. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After each of the four host stretches (the last is the correlation region's entry). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev V5 : (c : Dev nD) → (b : Ref sig .tc) → Buf (Elt F) ((c : Thread nD τ).loc b) := fun c b => W5 m c b
/-- After the correlation region. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- A buffer no host stretch writes passes through the four stretches unchanged. -/
theorem W5_of (c : Dev nD) (r : Ref sig .tc) (h1 : r ∉ hostOps1_W) (h2 : r ∉ hostOps1_1_W) (h3 : r ∉ hostOps1_2_W) (h4 : r ∉ hostOps1_3_W) :
    W5 m c (Proc.devRef .tc r) = W1 m c (Proc.devRef .tc r) :=
  (StableHlo.after_of_writes_sub hostOps1_3 _ hostOps1_3_writes h4).trans <|
    (StableHlo.after_of_writes_sub hostOps1_2 _ hostOps1_2_writes h3).trans <|
      (StableHlo.after_of_writes_sub hostOps1_1 _ hostOps1_1_writes h2).trans <|
        StableHlo.after_of_writes_sub hostOps1 _ hostOps1_writes h1

/-- The first argument ends as launched: the correlation region does not stage it, no host stretch writes it, and the
    normalisation region only reads it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W1 m c (Proc.devRef .tc main_arg0) := W5_of m c main_arg0 (by decide) (by decide) (by decide) (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W1 m c (Proc.devRef .tc main_arg1) := W5_of m c main_arg1 (by decide) (by decide) (by decide) (by decide)
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data family and the thread state -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Kernel region 0 over the thread state: entered with every unscoped buffer at the contents before it, left with
    them at the contents after it. Its arrays are split out of the unscoped buffers and put back at what the write-backs
    leave; the generator register goes into the region's invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at the contents before it, left with
    them at the contents after it. Its arrays are split out of the unscoped buffers and put back at what the write-backs
    leave; the generator register goes into the region's invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    iintro ⟨Hp, -, Hr⟩
    iapply (hin1 (V5 m) c)
    unfold Pipeline.ΦA
    isplitl [Hr]; · iexact Hr
    iexact Hp
  hout c := by
    rw [Pipeline.ownSems0_none, show (pdats m 1 c).Φ (Fin.last _) = (dat1 (V5 m) c).Φ (Fin.last cfg1.N) from rfl]
    have hA : (Pipeline.ΦA spec1 c : sProp 𝕄) ⊢ iprop(Pipeline.scopedRest spec1 c ∗ ∃ r, prngReg c r) := by
      unfold Pipeline.ΦA; exact .rfl
    iintro Hphi
    ihave Hplain := (hout1 (V5 m) c) $$ Hphi
    ihave Hparts := hA $$ Hplain
    icases Hparts with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer at the fold's last stage. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME, at any float instance: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_main_arg0 m c),
     (h c _ (mem_uc main_arg1 (by decide))).trans (W6_main_arg1 m c)⟩) (run_main m ρ)

/-- The result buffer ends at what the correlation region's write-backs leave in it. -/
theorem run_result : θ_run defs (onTc (τ := τ) (main (F := F))) ⟨m, fun _ => 0, ρ⟩ (fun r => ∀ c : Dev nD,
      r.2.mem ((c.tc : Thread nD τ).loc main_v3) = (dat1 (V5 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v3 (by decide))).trans (W6_arr m c 2),
     (h c _ (mem_uc main_arg0 (by decide))).trans (W6_main_arg0 m c),
     (h c _ (mem_uc main_arg1 (by decide))).trans (W6_main_arg1 m c)⟩) (run_main m ρ)

end Cert.Kernel.Frm

end
-- ==== Proof.Reg0.lean ====
/-
  The normalisation kernel (the first of the program's two kernel regions), at any float instance and at a
  PARAMETER V: the contents of the core's buffers when the region is entered.

  At grid point t = (b, s) the region stages block (b, 0, s, 0) of each input (all 128 channels of 16 rows),
  the body loads both, stores x / max (sqrt (sum over the channels of x^2)) eps of each into the matching
  output block (one store covering the whole block), and the block is written back. So each output's staging
  buffer after the body is one covering piece whose payload is a function of that input's block alone; the inputs'
  buffers are left as found. The body also loads each output buffer before storing into it; the loaded value is
  unused, so the outputs' contents on entry are arbitrary.
-/
import proofs.«111086_j22445499089557_1_alg».proof.Proof.Gen.KernelIdeal.Launch
import proofs.«111086_j22445499089557_1_alg».proof.Proof.Gen.KernelIdeal.Skeleton
import proofs.«111086_j22445499089557_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches: the whole block. -/
abbrev rN : Rect S1x128x16x256 := Rect.unit (s := S1x128x16x256) ![0, 0, 0, 0] S1x128x16x256.size inb_S1x128x16x256_S1x128x16x256_0_0_0_0

/-- The first output's staging buffer after the body: the normalised first input block. -/
def out0_2 (x0 : Vec F S1x128x16x256 .f32) : Vec F S1x128x16x256 .f32 :=
  View.canon [⟨rN, k0_pay1 (View.ld x0 rN)⟩]
/-- The second output's staging buffer after the body: the normalised second input block. -/
def out0_3 (x1 : Vec F S1x128x16x256 .f32) : Vec F S1x128x16x256 .f32 :=
  View.canon [⟨rN, k0_pay2 (View.ld x1 rN)⟩]

/-- One whole-block store covers the buffer. -/
theorem coverN (p0 : Vec F S1x128x16x256 .f32) (y : S1x128x16x256.Idx) :
    ∃ pc ∈ ([⟨rN, p0⟩] : List (View.Piece (Elt F) S1x128x16x256 .f32)), y ∈ pc.1.set :=
  View.cover_of_tiled [⟨rN, p0⟩] S1x128x16x256.size (by rfl) y

set_option maxHeartbeats 2000000 in
/-- The body on whole staging memrefs: the inputs at x0, x1, the outputs at anything; it ends with the inputs as
    they were and each output at the normalisation of its input. -/
theorem sound_kernel0 (c : Dev nD) (E : Set ℕ) (i : grid0.Coords)
    (arg2 : Memref sig .tc .vmem S1x128x16x256 .f32) (harg2 : arg2.IsWhole) (arg3 : Memref sig .tc .vmem S1x128x16x256 .f32) (harg3 : arg3.IsWhole)
    (arg4 : Memref sig .tc .vmem S1x128x16x256 .f32) (harg4 : arg4.IsWhole) (arg5 : Memref sig .tc .vmem S1x128x16x256 .f32) (harg5 : arg5.IsWhole)
    (x0 x1 : Vec F S1x128x16x256 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0) ∗ owns (c : Thread nD τ) arg5 fullShare (out0_3 x1)) -∗ K ⟨⟩))
      ⊢ wp frame (wpE (defs₀ (F := F)) Variants.none c none) E (cc0__l2norm_kernel i arg2 harg2 arg3 harg3 arg4 harg4 arg5 harg5) K := by
  simp only [cc0__l2norm_kernel_eq_skeleton]; unfold cc0__l2norm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverN _)
  iexists _; isplitr
  swap; · iexact H3
  ipureintro
  exact View.read_writes_eq_canon _ _ _ (coverN _)

/-- The proof data of the region on core c: the arrays as found; after the body each input's buffer at its block,
    each output's at the normalisation of the matching input block; the invariant the scoped rest and the generator
    register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.Reg1Defs.lean ====
/-
  The correlation kernel (the second kernel region): what its three control cases share.

  The grid is (batch, channel group) = (4, 8); point t = 8 b + g. The body resets its scratch accumulator
  (nine rows of 192 x 256, one per window offset) when g = 0, adds into each row the sum over the group's sixteen
  channels of the shifted products, and when g = 7 stores max(accumulator, 0) into the output block, which the
  pipeline writes back at exactly those points; at every other point the output window is idle.
  So a point is in one of three cases: A (g = 0: reset, then accumulate), B (0 < g < 7: accumulate),
  C (g = 7: accumulate, then store the output). Both conditions at once never happen on this grid.
-/
import proofs.«111086_j22445499089557_1_alg».proof.Proof.Gen.KernelIdeal.Launch
import proofs.«111086_j22445499089557_1_alg».proof.Proof.Gen.KernelIdeal.Skeleton
import proofs.«111086_j22445499089557_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- "this is the group's first point" (the reset), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "this is the group's last point" (the output store). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x9x192x256 .f32 := (Memref.whole cc1_stg2_0 : Memref sig .tc .vmem S1x9x192x256 .f32).view
abbrev ms1_0 (t : Fin cfg1.N) : Memref sig .tc .vmem S1x16x194x258 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x194x258 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x9x192x256 .f32 := win1_2.stage (cfg1.slots t 2)
abbrev hs1_2 (t : Fin cfg1.N) : (ms1_2 t).IsWhole := hstage1_2 ((cfg1.slots t 2).cast nbuf1_2)
/-- The scratch accumulator: a whole scoped buffer of the kernel's own. -/
abbrev scM1_0 : Memref sig .tc .vmem S9x192x256 .f32 := Memref.whole cc1_scratch0
abbrev VS1_0 : View sig .tc .vmem S9x192x256 .f32 := scM1_0.view

/-- The other scoped buffers of the core (the first region's staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's plain invariant hands out the scratch accumulator as a memref owned at some contents, -/
theorem PhiA1_open (c : Dev nD) :
    (Pipeline.ΦA spec1 c : sProp 𝕄)
      ⊢ iprop(others1 (F := F) c ∗ (∃ d, owns (c : Thread nD τ) scM1_0 fullShare d) ∗ (∃ r, prngReg c r)) := by
  unfold Pipeline.ΦA others1; rw [scopedRest1_eq]; simp only [scM1_0, owns_whole]
  iintro ⟨⟨H0, H1, H2, H3, H4, H5, H6, H7, H8⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iexact Hg

/-- and takes it back at any contents. -/
theorem PhiA1_close (c : Dev nD) :
    iprop(others1 (F := F) c ∗ (∃ d, owns (c : Thread nD τ) scM1_0 fullShare d) ∗ (∃ r, prngReg c r))
      ⊢ (Pipeline.ΦA spec1 c : sProp 𝕄) := by
  unfold Pipeline.ΦA others1; rw [scopedRest1_eq]; simp only [scM1_0, owns_whole]
  iintro ⟨⟨H0, H1, H2, H3, H4, H5, H6, H7⟩, H8, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

end Cert.KernelIdeal.Frm

end
-- ==== Proof.Reg1RunA.lean ====
/-
  The correlation kernel's body in case A (a group's first point): the scratch accumulator, at arbitrary contents on
  entry, is reset whole and then each of its nine rows is replaced by itself plus that offset's channel sum; the
  output buffer is not touched. The pieces the scratch ends with are found by running the body.
-/
import proofs.«111086_j22445499089557_1_alg».proof.Proof.Reg1Defs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) :
    Σ' (L2 : List (View.Piece (Elt F) S1x9x192x256 .f32)), { LS0 : List (View.Piece (Elt F) S9x192x256 .f32) //
      ∀ (xi2 : Vec F S1x9x192x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__corr_kernel i arg2 harg2 arg3 harg3 arg4 harg4 arg5 harg5) K } := by
  refine ⟨[], ?_, fun xi2 E K => ?run⟩
  case run =>
    simp only [cc1__corr_kernel_eq_skeleton]; unfold cc1__corr_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frm

end
-- ==== Proof.Reg1RunB.lean ====
/-
  The correlation kernel's body in case B (a middle point of a group): each of the scratch accumulator's nine rows,
  at the contents the point before left, is replaced by itself plus that offset's channel sum; no reset, and the output
  buffer is not touched.
-/
import proofs.«111086_j22445499089557_1_alg».proof.Proof.Reg1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) :
    Σ' (L2 : List (View.Piece (Elt F) S1x9x192x256 .f32)), { LS0 : List (View.Piece (Elt F) S9x192x256 .f32) //
      ∀ (xi2 : Vec F S1x9x192x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__corr_kernel i arg2 harg2 arg3 harg3 arg4 harg4 arg5 harg5) K } := by
  refine ⟨[], ?_, fun xi2 E K => ?run⟩
  case run =>
    simp only [cc1__corr_kernel_eq_skeleton]; unfold cc1__corr_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Frm

end
-- ==== Proof.Reg1RunC.lean ====
/-
  The correlation kernel's body in case C (a group's last point): the nine rows of the scratch accumulator are
  updated as at a middle point, and then max(accumulator, 0) is stored over the whole output buffer, whose contents
  on entry are arbitrary.
-/
import proofs.«111086_j22445499089557_1_alg».proof.Proof.Reg1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) :
    Σ' (L2 : List (View.Piece (Elt F) S1x9x192x256 .f32)), { LS0 : List (View.Piece (Elt F) S9x192x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__corr_kernel i arg2 harg2 arg3 harg3 arg4 harg4 arg5 harg5) K } := by
  refine ⟨?_, ?_, fun E K => ?run⟩
  case run =>
    simp only [cc1__corr_kernel_eq_skeleton]; unfold cc1__corr_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Frm

end
-- ==== Proof.Reg1.lean ====
/-
  The correlation kernel region at a parameter V (the buffers' contents when the region is entered): what the output
  buffer and the scratch accumulator hold after each grid point, the region's proof data, and its body obligation.

  After point t = 8 b + g the scratch accumulator holds, row by row, the sum over channel groups 0 .. g of batch b of
  the shifted products (case A starts it from zero, cases B and C add to what point t - 1 left); the output buffer is
  written only at g = 7. The invariant carried from point to point is the scratch at exactly those contents, beside the
  core's other scoped buffers and the generator register, which the body does not touch.
-/
import proofs.«111086_j22445499089557_1_alg».proof.Proof.Reg1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: what the body leaves in the output buffer is nothing (the window is idle there): a placeholder nothing consults. -/
def out1_A_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) : Vec F S1x9x192x256 .f32 :=
  VO1_2.read (Elt F) (VO1_2.writes (Elt F) VO1_2.junk (kernelRun1_A c i arg2 harg2 arg3 harg3 arg4 harg4 arg5 harg5 hc0 hc1 x0 x1).1)

/-- Case A's pieces for the scratch accumulator cover it: the nine row pieces tile it. -/
theorem scover1_A_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) (y : S9x192x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x192x256.size (by sl_kernel_rfl) y

/-- What case A leaves in the scratch accumulator: its pieces read back. -/
def sout1_A_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec F S1x16x194x258 .f32) : Vec F S9x192x256 .f32 :=
  VS1_0.read (Elt F) (VS1_0.writes (Elt F) VS1_0.junk (kernelRun1_A c i arg2 harg2 arg3 harg3 arg4 harg4 arg5 harg5 hc0 hc1 x0 x1).2.1)

/-- Case B: what the body leaves in the output buffer is nothing (the window is idle there): a placeholder nothing consults. -/
def out1_B_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) : Vec F S1x9x192x256 .f32 :=
  VO1_2.read (Elt F) (VO1_2.writes (Elt F) VO1_2.junk (kernelRun1_B c i arg2 harg2 arg3 harg3 arg4 harg4 arg5 harg5 hc0 hc1 x0 x1 xs0).1)

/-- Case B's pieces for the scratch accumulator cover it: the nine row pieces tile it. -/
theorem scover1_B_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) (y : S9x192x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1x192x256.size (by sl_kernel_rfl) y

/-- What case B leaves in the scratch accumulator: its pieces read back. -/
def sout1_B_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec F S1x16x194x258 .f32) (xs0 : Vec F S9x192x256 .f32) : Vec F S9x192x256 .f32 :=
  VS1_0.read (Elt F) (VS1_0.writes (Elt F) VS1_0.junk (kernelRun1_B c i arg2 harg2 arg3 harg3 arg4 harg4 arg5 harg5 hc0 hc1 x0 x1 xs0).2.1)

/-- Case C: what the body leaves in the output buffer: its one covering piece read back. -/
def out1_C_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) : Vec F S1x9x192x256 .f32 :=
  VO1_2.read (Elt F) (VO1_2.writes (Elt F) VO1_2.junk (kernelRun1_C c i arg2 harg2 arg3 harg3 arg4 harg4 arg5 harg5 hc0 hc1 x0 x1 xs0).1)

/-- Case C's pieces for the scratch accumulator cover it: the nine row pieces tile it. -/
theorem scover1_C_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) (y : S9x192x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x192x256.size (by sl_kernel_rfl) y

/-- What case C leaves in the scratch accumulator: its pieces read back. -/
def sout1_C_0 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) : Vec F S9x192x256 .f32 :=
  VS1_0.read (Elt F) (VS1_0.writes (Elt F) VS1_0.junk (kernelRun1_C c i arg2 harg2 arg3 harg3 arg4 harg4 arg5 harg5 hc0 hc1 x0 x1 xs0).2.1)

/-- Case C's one piece for the output buffer covers it. -/
theorem cover1_C_2 (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec F S1x16x194x258 .f32) (xs0 : Vec F S9x192x256 .f32) (y : S1x9x192x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x9x192x256.size (by sl_kernel_rfl) y

section Region1
variable (V : (c : Dev nD) → (b : Ref sig .tc) → Buf (Elt F) ((c : Thread nD τ).loc b))

/-- THE ACCUMULATION: what the output buffer and the scratch accumulator hold after the body at position n, by
    recursion on n: the case the position is in, run on the point's input blocks, cases B and C over what position
    n - 1 left in the scratch. -/
def outsAt1 (c : Dev nD) : (n : ℕ) → n < cfg1.N → Vec F S1x9x192x256 .f32 × Vec F S9x192x256 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the plain one (every scoped buffer at anything);
    afterwards the scratch accumulator at what the point before left, the other scoped buffers at anything, the generator
    register at some state. -/
def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(others1 (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2) ∗ (∃ r, prngReg c r)) := by
  cases n with
  | zero => exact absurd rfl hz
  | succ n => rfl

/-- The proof data of the region on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]

set_option maxHeartbeats 4800000 in
/-- The body at any point: the inputs' memrefs hold their blocks; the closed forms of the two conditions say which
    case the point is in; the invariant hands the body the scratch accumulator at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 32 := lt_of_lt_of_eq t.isLt (show cfg1.N = 32 from N_1)
  by_cases h0 : t.val % 8 = 0
  · have h1 : ¬t.val % 8 = 7 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A_0; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_open (F := F) c) $$ HΦ
      icases HΦ' with ⟨Hoth, HS0, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ )
        iexact Hg
      isplitl [Ho]; · iexact Ho
      isplitl [H0]; · iexact H0
      isplitl [H1]; · iexact H1
      iexists _; iexact H2
    · rw [PhiS1_castSucc V c t, PhiS1_pos V c _ _ hz]
      iintro ⟨⟨Hoth, HS0, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ )
        iexact Hg
      isplitl [Ho]; · iexact Ho
      isplitl [H0]; · iexact H0
      isplitl [H1]; · iexact H1
      iexists _; iexact H2
  · have hz : t.val ≠ 0 := fun hz => h0 (by rw [hz])
    by_cases h1 : t.val % 8 = 7
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      rw [PhiS1_castSucc V c t, PhiS1_pos V c _ _ hz]
      iintro ⟨⟨Hoth, HS0, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _ )
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨Hoth, HS0, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hoth HS0 Hg]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ )
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the plain one back: the scratch accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨Hoth, HS0, Hg⟩
  iapply (PhiA1_close (F := F) c)
  isplitl [Hoth]; · iexact Hoth
  isplitl [HS0]; · iexists _; iexact HS0
  iexact Hg

end Region1

end Cert.KernelIdeal.Frm

end
-- ==== Proof.Run.lean ====
/-
  The whole program's run, at any float instance: @main is the normalisation region, four short stretches of host
  operations (two integer zeros, their conversions to f32, and the two zero paddings), and the correlation region.

  The contents of the core's unscoped buffers at each boundary are a fold from the launch memory: a region leaves its
  arrays at what its write-backs leave and every other buffer as entered; a host stretch leaves what its operations
  compute. Each region's proof data is taken at its own entry contents. The run theorem says every weakly fair
  execution terminates with every unscoped buffer at the fold's last stage; the frame (the two arguments end as
  launched) and the value of the result buffer are read off that stage.
-/
import proofs.«111086_j22445499089557_1_alg».proof.Proof.Reg0
import proofs.«111086_j22445499089557_1_alg».proof.Proof.Reg1
import proofs.«111086_j22445499089557_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (the normalisation region's entry). -/
abbrev W0 : Dev nD → Valuation τ sig (Elt F) := fun c b => m (c, b)
abbrev V0 : (c : Dev nD) → (b : Ref sig .tc) → Buf (Elt F) ((c : Thread nD τ).loc b) := fun c b => W0 m c b
/-- After the normalisation region. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After each of the four host stretches (the last is the correlation region's entry). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev V5 : (c : Dev nD) → (b : Ref sig .tc) → Buf (Elt F) ((c : Thread nD τ).loc b) := fun c b => W5 m c b
/-- After the correlation region. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- A buffer no host stretch writes passes through the four stretches unchanged. -/
theorem W5_of (c : Dev nD) (r : Ref sig .tc) (h1 : r ∉ hostOps1_W) (h2 : r ∉ hostOps1_1_W) (h3 : r ∉ hostOps1_2_W) (h4 : r ∉ hostOps1_3_W) :
    W5 m c (Proc.devRef .tc r) = W1 m c (Proc.devRef .tc r) :=
  (StableHlo.after_of_writes_sub hostOps1_3 _ hostOps1_3_writes h4).trans <|
    (StableHlo.after_of_writes_sub hostOps1_2 _ hostOps1_2_writes h3).trans <|
      (StableHlo.after_of_writes_sub hostOps1_1 _ hostOps1_1_writes h2).trans <|
        StableHlo.after_of_writes_sub hostOps1 _ hostOps1_writes h1

/-- The first argument ends as launched: the correlation region does not stage it, no host stretch writes it, and the
    normalisation region only reads it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W1 m c (Proc.devRef .tc main_arg0) := W5_of m c main_arg0 (by decide) (by decide) (by decide) (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W1 m c (Proc.devRef .tc main_arg1) := W5_of m c main_arg1 (by decide) (by decide) (by decide) (by decide)
    _ = W0 m c (Proc.devRef .tc main_arg1) := (W1_arr m c 1).trans (((dat0 (V0 m) c).arrAt_in 1 rfl _).trans (A_eq0 (V0 m) c 1))
    _ = m ((c : Thread nD τ).loc main_arg1) := rfl

/-! ## The proof data family and the thread state -/

abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Kernel region 0 over the thread state: entered with every unscoped buffer at the contents before it, left with
    them at the contents after it. Its arrays are split out of the unscoped buffers and put back at what the write-backs
    leave; the generator register goes into the region's invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at the contents before it, left with
    them at the contents after it. Its arrays are split out of the unscoped buffers and put back at what the write-backs
    leave; the generator register goes into the region's invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    iintro ⟨Hp, -, Hr⟩
    iapply (hin1 (V5 m) c)
    unfold Pipeline.ΦA
    isplitl [Hr]; · iexact Hr
    iexact Hp
  hout c := by
    rw [Pipeline.ownSems0_none, show (pdats m 1 c).Φ (Fin.last _) = (dat1 (V5 m) c).Φ (Fin.last cfg1.N) from rfl]
    have hA : (Pipeline.ΦA spec1 c : sProp 𝕄) ⊢ iprop(Pipeline.scopedRest spec1 c ∗ ∃ r, prngReg c r) := by
      unfold Pipeline.ΦA; exact .rfl
    iintro Hphi
    ihave Hplain := (hout1 (V5 m) c) $$ Hphi
    ihave Hparts := hA $$ Hplain
    icases Hparts with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer at the fold's last stage. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME, at any float instance: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W6_main_arg0 m c),
     (h c _ (mem_uc main_arg1 (by decide))).trans (W6_main_arg1 m c)⟩) (run_main m ρ)

/-- The result buffer ends at what the correlation region's write-backs leave in it. -/
theorem run_result : θ_run defs (onTc (τ := τ) (main (F := F))) ⟨m, fun _ => 0, ρ⟩ (fun r => ∀ c : Dev nD,
      r.2.mem ((c.tc : Thread nD τ).loc main_v3) = (dat1 (V5 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v3 (by decide))).trans (W6_arr m c 2),
     (h c _ (mem_uc main_arg0 (by decide))).trans (W6_main_arg0 m c),
     (h c _ (mem_uc main_arg1 (by decide))).trans (W6_main_arg1 m c)⟩) (run_main m ρ)

end Cert.KernelIdeal.Frm

end
-- ==== Proof.Spec.lean ====
/-
  What both programs compute, index by index, on the extended reals.

  For an input x : [4, 128, 192, 256] (batch, channel, row, column) the channel normalisation is
    nrm x (b, c, h, w) = x (b, c, h, w) / max (sqrt (sum over c' of x (b, c', h, w)^2)) eps,
  eps the f32 word 0x2B8CBCCC.  Both programs pad the two normalised arrays with one zero row and column
  on each side of the two spatial axes (the same pad operation on both sides, carried here as one
  function and never opened), and then take, for each of the nine offsets k = 3 i + j of a 3 x 3 window,
    corr P Q (b, k, h, w) = max (sum over the 128 channels c of P (b, c, h + i, w + j) * Q (b, c, h + i, w + j)) 0.
  The kernel adds the 128 channels up in eight groups of sixteen (one group per grid point, into a
  scratch accumulator that starts at zero); `sum_groups` is the regrouping law: on an additive
  commutative monoid the sum over 128 = 8 * 16 indices is the sum over the groups of the groups' sums.
-/
import Idealize.ShloMosaic.PureOps.Ideal
import Idealize.ShloMosaic.PureOps.Ideal.Laws
import Idealize.ShloMosaic.Lib.ValueIdx

noncomputable section

namespace Cert.WinCorr

open Idealize.ShloMosaic Idealize.ShloMosaic.ValueIdx

abbrev SX : Shape := ⟨4, ![4, 128, 192, 256]⟩
abbrev SP : Shape := ⟨4, ![4, 128, 194, 258]⟩
abbrev SO : Shape := ⟨4, ![4, 9, 192, 256]⟩

/-- The floor of the norm: the f32 word both programs print. -/
def eps : EReal := Ideal.ofBits .f32 0x2B8CBCCC#32

/-- The sum of squares over the channel axis at (b, h, w). -/
def sumsq (x : SX.Idx → EReal) (b : Fin 4) (h : Fin 192) (w : Fin 256) : EReal :=
  ∑ k : Fin 128, x (ix4 b k h w) * x (ix4 b k h w)

/-- The normalised entry at explicit coordinates. -/
def nrmAt (x : SX.Idx → EReal) (b : Fin 4) (c : Fin 128) (h : Fin 192) (w : Fin 256) : EReal :=
  Ideal.div (x (ix4 b c h w)) (max (Ideal.sqrt (sumsq x b h w)) eps)

/-- The channel normalisation of a whole array. -/
def nrm (x : SX.Idx → EReal) : SX.Idx → EReal := fun j => nrmAt x (j 0) (j 1) (j 2) (j 3)

/-- Row offset i and column offset j of window position k = 3 i + j. -/
abbrev offH (k : Fin 9) : Nat := k.val / 3
abbrev offW (k : Fin 9) : Nat := k.val % 3

/-- The padded index (b, c, h + i, w + j) for window position k. -/
def pidx (b : Fin 4) (c : Fin 128) (k : Fin 9) (h : Fin 192) (w : Fin 256) : SP.Idx :=
  ix4 b c (⟨h.val + offH k, by show h.val + k.val / 3 < 194; have := h.isLt; have := k.isLt; omega⟩ : Fin 194)
    (⟨w.val + offW k, by show w.val + k.val % 3 < 258; have := w.isLt; have := k.isLt; omega⟩ : Fin 258)

/-- The channel dot product of the two padded arrays at window position k, before the clamp. -/
def dotAt (P Q : SP.Idx → EReal) (b : Fin 4) (k : Fin 9) (h : Fin 192) (w : Fin 256) : EReal :=
  ∑ c : Fin 128, P (pidx b c k h w) * Q (pidx b c k h w)

/-- The clamped correlation at explicit coordinates. -/
def corrAt (P Q : SP.Idx → EReal) (b : Fin 4) (k : Fin 9) (h : Fin 192) (w : Fin 256) : EReal :=
  max (dotAt P Q b k h w) 0

/-- The clamped correlation of two padded arrays, as a whole array. -/
def corr (P Q : SP.Idx → EReal) : SO.Idx → EReal := fun j => corrAt P Q (j 0) (j 1) (j 2) (j 3)

/-- The padding value: the integer zero converted to f32, as both programs spell it. -/
def zpad : (⟨0, ![]⟩ : Shape).Idx → EReal := sitofp (F := Ideal) .f32 (constantI ⟨0, ![]⟩ 32 0#32)

/-- One zero row and column on each side of the two spatial axes: the pad operation both programs apply
    to each normalised array, as one function (it is the same term on both sides and is never opened). -/
def padz (y : SX.Idx → EReal) : SP.Idx → EReal :=
  pad SP ![0, 0, 1, 1] ![0, 0, 1, 1] ![0, 0, 0, 0] y zpad (by decide) (by decide)

/-- The whole result: the clamped window correlation of the two padded normalised arrays. -/
def result (x y : SX.Idx → EReal) : SO.Idx → EReal := corr (padz (nrm x)) (padz (nrm y))

/-- Channel 16 g + r as a channel index: group g of sixteen, position r in the group. -/
def chan (g : Fin 8) (r : Fin 16) : Fin 128 := ⟨16 * g.val + r.val, by have := g.isLt; have := r.isLt; omega⟩

/-- The regrouping law: a sum over the 128 channels is the sum over eight groups of the sums over each
    group's sixteen channels (commutativity and associativity of + only: true at the infinities too). -/
theorem sum_groups {M : Type*} [AddCommMonoid M] (f : Fin 128 → M) :
    ∑ c : Fin 128, f c = ∑ g : Fin 8, ∑ r : Fin 16, f (chan g r) := by
  rw [← Finset.sum_product', Finset.univ_product_univ]
  refine Fintype.sum_equiv (finProdFinEquiv (m := 8) (n := 16)).symm f (fun p : Fin 8 × Fin 16 => f (chan p.1 p.2)) fun c => ?_
  congr 1
  apply Fin.ext
  simp only [chan, finProdFinEquiv_symm_apply, Fin.coe_divNat, Fin.coe_modNat]
  omega

end Cert.WinCorr

end
-- ==== Proof.Pad.lean ====
/-
  The two zero paddings between the kernel regions, at the ideal instance: the correlation region finds, in the two
  padded buffers, the pad of what the normalisation region left in its two outputs. The pad is carried as one function
  and never opened; the two integer-zero stretches write only their own scalars.
-/
import proofs.«111086_j22445499089557_1_alg».proof.Proof.Run
import proofs.«111086_j22445499089557_1_alg».proof.Proof.Spec
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

/-- The first padded buffer at the correlation region's entry: the pad of the first normalised array. -/
theorem V5_v1 (c : Dev nD) : V5 m c main_v1 = Cert.WinCorr.padz (V1 m c main_v0_0) := by
  have h : W5 m c (Proc.devRef .tc main_v1) = W3 m c (Proc.devRef .tc main_v1) :=
    (StableHlo.after_of_writes_sub hostOps1_3 _ hostOps1_3_writes (by decide)).trans
      (StableHlo.after_of_writes_sub hostOps1_2 _ hostOps1_2_writes (by decide))
  refine h.trans ?_
  show StableHlo.after hostOps1_1 (StableHlo.after hostOps1 (W1 m c)) (Proc.devRef .tc main_v1) = _
  after_results
  rfl

/-- The second padded buffer likewise. -/
theorem V5_v2 (c : Dev nD) : V5 m c main_v2 = Cert.WinCorr.padz (V1 m c main_v0_1) := by
  show StableHlo.after hostOps1_3 (StableHlo.after hostOps1_2 (StableHlo.after hostOps1_1 (StableHlo.after hostOps1 (W1 m c)))) (Proc.devRef .tc main_v2) = _
  after_results
  rfl

end Cert.KernelIdeal.Val

end
-- ==== Proof.RefValue.lean ====
/-
  The reference program computes the specification's result.

  Stage by stage: each argument divided by the floored square root of its channel sum of squares is the channel
  normalisation; the two pads are the one pad operation of the normalised arrays; for each of the nine offsets
  (oh, ow) of the 3 x 3 window the sum over the channel axis of the product of the two slices at (oh, ow), read at
  (b, h, w), is the sum over the 128 channels c of the padded arrays' product at (b, c, h + oh, w + ow), which is
  the channel dot product at window position k = 3 oh + ow; the concatenation along axis 1 of the nine such
  arrays reads, at (b, k, h, w), the k-th of them at (b, 0, h, w); and the final maximum with zero is the clamp.
-/
import proofs.«111086_j22445499089557_1_alg».proof.Proof.Gen.ReferenceIdeal.Run
import proofs.«111086_j22445499089557_1_alg».proof.Proof.Gen.ReferenceIdeal.Read
import proofs.«111086_j22445499089557_1_alg».proof.Proof.Spec
import Idealize.ShloMosaic.Lib.ValueIdx
import Idealize.ShloMosaic.Lib.Pipeline.Value
import Idealize.ShloMosaic.PureOps.Ideal
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.WinCorr

/-- The first argument's normalisation stage is the channel normalisation: the divisor at (b, c, h, w) is
    the square root of the sum over the channels of the squares at (b, ·, h, w), floored at eps. -/
theorem v7_eq (x : SX.Idx → EReal) : Read.val_main_v7 (F := Ideal) x = nrm x := by
  funext j
  obtain ⟨b, c, h, w, rfl⟩ : ∃ (b : Fin 4) (c : Fin 128) (h : Fin 192) (w : Fin 256), j = ix4 b c h w :=
    ⟨j 0, j 1, j 2, j 3, eq_ix4 j⟩
  rw [Read.val_main_v7_apply, Read.val_main_v6_apply, Read.val_main_v5_apply, Read.val_main_v3_apply,
    Read.val_main_v2_apply, Read.val_main_v1_apply, Read.val_main_v4_apply, Read.val_main_cst_0_apply,
    Read.val_main_cst_apply]
  have hidx : ∀ k : Fin 128,
      Read.idx_main_v1 (Read.idx_main_v2 (Read.idx_main_v6 (ix4 b c h w))) k = ix4 b k h w := fun k =>
    funext fun a => Fin.ext (by match a with | ⟨0, _⟩ => rfl | ⟨1, _⟩ => rfl | ⟨2, _⟩ => rfl | ⟨3, _⟩ => rfl)
  simp only [hidx, Read.val_main_v0_apply, Ideal.hostDivf_def, Ideal.maximumf_def, Ideal.hostUnary_sqrt_def,
    Ideal.ofBits_def, Ideal.mulf_def, Ideal.ofBits_zero_f32, zero_add]
  rfl

/-- The second argument's normalisation stage likewise. -/
theorem v15_eq (x : SX.Idx → EReal) : Read.val_main_v15 (F := Ideal) x = nrm x := by
  funext j
  obtain ⟨b, c, h, w, rfl⟩ : ∃ (b : Fin 4) (c : Fin 128) (h : Fin 192) (w : Fin 256), j = ix4 b c h w :=
    ⟨j 0, j 1, j 2, j 3, eq_ix4 j⟩
  rw [Read.val_main_v15_apply, Read.val_main_v14_apply, Read.val_main_v13_apply, Read.val_main_v11_apply,
    Read.val_main_v10_apply, Read.val_main_v9_apply, Read.val_main_v12_apply, Read.val_main_cst_2_apply,
    Read.val_main_cst_1_apply]
  have hidx : ∀ k : Fin 128,
      Read.idx_main_v9 (Read.idx_main_v10 (Read.idx_main_v14 (ix4 b c h w))) k = ix4 b k h w := fun k =>
    funext fun a => Fin.ext (by match a with | ⟨0, _⟩ => rfl | ⟨1, _⟩ => rfl | ⟨2, _⟩ => rfl | ⟨3, _⟩ => rfl)
  simp only [hidx, Read.val_main_v8_apply, Ideal.hostDivf_def, Ideal.maximumf_def, Ideal.hostUnary_sqrt_def,
    Ideal.ofBits_def, Ideal.mulf_def, Ideal.ofBits_zero_f32, zero_add]
  rfl

/-- The two padded stages are the pad of the normalised arrays, with the padding value the integer zero
    converted to f32. -/
theorem v16_eq (x : SX.Idx → EReal) :
    Read.val_main_v16 (F := Ideal) x = padz (Read.val_main_v7 (F := Ideal) x) := rfl

theorem v17_eq (x : SX.Idx → EReal) :
    Read.val_main_v17 (F := Ideal) x = padz (Read.val_main_v15 (F := Ideal) x) := rfl

/-- The sum over the channel axis, from the zero initial value, of the product of the two slices of padded
    arrays P and Q at row offset oh and column offset ow, read at (b, h, w): the sum over the 128 channels c of
    P (b, c, h + oh, w + ow) * Q (b, c, h + oh, w + ow). -/
theorem dot_stage (oh ow : Nat) (hoh : oh ≤ 2) (how : ow ≤ 2)
    (hs : S4x128x194x258.Slices ![0, 0, oh, ow] S4x128x192x256)
    (P Q : SP.Idx → EReal) (b : Fin 4) (h : Fin 192) (w : Fin 256) :
    Host.reduceAdd (F := Ideal)
        (mulf (extractStridedSlice S4x128x192x256 ![0, 0, oh, ow] P hs)
          (extractStridedSlice S4x128x192x256 ![0, 0, oh, ow] Q hs))
        (constant (F := Ideal) S_ .f32 0x00000000#32) reducesTo_S4x128x192x256_S4x192x256_d1 h_S_ (ix3 b h w)
      = ∑ c : Fin 128,
          P (ix4 b c (⟨h.val + oh, by have := h.isLt; omega⟩ : Fin 194) (⟨w.val + ow, by have := w.isLt; omega⟩ : Fin 258))
            * Q (ix4 b c (⟨h.val + oh, by have := h.isLt; omega⟩ : Fin 194) (⟨w.val + ow, by have := w.isLt; omega⟩ : Fin 258)) := by
  have hR : S4x128x192x256.Reduces [1] S4x192x256 := by decide
  have hrd : ∀ (R : SP.Idx → EReal) (c : Fin 128),
      extractStridedSlice S4x128x192x256 ![0, 0, oh, ow] R hs (hR.lift (ix3 b h w) c)
        = R (ix4 b c (⟨h.val + oh, by have := h.isLt; omega⟩ : Fin 194) (⟨w.val + ow, by have := w.isLt; omega⟩ : Fin 258)) :=
    fun R c => extractStridedSlice_apply _ R hs _ _ (fun a => match a with
      | ⟨0, _⟩ => by show b.val = 0 + b.val; omega
      | ⟨1, _⟩ => by show c.val = 0 + c.val; omega
      | ⟨2, _⟩ => by show h.val + oh = oh + h.val; omega
      | ⟨3, _⟩ => by show w.val + ow = ow + w.val; omega)
  simp only [Host.reduceAdd, Ideal.hostReduceAdd_def]
  rw [Ideal.hostReduceAdd_single reducesTo_S4x128x192x256_S4x192x256_d1 hR]
  refine (congrArg (· + _) Ideal.ofBits_zero_f32).trans ((zero_add _).trans ?_)
  exact Finset.sum_congr rfl fun c _ => congrArg₂ (· * ·) (hrd P c) (hrd Q c)

/-- The same stage over the two padded normalised arrays is the channel dot product at window position k,
    when oh and ow are k's row and column offsets. -/
theorem stage_at (oh ow : Nat) (hoh : oh ≤ 2) (how : ow ≤ 2)
    (hs : S4x128x194x258.Slices ![0, 0, oh, ow] S4x128x192x256)
    (x0 x1 : SX.Idx → EReal) (b : Fin 4) (h : Fin 192) (w : Fin 256) (k : Fin 9)
    (hk1 : k.val / 3 = oh) (hk2 : k.val % 3 = ow) :
    Host.reduceAdd (F := Ideal)
        (mulf (extractStridedSlice S4x128x192x256 ![0, 0, oh, ow] (Read.val_main_v16 (F := Ideal) x0) hs)
          (extractStridedSlice S4x128x192x256 ![0, 0, oh, ow] (Read.val_main_v17 (F := Ideal) x1) hs))
        (constant (F := Ideal) S_ .f32 0x00000000#32) reducesTo_S4x128x192x256_S4x192x256_d1 h_S_ (ix3 b h w)
      = dotAt (padz (nrm x0)) (padz (nrm x1)) b k h w := by
  subst hk1 hk2
  rw [v16_eq, v17_eq, v7_eq, v15_eq]
  exact dot_stage _ _ hoh how hs _ _ b h w

/-! The nine broadcast stages at (b, 0, h, w): window position k = 3 oh + ow reads the sum stage of the
    slices at offsets (oh, ow) at (b, h, w). -/

theorem v54_at (x0 x1 : SX.Idx → EReal) (b : Fin 4) (h : Fin 192) (w : Fin 256) :
    Read.val_main_v54 (F := Ideal) x0 x1 (ix4 b (0 : Fin 1) h w)
      = dotAt (padz (nrm x0)) (padz (nrm x1)) b (⟨0, by decide⟩ : Fin 9) h w := by
  rw [Read.val_main_v54_apply]
  have e : Read.idx_main_v54 (ix4 b (0 : Fin 1) h w) = ix3 b h w :=
    funext fun a => Fin.ext (by match a with | ⟨0, _⟩ => rfl | ⟨1, _⟩ => rfl | ⟨2, _⟩ => rfl)
  rw [e]
  exact stage_at 0 0 (by omega) (by omega) slices_S4x128x194x258_S4x128x192x256_0_0_0_0 x0 x1 b h w
    ⟨0, by decide⟩ rfl rfl

theorem v55_at (x0 x1 : SX.Idx → EReal) (b : Fin 4) (h : Fin 192) (w : Fin 256) :
    Read.val_main_v55 (F := Ideal) x0 x1 (ix4 b (0 : Fin 1) h w)
      = dotAt (padz (nrm x0)) (padz (nrm x1)) b (⟨1, by decide⟩ : Fin 9) h w := by
  rw [Read.val_main_v55_apply]
  have e : Read.idx_main_v55 (ix4 b (0 : Fin 1) h w) = ix3 b h w :=
    funext fun a => Fin.ext (by match a with | ⟨0, _⟩ => rfl | ⟨1, _⟩ => rfl | ⟨2, _⟩ => rfl)
  rw [e]
  exact stage_at 0 1 (by omega) (by omega) slices_S4x128x194x258_S4x128x192x256_0_0_0_1 x0 x1 b h w
    ⟨1, by decide⟩ rfl rfl

theorem v56_at (x0 x1 : SX.Idx → EReal) (b : Fin 4) (h : Fin 192) (w : Fin 256) :
    Read.val_main_v56 (F := Ideal) x0 x1 (ix4 b (0 : Fin 1) h w)
      = dotAt (padz (nrm x0)) (padz (nrm x1)) b (⟨2, by decide⟩ : Fin 9) h w := by
  rw [Read.val_main_v56_apply]
  have e : Read.idx_main_v56 (ix4 b (0 : Fin 1) h w) = ix3 b h w :=
    funext fun a => Fin.ext (by match a with | ⟨0, _⟩ => rfl | ⟨1, _⟩ => rfl | ⟨2, _⟩ => rfl)
  rw [e]
  exact stage_at 0 2 (by omega) (by omega) slices_S4x128x194x258_S4x128x192x256_0_0_0_2 x0 x1 b h w
    ⟨2, by decide⟩ rfl rfl

theorem v57_at (x0 x1 : SX.Idx → EReal) (b : Fin 4) (h : Fin 192) (w : Fin 256) :
    Read.val_main_v57 (F := Ideal) x0 x1 (ix4 b (0 : Fin 1) h w)
      = dotAt (padz (nrm x0)) (padz (nrm x1)) b (⟨3, by decide⟩ : Fin 9) h w := by
  rw [Read.val_main_v57_apply]
  have e : Read.idx_main_v57 (ix4 b (0 : Fin 1) h w) = ix3 b h w :=
    funext fun a => Fin.ext (by match a with | ⟨0, _⟩ => rfl | ⟨1, _⟩ => rfl | ⟨2, _⟩ => rfl)
  rw [e]
  exact stage_at 1 0 (by omega) (by omega) slices_S4x128x194x258_S4x128x192x256_0_0_1_0 x0 x1 b h w
    ⟨3, by decide⟩ rfl rfl

theorem v58_at (x0 x1 : SX.Idx → EReal) (b : Fin 4) (h : Fin 192) (w : Fin 256) :
    Read.val_main_v58 (F := Ideal) x0 x1 (ix4 b (0 : Fin 1) h w)
      = dotAt (padz (nrm x0)) (padz (nrm x1)) b (⟨4, by decide⟩ : Fin 9) h w := by
  rw [Read.val_main_v58_apply]
  have e : Read.idx_main_v58 (ix4 b (0 : Fin 1) h w) = ix3 b h w :=
    funext fun a => Fin.ext (by match a with | ⟨0, _⟩ => rfl | ⟨1, _⟩ => rfl | ⟨2, _⟩ => rfl)
  rw [e]
  exact stage_at 1 1 (by omega) (by omega) slices_S4x128x194x258_S4x128x192x256_0_0_1_1 x0 x1 b h w
    ⟨4, by decide⟩ rfl rfl

theorem v59_at (x0 x1 : SX.Idx → EReal) (b : Fin 4) (h : Fin 192) (w : Fin 256) :
    Read.val_main_v59 (F := Ideal) x0 x1 (ix4 b (0 : Fin 1) h w)
      = dotAt (padz (nrm x0)) (padz (nrm x1)) b (⟨5, by decide⟩ : Fin 9) h w := by
  rw [Read.val_main_v59_apply]
  have e : Read.idx_main_v59 (ix4 b (0 : Fin 1) h w) = ix3 b h w :=
    funext fun a => Fin.ext (by match a with | ⟨0, _⟩ => rfl | ⟨1, _⟩ => rfl | ⟨2, _⟩ => rfl)
  rw [e]
  exact stage_at 1 2 (by omega) (by omega) slices_S4x128x194x258_S4x128x192x256_0_0_1_2 x0 x1 b h w
    ⟨5, by decide⟩ rfl rfl

theorem v60_at (x0 x1 : SX.Idx → EReal) (b : Fin 4) (h : Fin 192) (w : Fin 256) :
    Read.val_main_v60 (F := Ideal) x0 x1 (ix4 b (0 : Fin 1) h w)
      = dotAt (padz (nrm x0)) (padz (nrm x1)) b (⟨6, by decide⟩ : Fin 9) h w := by
  rw [Read.val_main_v60_apply]
  have e : Read.idx_main_v60 (ix4 b (0 : Fin 1) h w) = ix3 b h w :=
    funext fun a => Fin.ext (by match a with | ⟨0, _⟩ => rfl | ⟨1, _⟩ => rfl | ⟨2, _⟩ => rfl)
  rw [e]
  exact stage_at 2 0 (by omega) (by omega) slices_S4x128x194x258_S4x128x192x256_0_0_2_0 x0 x1 b h w
    ⟨6, by decide⟩ rfl rfl

theorem v61_at (x0 x1 : SX.Idx → EReal) (b : Fin 4) (h : Fin 192) (w : Fin 256) :
    Read.val_main_v61 (F := Ideal) x0 x1 (ix4 b (0 : Fin 1) h w)
      = dotAt (padz (nrm x0)) (padz (nrm x1)) b (⟨7, by decide⟩ : Fin 9) h w := by
  rw [Read.val_main_v61_apply]
  have e : Read.idx_main_v61 (ix4 b (0 : Fin 1) h w) = ix3 b h w :=
    funext fun a => Fin.ext (by match a with | ⟨0, _⟩ => rfl | ⟨1, _⟩ => rfl | ⟨2, _⟩ => rfl)
  rw [e]
  exact stage_at 2 1 (by omega) (by omega) slices_S4x128x194x258_S4x128x192x256_0_0_2_1 x0 x1 b h w
    ⟨7, by decide⟩ rfl rfl

theorem v62_at (x0 x1 : SX.Idx → EReal) (b : Fin 4) (h : Fin 192) (w : Fin 256) :
    Read.val_main_v62 (F := Ideal) x0 x1 (ix4 b (0 : Fin 1) h w)
      = dotAt (padz (nrm x0)) (padz (nrm x1)) b (⟨8, by decide⟩ : Fin 9) h w := by
  rw [Read.val_main_v62_apply]
  have e : Read.idx_main_v62 (ix4 b (0 : Fin 1) h w) = ix3 b h w :=
    funext fun a => Fin.ext (by match a with | ⟨0, _⟩ => rfl | ⟨1, _⟩ => rfl | ⟨2, _⟩ => rfl)
  rw [e]
  exact stage_at 2 2 (by omega) (by omega) slices_S4x128x194x258_S4x128x192x256_0_0_2_2 x0 x1 b h w
    ⟨8, by decide⟩ rfl rfl

/-- Nine arrays of one shape as the list a concatenation takes. -/
abbrev nine {α : Type} (y0 y1 y2 y3 y4 y5 y6 y7 y8 : S4x1x192x256.Idx → α) : List ((s : Shape) × (s.Idx → α)) :=
  [⟨S4x1x192x256, y0⟩, ⟨S4x1x192x256, y1⟩, ⟨S4x1x192x256, y2⟩, ⟨S4x1x192x256, y3⟩, ⟨S4x1x192x256, y4⟩, ⟨S4x1x192x256, y5⟩, ⟨S4x1x192x256, y6⟩, ⟨S4x1x192x256, y7⟩, ⟨S4x1x192x256, y8⟩]

/-- A concatenation along axis 1 of nine arrays of extent one there, read at (b, k, h, w): the k-th array
    at (b, 0, h, w). -/
theorem concat9_at {α : Type} (y0 y1 y2 y3 y4 y5 y6 y7 y8 : S4x1x192x256.Idx → α)
    (hc : Shape.Concatenates ((nine y0 y1 y2 y3 y4 y5 y6 y7 y8).map (·.1)) S4x9x192x256 1)
    (b : Fin 4) (k : Fin 9) (h : Fin 192) (w : Fin 256) :
    concatenate S4x9x192x256 1 (nine y0 y1 y2 y3 y4 y5 y6 y7 y8) hc (ix4 b k h w)
      = (match k with
          | ⟨0, _⟩ => y0 | ⟨1, _⟩ => y1 | ⟨2, _⟩ => y2 | ⟨3, _⟩ => y3 | ⟨4, _⟩ => y4
          | ⟨5, _⟩ => y5 | ⟨6, _⟩ => y6 | ⟨7, _⟩ => y7 | ⟨8, _⟩ => y8) (ix4 b (0 : Fin 1) h w) := by
  have hi : ∀ (k' : Fin 9) (a : Fin S4x1x192x256.rank), a.cast (rfl : S4x1x192x256.rank = S4x9x192x256.rank) ≠ 1 →
      ((ix4 b (0 : Fin 1) h w : S4x1x192x256.Idx) a).val
        = ((ix4 b k' h w : S4x9x192x256.Idx) (a.cast (rfl : S4x1x192x256.rank = S4x9x192x256.rank))).val :=
    fun k' a => match a with
      | ⟨0, _⟩ => fun _ => rfl
      | ⟨1, _⟩ => fun ha => absurd rfl ha
      | ⟨2, _⟩ => fun _ => rfl
      | ⟨3, _⟩ => fun _ => rfl
  match k with
  | ⟨0, _⟩ =>
    exact concatenate_apply_piece 1 (nine y0 y1 y2 y3 y4 y5 y6 y7 y8) hc _ 0 (by show (0 : Nat) < 9; decide) S4x1x192x256 y0 rfl rfl 0 rfl
      (ix4 b (0 : Fin 1) h w) (hi _) rfl
  | ⟨1, _⟩ =>
    exact concatenate_apply_piece 1 (nine y0 y1 y2 y3 y4 y5 y6 y7 y8) hc _ 1 (by show (1 : Nat) < 9; decide) S4x1x192x256 y1 rfl rfl 1 rfl
      (ix4 b (0 : Fin 1) h w) (hi _) rfl
  | ⟨2, _⟩ =>
    exact concatenate_apply_piece 1 (nine y0 y1 y2 y3 y4 y5 y6 y7 y8) hc _ 2 (by show (2 : Nat) < 9; decide) S4x1x192x256 y2 rfl rfl 2 rfl
      (ix4 b (0 : Fin 1) h w) (hi _) rfl
  | ⟨3, _⟩ =>
    exact concatenate_apply_piece 1 (nine y0 y1 y2 y3 y4 y5 y6 y7 y8) hc _ 3 (by show (3 : Nat) < 9; decide) S4x1x192x256 y3 rfl rfl 3 rfl
      (ix4 b (0 : Fin 1) h w) (hi _) rfl
  | ⟨4, _⟩ =>
    exact concatenate_apply_piece 1 (nine y0 y1 y2 y3 y4 y5 y6 y7 y8) hc _ 4 (by show (4 : Nat) < 9; decide) S4x1x192x256 y4 rfl rfl 4 rfl
      (ix4 b (0 : Fin 1) h w) (hi _) rfl
  | ⟨5, _⟩ =>
    exact concatenate_apply_piece 1 (nine y0 y1 y2 y3 y4 y5 y6 y7 y8) hc _ 5 (by show (5 : Nat) < 9; decide) S4x1x192x256 y5 rfl rfl 5 rfl
      (ix4 b (0 : Fin 1) h w) (hi _) rfl
  | ⟨6, _⟩ =>
    exact concatenate_apply_piece 1 (nine y0 y1 y2 y3 y4 y5 y6 y7 y8) hc _ 6 (by show (6 : Nat) < 9; decide) S4x1x192x256 y6 rfl rfl 6 rfl
      (ix4 b (0 : Fin 1) h w) (hi _) rfl
  | ⟨7, _⟩ =>
    exact concatenate_apply_piece 1 (nine y0 y1 y2 y3 y4 y5 y6 y7 y8) hc _ 7 (by show (7 : Nat) < 9; decide) S4x1x192x256 y7 rfl rfl 7 rfl
      (ix4 b (0 : Fin 1) h w) (hi _) rfl
  | ⟨8, _⟩ =>
    exact concatenate_apply_piece 1 (nine y0 y1 y2 y3 y4 y5 y6 y7 y8) hc _ 8 (by show (8 : Nat) < 9; decide) S4x1x192x256 y8 rfl rfl 8 rfl
      (ix4 b (0 : Fin 1) h w) (hi _) rfl

/-- The concatenated stage at (b, k, h, w) is the channel dot product at window position k. -/
theorem v63_at (x0 x1 : SX.Idx → EReal) (b : Fin 4) (k : Fin 9) (h : Fin 192) (w : Fin 256) :
    Read.val_main_v63 (F := Ideal) x0 x1 (ix4 b k h w) = dotAt (padz (nrm x0)) (padz (nrm x1)) b k h w := by
  unfold Read.val_main_v63
  refine (concat9_at
      (Read.val_main_v54 (F := Ideal) x0 x1)
      (Read.val_main_v55 (F := Ideal) x0 x1)
      (Read.val_main_v56 (F := Ideal) x0 x1)
      (Read.val_main_v57 (F := Ideal) x0 x1)
      (Read.val_main_v58 (F := Ideal) x0 x1)
      (Read.val_main_v59 (F := Ideal) x0 x1)
      (Read.val_main_v60 (F := Ideal) x0 x1)
      (Read.val_main_v61 (F := Ideal) x0 x1)
      (Read.val_main_v62 (F := Ideal) x0 x1)
      concatenates_S4x1x192x256_S4x1x192x256_S4x1x192x256_S4x1x192x256_S4x1x192x256_S4x1x192x256_S4x1x192x256_S4x1x192x256_S4x1x192x256_S4x9x192x256_d1
      b k h w).trans ?_
  match k with
  | ⟨0, _⟩ => exact v54_at x0 x1 b h w
  | ⟨1, _⟩ => exact v55_at x0 x1 b h w
  | ⟨2, _⟩ => exact v56_at x0 x1 b h w
  | ⟨3, _⟩ => exact v57_at x0 x1 b h w
  | ⟨4, _⟩ => exact v58_at x0 x1 b h w
  | ⟨5, _⟩ => exact v59_at x0 x1 b h w
  | ⟨6, _⟩ => exact v60_at x0 x1 b h w
  | ⟨7, _⟩ => exact v61_at x0 x1 b h w
  | ⟨8, _⟩ => exact v62_at x0 x1 b h w

/-- The last stage, the maximum with the broadcast zero, is the specification's result. -/
theorem v65_eq (x0 x1 : SX.Idx → EReal) : Read.val_main_v65 (F := Ideal) x0 x1 = result x0 x1 := by
  funext j
  obtain ⟨b, k, h, w, rfl⟩ : ∃ (b : Fin 4) (k : Fin 9) (h : Fin 192) (w : Fin 256), j = ix4 b k h w :=
    ⟨j 0, j 1, j 2, j 3, eq_ix4 j⟩
  rw [Read.val_main_v65_apply, Read.val_main_v64_apply, Read.val_main_cst_13_apply, v63_at]
  simp only [Ideal.maximumf_def, Ideal.ofBits_def, Ideal.ofBits_zero_f32]
  rfl

/-- The reference program's result is the specification's result of its two arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = Cert.WinCorr.result (m ((c.tc : Thread nD τ).loc main_arg0)) (m ((c.tc : Thread nD τ).loc main_arg1)) :=
  (Read.val_main_v65_eq m c).trans (v65_eq _ _)

end Cert.ReferenceIdeal.RefValue

end
-- ==== Proof.Assemble.lean ====
/-
  The assembly, at the ideal instance: given what the two kernel regions leave in their output arrays (the
  normalisation of each input; the clamped window correlation of the two padded buffers), the program's result buffer
  ends at Cert.WinCorr.result of the two arguments, which is also what the reference computes; so the two runs end with
  equal results.
-/
import proofs.«111086_j22445499089557_1_alg».proof.Defs
import proofs.«111086_j22445499089557_1_alg».proof.Proof.Pad
import proofs.«111086_j22445499089557_1_alg».proof.Proof.RefValue
import proofs.«111086_j22445499089557_1_alg».proof.Proof.Gen.Pre_finite_inputs

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem

/-- The region value facts the assembly takes: each normalisation output is the normalisation of its input; the
    correlation output is the clamped correlation of the two buffers the region stages. -/
structure RegionValues : Prop where
  norm0 : ∀ (V : (c : Dev nD) → (b : Ref sig .tc) → Buf (Elt Ideal) ((c : Thread nD τ).loc b)) (c : Dev nD),
    (dat0 (F := Ideal) V c).arrAt 2 cfg0.N = Cert.WinCorr.nrm (V c main_arg0)
  norm1 : ∀ (V : (c : Dev nD) → (b : Ref sig .tc) → Buf (Elt Ideal) ((c : Thread nD τ).loc b)) (c : Dev nD),
    (dat0 (F := Ideal) V c).arrAt 3 cfg0.N = Cert.WinCorr.nrm (V c main_arg1)
  corr : ∀ (V : (c : Dev nD) → (b : Ref sig .tc) → Buf (Elt Ideal) ((c : Thread nD τ).loc b)) (c : Dev nD),
    (dat1 (F := Ideal) V c).arrAt 2 cfg1.N = Cert.WinCorr.corr (V c main_v1) (V c main_v2)

variable (m : (ℓ : Loc nD τ sig) → Buf (Elt Ideal) ℓ)

/-- What the correlation region's write-backs leave in the result buffer is the specification's result of the two
    arguments: the correlation of the pads of the normalisations. -/
theorem result_eq (hv : RegionValues) (c : Dev nD) :
    (dat1 (F := Ideal) (V5 m) c).arrAt 2 cfg1.N
      = Cert.WinCorr.result (m ((c.tc : Thread nD τ).loc main_arg0)) (m ((c.tc : Thread nD τ).loc main_arg1)) := by
  rw [hv.corr (V5 m) c, V5_v1 m c, V5_v2 m c]
  rw [show V1 m c main_v0_0 = (dat0 (V0 m) c).arrAt 2 cfg0.N from W1_arr m c 2,
    show V1 m c main_v0_1 = (dat0 (V0 m) c).arrAt 3 cfg0.N from W1_arr m c 3, hv.norm0 (V0 m) c, hv.norm1 (V0 m) c]
  rfl

end Cert.KernelIdeal.Val

namespace Cert.Proof.Parts

open Idealize.ShloMosaic Idealize.ShloMosaic.TcCoe Idealize.SL.Sem

/-- The idealized kernel and the idealized reference, run from memories agreeing on the arguments, end with equal
    results: both result buffers hold Cert.WinCorr.result of the arguments. -/
theorem algebraic (hv : Cert.KernelIdeal.Val.RegionValues) : Cert.algebraic_KernelIdeal_ReferenceIdeal := by
  intro m ρ m' ρ' _ hagree
  refine ⟨fun c => Cert.WinCorr.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Val.result_eq m hv c), (h c).2.1, (h c).2.2⟩)
      (Cert.KernelIdeal.Frm.run_result (F := Ideal) m ρ)
  · refine (θ_run Cert.ReferenceIdeal.defs _ _).mono (fun _ h c => ⟨(h c).1.trans ?_, (h c).2.1, (h c).2.2⟩)
      (Cert.ReferenceIdeal.Value.run (F := Ideal) m' ρ')
    refine (Cert.ReferenceIdeal.RefValue.res_eq m' c).trans ?_
    rw [(hagree c).1, (hagree c).2]

end Cert.Proof.Parts

end
-- ==== Proof.Val0Pay.lean ====
/-
  The normalisation kernel's two payloads, read at an index, on the extended reals.

  The body casts a block [1, 128, 16, 256] to [128, 16, 256], squares it, adds the 128 channels up at each
  (row, column), takes the square root, floors it at eps, spreads the floor-ed norm back over the channels, divides
  and casts back. So at block coordinates (0, c, r, w) the stored value is
    x (0, c, r, w) / max (sqrt (sum over k of x (0, k, r, w)^2)) eps.
  When the block is an array read through a map that keeps channel and column, fixes the batch and shifts the row by
  a constant, this is the array's channel normalisation at the image of (0, c, r, w): the 128 entries summed over are
  the same on both sides.
-/
import proofs.«111086_j22445499089557_1_alg».proof.Proof.Gen.KernelIdeal.Skeleton
import proofs.«111086_j22445499089557_1_alg».proof.Proof.Spec
import Idealize.ShloMosaic.Lib.ValueLayout
import Idealize.ShloMosaic.PureOps.Ideal.Laws

noncomputable section

namespace Cert.KernelIdeal.Val.Norm

open Cert.KernelIdeal Cert.KernelIdeal.Gen
open Idealize.ShloMosaic Idealize.ShloMosaic.ValueIdx

/-- The reduced index (r, w) with channel k put back on axis 0 is (k, r, w). -/
theorem lift_chan0 (h : S128x16x256.Reduces [0] S16x256) (r : Fin 16) (w : Fin 256) (k : Fin 128) :
    h.lift (ix2 r w) k = ix3 k r w := by
  funext a
  apply Fin.ext
  match a with
  | ⟨0, _⟩ => rfl
  | ⟨1, _⟩ => rfl
  | ⟨2, _⟩ => rfl

/-- The sum of squares over the channels of a block with its unit axis cast away, at row r and column w. -/
theorem sumsq_blk0 (x0 : Vec Ideal S1x128x16x256 .f32) (h : S128x16x256.Reduces [0] S16x256) (hφ : FKind.Formats .f32)
    (hacc : (0x00000000#32 : BitVec 32) = FKind.add.neutral .f32 hφ) (r : Fin 16) (w : Fin 256) :
    multiReduction (F := Ideal) .add [0] S16x256
        (mulf (shapeCast S128x16x256 x0 shapeCasts_S1x128x16x256_S128x16x256)
          (shapeCast S128x16x256 x0 shapeCasts_S1x128x16x256_S128x16x256))
        0x00000000#32 h hφ hacc (ix2 r w)
      = ∑ k : Fin 128, x0 (ix4 (0 : Fin 1) k r w) * x0 (ix4 (0 : Fin 1) k r w) := by
  refine (Ideal.multiReduction_add_single _ _ h hφ hacc (ix2 r w)).trans ?_
  refine Finset.sum_congr rfl fun (k : Fin 128) _ => ?_
  rw [lift_chan0 h r w k]
  refine (mulf_apply _ _ (ix3 k r w)).trans ?_
  rw [shapeCast_1abc_abc_apply x0 _ k r w]

/-- The first payload at block coordinates (u, c, r, w). -/
theorem k0_pay1_apply (x0 : Vec Ideal S1x128x16x256 .f32) (u : Fin 1) (cc : Fin 128) (r : Fin 16) (w : Fin 256) :
    (k0_pay1 (F := Ideal) x0) (ix4 u cc r w)
      = Ideal.div (x0 (ix4 (0 : Fin 1) cc r w))
          (max (Ideal.sqrt (∑ k : Fin 128, x0 (ix4 (0 : Fin 1) k r w) * x0 (ix4 (0 : Fin 1) k r w))) Cert.WinCorr.eps) := by
  unfold k0_pay1
  refine (shapeCast_abc_1abc_apply _ _ u cc r w).trans ?_
  refine (divf_apply _ _ (ix3 cc r w)).trans ?_
  refine congrArg₂ Ideal.div (shapeCast_1abc_abc_apply x0 _ cc r w) ?_
  refine (broadcastTo_apply _ _ (ix3 cc r w) (ix3 (0 : Fin 1) r w) fun a => ?_).trans ?_
  · match a with
    | ⟨0, _⟩ => rfl
    | ⟨1, _⟩ => rfl
    | ⟨2, _⟩ => rfl
  refine (maximumf_apply _ _ (ix3 (0 : Fin 1) r w)).trans ?_
  refine congrArg₂ max ?_ rfl
  show Ideal.sqrt _ = Ideal.sqrt _
  refine congrArg Ideal.sqrt ?_
  refine (shapeCast_ab_1ab_apply _ _ (0 : Fin 1) r w).trans ?_
  exact sumsq_blk0 x0 _ _ _ r w

/-- The second payload at block coordinates (u, c, r, w): the same function of the second block. -/
theorem k0_pay2_apply (x1 : Vec Ideal S1x128x16x256 .f32) (u : Fin 1) (cc : Fin 128) (r : Fin 16) (w : Fin 256) :
    (k0_pay2 (F := Ideal) x1) (ix4 u cc r w)
      = Ideal.div (x1 (ix4 (0 : Fin 1) cc r w))
          (max (Ideal.sqrt (∑ k : Fin 128, x1 (ix4 (0 : Fin 1) k r w) * x1 (ix4 (0 : Fin 1) k r w))) Cert.WinCorr.eps) := by
  unfold k0_pay2
  refine (shapeCast_abc_1abc_apply _ _ u cc r w).trans ?_
  refine (divf_apply _ _ (ix3 cc r w)).trans ?_
  refine congrArg₂ Ideal.div (shapeCast_1abc_abc_apply x1 _ cc r w) ?_
  refine (broadcastTo_apply _ _ (ix3 cc r w) (ix3 (0 : Fin 1) r w) fun a => ?_).trans ?_
  · match a with
    | ⟨0, _⟩ => rfl
    | ⟨1, _⟩ => rfl
    | ⟨2, _⟩ => rfl
  refine (maximumf_apply _ _ (ix3 (0 : Fin 1) r w)).trans ?_
  refine congrArg₂ max ?_ rfl
  show Ideal.sqrt _ = Ideal.sqrt _
  refine congrArg Ideal.sqrt ?_
  refine (shapeCast_ab_1ab_apply _ _ (0 : Fin 1) r w).trans ?_
  exact sumsq_blk0 x1 _ _ _ r w

/-- A block x0 that is the array A read through a map e which keeps the channel and the column, fixes the batch
    and shifts the row by a constant; p any function of the block's index that is, at (u, c, r, w), the block's entry
    over the floor-ed norm of its channel column. Then p at y is the normalised array at the image of y. -/
theorem read_nrm0 (x0 : Vec Ideal S1x128x16x256 .f32) (p : S1x128x16x256.Idx → EReal)
    (hp : ∀ (u : Fin 1) (cc : Fin 128) (r : Fin 16) (w : Fin 256), p (ix4 u cc r w)
      = Ideal.div (x0 (ix4 (0 : Fin 1) cc r w))
          (max (Ideal.sqrt (∑ k : Fin 128, x0 (ix4 (0 : Fin 1) k r w) * x0 (ix4 (0 : Fin 1) k r w))) Cert.WinCorr.eps))
    (A : Cert.WinCorr.SX.Idx → EReal) (e : S1x128x16x256.Idx → Cert.WinCorr.SX.Idx) (b h0 : Nat)
    (hx : ∀ y, x0 y = A (e y))
    (he0 : ∀ y, (e y 0).val = b) (he1 : ∀ y, (e y 1).val = (y 1).val)
    (he2 : ∀ y, (e y 2).val = h0 + (y 2).val) (he3 : ∀ y, (e y 3).val = (y 3).val)
    (y : S1x128x16x256.Idx) :
    p y = Cert.WinCorr.nrm A (e y) := by
  obtain ⟨u, cc, r, w, rfl⟩ : ∃ (u : Fin 1) (cc : Fin 128) (r : Fin 16) (w : Fin 256), y = ix4 u cc r w :=
    ⟨y 0, y 1, y 2, y 3, eq_ix4 y⟩
  refine (hp u cc r w).trans ?_
  have hk : ∀ k : Fin 128, e (ix4 (0 : Fin 1) k r w)
      = ix4 (e (ix4 u cc r w) 0) k (e (ix4 u cc r w) 2) (e (ix4 u cc r w) 3) := fun k => by
    funext a
    apply Fin.ext
    match a with
    | ⟨0, _⟩ => exact (he0 (ix4 (0 : Fin 1) k r w)).trans (he0 (ix4 u cc r w)).symm
    | ⟨1, _⟩ => exact he1 (ix4 (0 : Fin 1) k r w)
    | ⟨2, _⟩ => exact (he2 (ix4 (0 : Fin 1) k r w)).trans (he2 (ix4 u cc r w)).symm
    | ⟨3, _⟩ => exact (he3 (ix4 (0 : Fin 1) k r w)).trans (he3 (ix4 u cc r w)).symm
  have hc : e (ix4 (0 : Fin 1) cc r w)
      = ix4 (e (ix4 u cc r w) 0) (e (ix4 u cc r w) 1) (e (ix4 u cc r w) 2) (e (ix4 u cc r w) 3) := by
    funext a
    apply Fin.ext
    match a with
    | ⟨0, _⟩ => exact (he0 (ix4 (0 : Fin 1) cc r w)).trans (he0 (ix4 u cc r w)).symm
    | ⟨1, _⟩ => exact (he1 (ix4 (0 : Fin 1) cc r w)).trans (he1 (ix4 u cc r w)).symm
    | ⟨2, _⟩ => exact (he2 (ix4 (0 : Fin 1) cc r w)).trans (he2 (ix4 u cc r w)).symm
    | ⟨3, _⟩ => exact (he3 (ix4 (0 : Fin 1) cc r w)).trans (he3 (ix4 u cc r w)).symm
  unfold Cert.WinCorr.nrm Cert.WinCorr.nrmAt Cert.WinCorr.sumsq
  rw [hx (ix4 (0 : Fin 1) cc r w), hc]
  refine congrArg (fun s => Ideal.div _ (max (Ideal.sqrt s) Cert.WinCorr.eps)) ?_
  refine Finset.sum_congr rfl fun k _ => ?_
  rw [hx (ix4 (0 : Fin 1) k r w), hk k]
  rfl

/-- The first payload of such a block is the normalised array at the image of the index. -/
theorem pay1_read0 (x0 : Vec Ideal S1x128x16x256 .f32) (A : Cert.WinCorr.SX.Idx → EReal)
    (e : S1x128x16x256.Idx → Cert.WinCorr.SX.Idx) (b h0 : Nat)
    (hx : ∀ y, x0 y = A (e y))
    (he0 : ∀ y, (e y 0).val = b) (he1 : ∀ y, (e y 1).val = (y 1).val)
    (he2 : ∀ y, (e y 2).val = h0 + (y 2).val) (he3 : ∀ y, (e y 3).val = (y 3).val)
    (y : S1x128x16x256.Idx) :
    (k0_pay1 (F := Ideal) x0) y = Cert.WinCorr.nrm A (e y) :=
  read_nrm0 x0 (k0_pay1 (F := Ideal) x0) (k0_pay1_apply x0) A e b h0 hx he0 he1 he2 he3 y

/-- The second payload likewise. -/
theorem pay2_read0 (x1 : Vec Ideal S1x128x16x256 .f32) (A : Cert.WinCorr.SX.Idx → EReal)
    (e : S1x128x16x256.Idx → Cert.WinCorr.SX.Idx) (b h0 : Nat)
    (hx : ∀ y, x1 y = A (e y))
    (he0 : ∀ y, (e y 0).val = b) (he1 : ∀ y, (e y 1).val = (y 1).val)
    (he2 : ∀ y, (e y 2).val = h0 + (y 2).val) (he3 : ∀ y, (e y 3).val = (y 3).val)
    (y : S1x128x16x256.Idx) :
    (k0_pay2 (F := Ideal) x1) y = Cert.WinCorr.nrm A (e y) :=
  read_nrm0 x1 (k0_pay2 (F := Ideal) x1) (k0_pay2_apply x1) A e b h0 hx he0 he1 he2 he3 y

end Cert.KernelIdeal.Val.Norm

end
-- ==== Proof.Val0.lean ====
/-
  What the normalisation kernel region leaves in its two output arrays, on the extended reals.

  At grid point t = 12 b + s the region stages block (b, 0, s, 0), of shape [1, 128, 16, 256], of each input array
  [4, 128, 192, 256], the body stores into each output's staging buffer the block's entries over the floor-ed norms
  of their channel columns, and the buffer is written back to block (b, 0, s, 0) of the output array. An entry
  (u, c, r, w) of either block sits at (b, c, 16 s + r, w) of its array, and the 128 entries of its channel column
  are in the same block; so what point t writes back is block t of the channel normalisation of the input array.
  The 4 x 12 blocks tile the array (row h of batch b is in the block of point 12 b + h / 16) and every point
  writes back, so after the region each output array is the channel normalisation of its input array.
-/
import proofs.«111086_j22445499089557_1_alg».proof.Proof.Reg0
import proofs.«111086_j22445499089557_1_alg».proof.Proof.Val0Pay
import Idealize.ShloMosaic.Lib.Pipeline.Value

noncomputable section

namespace Cert.KernelIdeal.Val.Norm

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

/-- The body's one rectangle starts at the zero offsets. -/
theorem hz0 : (![0, 0, 0, 0] : Fin 4 → Nat) = fun _ => 0 := funext fun a => by fin_cases a <;> rfl

/-! ## The first output (window 2), from the first input (window 0) -/

/-- The printed index maps, decided once over the 48 grid points: the first input's window moves with the first
    output's; the block index at point t is (t / 12, 0, t % 12, 0). -/
theorem idx_facts0_2 : ∀ t : Fin cfg0.N,
    win0_0.index t (0 : Fin 4) = win0_2.index t (0 : Fin 4)
    ∧ win0_0.index t (1 : Fin 4) = 0
    ∧ win0_0.index t (2 : Fin 4) = win0_2.index t (2 : Fin 4)
    ∧ win0_0.index t (3 : Fin 4) = 0
    ∧ win0_2.index t (1 : Fin 4) = 0
    ∧ win0_2.index t (3 : Fin 4) = 0
    ∧ win0_2.index t (0 : Fin 4) = t.val / 12
    ∧ win0_2.index t (2 : Fin 4) = t.val % 12 :=
  (by decide +kernel : ∀ t : Fin grid0.N, _)

/-- An index of the array is in point t's block iff each coordinate is in the block's range on its axis. -/
theorem mem_blk0_2 (t : Fin cfg0.N) (i : S4x128x192x256.Idx) :
    i ∈ ((cfg0.win 2).blk t).view.set ↔ ∀ a : Fin 4, win0_2.index t a * S1x128x16x256.size a ≤ (i a).val
      ∧ (i a).val < win0_2.index t a * S1x128x16x256.size a + S1x128x16x256.size a := by
  show i ∈ ((View.whole main_v0_0).slice (win0_2.rect t)).set ↔ _
  rw [View.set_slice_whole, Rect.mem_set_unit]
  exact Iff.rfl

/-- Every index of the first output is in some point's block: row h of batch b is in the block of point
    12 b + h / 16. -/
theorem cover0_2 (i : S4x128x192x256.Idx) :
    ∃ t : Fin cfg0.N, (cfg0.win 2).flush t = true ∧ i ∈ ((cfg0.win 2).blk t).view.set := by
  have hN : cfg0.N = 48 := N_0
  have h0 : (i 0).val < 4 := (i 0).isLt
  have h1 : (i 1).val < 128 := (i 1).isLt
  have h2 : (i 2).val < 192 := (i 2).isLt
  have h3 : (i 3).val < 256 := (i 3).isLt
  refine ⟨⟨12 * (i 0).val + (i 2).val / 16, by rw [hN]; omega⟩, flush0_2 _, ?_⟩
  rw [mem_blk0_2]
  obtain ⟨e0, e1, e2, e3, e4, e5, e6, e7⟩ := idx_facts0_2 ⟨12 * (i 0).val + (i 2).val / 16, by rw [hN]; omega⟩
  intro a
  match a with
  | ⟨0, _⟩ =>
    show win0_2.index _ (0 : Fin 4) * 1 ≤ (i 0).val ∧ (i 0).val < win0_2.index _ (0 : Fin 4) * 1 + 1
    rw [e6]
    show (12 * (i 0).val + (i 2).val / 16) / 12 * 1 ≤ (i 0).val
      ∧ (i 0).val < (12 * (i 0).val + (i 2).val / 16) / 12 * 1 + 1
    omega
  | ⟨1, _⟩ =>
    show win0_2.index _ (1 : Fin 4) * 128 ≤ (i 1).val ∧ (i 1).val < win0_2.index _ (1 : Fin 4) * 128 + 128
    rw [e4]
    omega
  | ⟨2, _⟩ =>
    show win0_2.index _ (2 : Fin 4) * 16 ≤ (i 2).val ∧ (i 2).val < win0_2.index _ (2 : Fin 4) * 16 + 16
    rw [e7]
    show (12 * (i 0).val + (i 2).val / 16) % 12 * 16 ≤ (i 2).val
      ∧ (i 2).val < (12 * (i 0).val + (i 2).val / 16) % 12 * 16 + 16
    omega
  | ⟨3, _⟩ =>
    show win0_2.index _ (3 : Fin 4) * 256 ≤ (i 3).val ∧ (i 3).val < win0_2.index _ (3 : Fin 4) * 256 + 256
    rw [e5]
    omega

section
variable (V : (c : Dev nD) → (b : Ref sig .tc) → Buf (Elt Ideal) ((c : Thread nD τ).loc b))

/-- What point t writes back to the first output is block t of the normalised first argument: the output's block
    and the input's sit at the same place (b, 0, 16 s, 0) of their arrays, the block's entry (u, c, r, w) at
    (b, c, 16 s + r, w). -/
theorem flushed0_2_eq (c : Dev nD) (t : Fin cfg0.N) :
    (dat0 (F := Ideal) V c).flushed 2 t
      = ((cfg0.win 2).blk t).view.read (Elt Ideal) (Cert.WinCorr.nrm (V c main_arg0)) := by
  show (cfg0.win 2).cut (grid0.coords t) ((dat0 (F := Ideal) V c).after 2 t) = _
  rw [after0_2]
  unfold out0_2
  rw [View.canon_unit_zero hz0]
  simp only [View.ld_unit_zero (S := S1x128x16x256) hz0]
  obtain ⟨e0, e1, e2, e3, e4, e5, e6, e7⟩ := idx_facts0_2 t
  funext j
  refine pay1_read0 (iblk0 V c 0 t) (V c main_arg0) (fun y => ((cfg0.win 2).blk t).view.emb y)
    (win0_2.index t (0 : Fin 4)) (win0_2.index t (2 : Fin 4) * 16)
    (fun y => ?_) (fun y => ?_) (fun y => ?_) (fun y => ?_) (fun y => ?_) j
  · show V c main_arg0 (((cfg0.win 0).blk t).view.emb y) = V c main_arg0 (((cfg0.win 2).blk t).view.emb y)
    refine congrArg (V c main_arg0) ?_
    funext a
    apply Fin.ext
    match a with
    | ⟨0, _⟩ =>
      show win0_0.index t (0 : Fin 4) * 1 + 1 * (y 0).val = win0_2.index t (0 : Fin 4) * 1 + 1 * (y 0).val
      omega
    | ⟨1, _⟩ =>
      show win0_0.index t (1 : Fin 4) * 128 + 1 * (y 1).val = win0_2.index t (1 : Fin 4) * 128 + 1 * (y 1).val
      omega
    | ⟨2, _⟩ =>
      show win0_0.index t (2 : Fin 4) * 16 + 1 * (y 2).val = win0_2.index t (2 : Fin 4) * 16 + 1 * (y 2).val
      omega
    | ⟨3, _⟩ =>
      show win0_0.index t (3 : Fin 4) * 256 + 1 * (y 3).val = win0_2.index t (3 : Fin 4) * 256 + 1 * (y 3).val
      omega
  · show win0_2.index t (0 : Fin 4) * 1 + 1 * (y 0).val = win0_2.index t (0 : Fin 4)
    have hy : (y 0).val < 1 := (y 0).isLt
    omega
  · show win0_2.index t (1 : Fin 4) * 128 + 1 * (y 1).val = (y 1).val
    omega
  · show win0_2.index t (2 : Fin 4) * 16 + 1 * (y 2).val = win0_2.index t (2 : Fin 4) * 16 + (y 2).val
    omega
  · show win0_2.index t (3 : Fin 4) * 256 + 1 * (y 3).val = (y 3).val
    omega

end

/-! ## The second output (window 3), from the second input (window 1) -/

/-- The printed index maps, decided once over the 48 grid points: the second input's window moves with the second
    output's; the block index at point t is (t / 12, 0, t % 12, 0). -/
theorem idx_facts0_3 : ∀ t : Fin cfg0.N,
    win0_1.index t (0 : Fin 4) = win0_3.index t (0 : Fin 4)
    ∧ win0_1.index t (1 : Fin 4) = 0
    ∧ win0_1.index t (2 : Fin 4) = win0_3.index t (2 : Fin 4)
    ∧ win0_1.index t (3 : Fin 4) = 0
    ∧ win0_3.index t (1 : Fin 4) = 0
    ∧ win0_3.index t (3 : Fin 4) = 0
    ∧ win0_3.index t (0 : Fin 4) = t.val / 12
    ∧ win0_3.index t (2 : Fin 4) = t.val % 12 :=
  (by decide +kernel : ∀ t : Fin grid0.N, _)

/-- An index of the array is in point t's block iff each coordinate is in the block's range on its axis. -/
theorem mem_blk0_3 (t : Fin cfg0.N) (i : S4x128x192x256.Idx) :
    i ∈ ((cfg0.win 3).blk t).view.set ↔ ∀ a : Fin 4, win0_3.index t a * S1x128x16x256.size a ≤ (i a).val
      ∧ (i a).val < win0_3.index t a * S1x128x16x256.size a + S1x128x16x256.size a := by
  show i ∈ ((View.whole main_v0_1).slice (win0_3.rect t)).set ↔ _
  rw [View.set_slice_whole, Rect.mem_set_unit]
  exact Iff.rfl

/-- Every index of the second output is in some point's block: row h of batch b is in the block of point
    12 b + h / 16. -/
theorem cover0_3 (i : S4x128x192x256.Idx) :
    ∃ t : Fin cfg0.N, (cfg0.win 3).flush t = true ∧ i ∈ ((cfg0.win 3).blk t).view.set := by
  have hN : cfg0.N = 48 := N_0
  have h0 : (i 0).val < 4 := (i 0).isLt
  have h1 : (i 1).val < 128 := (i 1).isLt
  have h2 : (i 2).val < 192 := (i 2).isLt
  have h3 : (i 3).val < 256 := (i 3).isLt
  refine ⟨⟨12 * (i 0).val + (i 2).val / 16, by rw [hN]; omega⟩, flush0_3 _, ?_⟩
  rw [mem_blk0_3]
  obtain ⟨e0, e1, e2, e3, e4, e5, e6, e7⟩ := idx_facts0_3 ⟨12 * (i 0).val + (i 2).val / 16, by rw [hN]; omega⟩
  intro a
  match a with
  | ⟨0, _⟩ =>
    show win0_3.index _ (0 : Fin 4) * 1 ≤ (i 0).val ∧ (i 0).val < win0_3.index _ (0 : Fin 4) * 1 + 1
    rw [e6]
    show (12 * (i 0).val + (i 2).val / 16) / 12 * 1 ≤ (i 0).val
      ∧ (i 0).val < (12 * (i 0).val + (i 2).val / 16) / 12 * 1 + 1
    omega
  | ⟨1, _⟩ =>
    show win0_3.index _ (1 : Fin 4) * 128 ≤ (i 1).val ∧ (i 1).val < win0_3.index _ (1 : Fin 4) * 128 + 128
    rw [e4]
    omega
  | ⟨2, _⟩ =>
    show win0_3.index _ (2 : Fin 4) * 16 ≤ (i 2).val ∧ (i 2).val < win0_3.index _ (2 : Fin 4) * 16 + 16
    rw [e7]
    show (12 * (i 0).val + (i 2).val / 16) % 12 * 16 ≤ (i 2).val
      ∧ (i 2).val < (12 * (i 0).val + (i 2).val / 16) % 12 * 16 + 16
    omega
  | ⟨3, _⟩ =>
    show win0_3.index _ (3 : Fin 4) * 256 ≤ (i 3).val ∧ (i 3).val < win0_3.index _ (3 : Fin 4) * 256 + 256
    rw [e5]
    omega

section
variable (V : (c : Dev nD) → (b : Ref sig .tc) → Buf (Elt Ideal) ((c : Thread nD τ).loc b))

/-- What point t writes back to the second output is block t of the normalised second argument: the output's block
    and the input's sit at the same place (b, 0, 16 s, 0) of their arrays, the block's entry (u, c, r, w) at
    (b, c, 16 s + r, w). -/
theorem flushed0_3_eq (c : Dev nD) (t : Fin cfg0.N) :
    (dat0 (F := Ideal) V c).flushed 3 t
      = ((cfg0.win 3).blk t).view.read (Elt Ideal) (Cert.WinCorr.nrm (V c main_arg1)) := by
  show (cfg0.win 3).cut (grid0.coords t) ((dat0 (F := Ideal) V c).after 3 t) = _
  rw [after0_3]
  unfold out0_3
  rw [View.canon_unit_zero hz0]
  simp only [View.ld_unit_zero (S := S1x128x16x256) hz0]
  obtain ⟨e0, e1, e2, e3, e4, e5, e6, e7⟩ := idx_facts0_3 t
  funext j
  refine pay2_read0 (iblk0 V c 1 t) (V c main_arg1) (fun y => ((cfg0.win 3).blk t).view.emb y)
    (win0_3.index t (0 : Fin 4)) (win0_3.index t (2 : Fin 4) * 16)
    (fun y => ?_) (fun y => ?_) (fun y => ?_) (fun y => ?_) (fun y => ?_) j
  · show V c main_arg1 (((cfg0.win 1).blk t).view.emb y) = V c main_arg1 (((cfg0.win 3).blk t).view.emb y)
    refine congrArg (V c main_arg1) ?_
    funext a
    apply Fin.ext
    match a with
    | ⟨0, _⟩ =>
      show win0_1.index t (0 : Fin 4) * 1 + 1 * (y 0).val = win0_3.index t (0 : Fin 4) * 1 + 1 * (y 0).val
      omega
    | ⟨1, _⟩ =>
      show win0_1.index t (1 : Fin 4) * 128 + 1 * (y 1).val = win0_3.index t (1 : Fin 4) * 128 + 1 * (y 1).val
      omega
    | ⟨2, _⟩ =>
      show win0_1.index t (2 : Fin 4) * 16 + 1 * (y 2).val = win0_3.index t (2 : Fin 4) * 16 + 1 * (y 2).val
      omega
    | ⟨3, _⟩ =>
      show win0_1.index t (3 : Fin 4) * 256 + 1 * (y 3).val = win0_3.index t (3 : Fin 4) * 256 + 1 * (y 3).val
      omega
  · show win0_3.index t (0 : Fin 4) * 1 + 1 * (y 0).val = win0_3.index t (0 : Fin 4)
    have hy : (y 0).val < 1 := (y 0).isLt
    omega
  · show win0_3.index t (1 : Fin 4) * 128 + 1 * (y 1).val = (y 1).val
    omega
  · show win0_3.index t (2 : Fin 4) * 16 + 1 * (y 2).val = win0_3.index t (2 : Fin 4) * 16 + (y 2).val
    omega
  · show win0_3.index t (3 : Fin 4) * 256 + 1 * (y 3).val = (y 3).val
    omega

end

end Cert.KernelIdeal.Val.Norm

namespace Cert.KernelIdeal.Val

open Cert.KernelIdeal Cert.KernelIdeal.Gen Cert.KernelIdeal.Frm Cert.KernelIdeal.Val.Norm
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The two output arrays after the region -/

/-- The first output array after the region is the channel normalisation of the first argument as the region
    found it. -/
theorem arrAt0_2 (c : Dev nD) :
    (dat0 (F := Ideal) V c).arrAt 2 cfg0.N = Cert.WinCorr.nrm (V c main_arg0) :=
  (dat0 (F := Ideal) V c).arrAt_eq_of_cover 2 (Cert.WinCorr.nrm (V c main_arg0)) (fun t _ => flushed0_2_eq V c t)
    cover0_2

/-- The second output array after the region is the channel normalisation of the second argument as the region
    found it. -/
theorem arrAt0_3 (c : Dev nD) :
    (dat0 (F := Ideal) V c).arrAt 3 cfg0.N = Cert.WinCorr.nrm (V c main_arg1) :=
  (dat0 (F := Ideal) V c).arrAt_eq_of_cover 3 (Cert.WinCorr.nrm (V c main_arg1)) (fun t _ => flushed0_3_eq V c t)
    cover0_3

end Cert.KernelIdeal.Val

end
-- ==== Proof.Val1Pieces.lean ====
/-
  The correlation kernel's three control cases at the ideal instance, read at an index.

  One grid point stages sixteen channels of the two padded arrays (blocks of shape [1, 16, 194, 258]) and adds, into row
  k = 3 i + j of the scratch accumulator at (h, w), the sum over the sixteen channels r of
  x0 (0, r, h + i, w + j) * x1 (0, r, h + i, w + j): the group's contribution `grp`. Case A starts the row from zero,
  cases B and C from what the scratch held; case C also stores max(row, 0) into the output block.

  The road. (1) Each row's stored value at (u, h, w) is the loaded row at (0, h, w) plus `grp`: the shape casts drop and add
  the unit axis, the cut of the staged block at offset (k / 3, k % 3) reads the block at `bidx`, the reduction over axis 0 is
  the sum over the sixteen channels. (2) A store of row m on top of earlier stores reads, at (k, h, w), its payload if k = m
  and the earlier stores otherwise; so after rows 0 .. n - 1 are stored the accumulator holds `acc` at n, and after all nine
  the prior value plus `grp` everywhere. In cases B and C the loaded rows are the entry contents; in case A a row is loaded
  after the reset and the rows below it, none of which touches it but the reset, so it reads zero.
-/
import proofs.«111086_j22445499089557_1_alg».proof.Proof.Reg1
import proofs.«111086_j22445499089557_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Tactic

/-- The staged block's index (0, r, h + i, w + j) for channel r of the group and window position k = 3 i + j. -/
def bidx (r : Fin 16) (k : Fin 9) (h : Fin 192) (w : Fin 256) : S1x16x194x258.Idx :=
  ix4 (0 : Fin 1) r (⟨h.val + k.val / 3, by have := h.isLt; have := k.isLt; omega⟩ : Fin 194)
    (⟨w.val + k.val % 3, by have := w.isLt; have := k.isLt; omega⟩ : Fin 258)

/-- One channel group's contribution to row k of the accumulator at (h, w). -/
def grp (x0 x1 : Vec Ideal S1x16x194x258 .f32) (k : Fin 9) (h : Fin 192) (w : Fin 256) : EReal :=
  ∑ r : Fin 16, x0 (bidx r k h w) * x1 (bidx r k h w)

namespace Pieces

/-- The reduced index (h, w) with channel r put back on axis 0 is (r, h, w). -/
theorem lift_chan (hr : S16x192x256.Reduces [0] S192x256) (h : Fin 192) (w : Fin 256) (r : Fin 16) :
    hr.lift (ix2 h w) r = ix3 r h w := by
  funext a
  apply Fin.ext
  match a with
  | ⟨0, _⟩ => rfl
  | ⟨1, _⟩ => rfl
  | ⟨2, _⟩ => rfl

/-- A staged block with its unit axis cast away, cut at the window offset (oi, oj) = (k / 3, k % 3), reads at (r, h, w)
    the block at (0, r, h + oi, w + oj). -/
theorem slice_blk (x : Vec Ideal S1x16x194x258 .f32) (k : Fin 9) (oi oj : Nat) (hoi : k.val / 3 = oi) (hoj : k.val % 3 = oj)
    (hs : S16x194x258.Slices ![0, oi, oj] S16x192x256) (r : Fin 16) (h : Fin 192) (w : Fin 256) :
    extractStridedSlice S16x192x256 ![0, oi, oj] (shapeCast S16x194x258 x shapeCasts_S1x16x194x258_S16x194x258) hs (ix3 r h w)
      = x (bidx r k h w) := by
  refine (extractStridedSlice_apply _ _ hs (ix3 r h w)
    (ix3 r (⟨h.val + k.val / 3, by have := h.isLt; have := k.isLt; omega⟩ : Fin 194)
      (⟨w.val + k.val % 3, by have := w.isLt; have := k.isLt; omega⟩ : Fin 258)) fun a => ?_).trans ?_
  · match a with
    | ⟨0, _⟩ => show r.val = 0 + r.val; omega
    | ⟨1, _⟩ => show h.val + k.val / 3 = oi + h.val; omega
    | ⟨2, _⟩ => show w.val + k.val % 3 = oj + w.val; omega
  · exact shapeCast_1abc_abc_apply x _ r _ _

/-- The sum over the sixteen channels of the product of the two cut blocks is the group's contribution. -/
theorem chan_sum (x0 x1 : Vec Ideal S1x16x194x258 .f32) (k : Fin 9) (oi oj : Nat) (hoi : k.val / 3 = oi) (hoj : k.val % 3 = oj)
    (hs : S16x194x258.Slices ![0, oi, oj] S16x192x256) (hr : S16x192x256.Reduces [0] S192x256) (hφ : FKind.Formats .f32)
    (hacc : (0x00000000#32 : BitVec 32) = FKind.add.neutral .f32 hφ) (h : Fin 192) (w : Fin 256) :
    multiReduction (F := Ideal) .add [0] S192x256
        (mulf (extractStridedSlice S16x192x256 ![0, oi, oj] (shapeCast S16x194x258 x0 shapeCasts_S1x16x194x258_S16x194x258) hs)
          (extractStridedSlice S16x192x256 ![0, oi, oj] (shapeCast S16x194x258 x1 shapeCasts_S1x16x194x258_S16x194x258) hs))
        0x00000000#32 hr hφ hacc (ix2 h w)
      = grp x0 x1 k h w := by
  refine (Ideal.multiReduction_add_single _ _ hr hφ hacc (ix2 h w)).trans ?_
  unfold grp
  refine Finset.sum_congr rfl fun (r : Fin 16) _ => ?_
  rw [lift_chan hr h w r]
  refine (mulf_apply _ _ (ix3 r h w)).trans ?_
  rw [slice_blk x0 k oi oj hoi hoj hs r h w, slice_blk x1 k oi oj hoi hoj hs r h w]

/-- A row of the accumulator, as loaded, plus a [192, 256] value, stored back as a row: at (u, h, w) the loaded row at
    (0, h, w) plus the value at (h, w). -/
theorem row_add (v : Vec Ideal S1x192x256 .f32) (s : FVec Ideal S192x256 .f32) (u : Fin 1) (h : Fin 192) (w : Fin 256) :
    shapeCast S1x192x256 (addf (shapeCast S192x256 v shapeCasts_S1x192x256_S192x256) s) shapeCasts_S192x256_S1x192x256 (ix3 u h w)
      = v (ix3 (0 : Fin 1) h w) + s (ix2 h w) := by
  refine (shapeCast_ab_1ab_apply _ _ u h w).trans ?_
  refine (addf_apply _ _ (ix2 h w)).trans ?_
  exact congrArg (· + s (ix2 h w)) (shapeCast_1ab_ab_apply v _ h w)

/-- Window offset 0 = (0, 0). -/
theorem pay_row0 (x0 x1 : Vec Ideal S1x16x194x258 .f32) (v : Vec Ideal S1x192x256 .f32) (u : Fin 1) (h : Fin 192) (w : Fin 256) :
    k1_pay6 (F := Ideal) x0 x1 v (ix3 u h w) = v (ix3 (0 : Fin 1) h w) + grp x0 x1 (0 : Fin 9) h w := by
  unfold k1_pay6 k1_pay4 k1_pay5
  refine (row_add v _ u h w).trans ?_
  exact congrArg (v (ix3 (0 : Fin 1) h w) + ·) (chan_sum x0 x1 (0 : Fin 9) 0 0 rfl rfl _ _ _ _ h w)

/-- Window offset 1 = (0, 1). -/
theorem pay_row1 (x0 x1 : Vec Ideal S1x16x194x258 .f32) (v : Vec Ideal S1x192x256 .f32) (u : Fin 1) (h : Fin 192) (w : Fin 256) :
    k1_pay7 (F := Ideal) x0 x1 v (ix3 u h w) = v (ix3 (0 : Fin 1) h w) + grp x0 x1 (1 : Fin 9) h w := by
  unfold k1_pay7 k1_pay4 k1_pay5
  refine (row_add v _ u h w).trans ?_
  exact congrArg (v (ix3 (0 : Fin 1) h w) + ·) (chan_sum x0 x1 (1 : Fin 9) 0 1 rfl rfl _ _ _ _ h w)

/-- Window offset 2 = (0, 2). -/
theorem pay_row2 (x0 x1 : Vec Ideal S1x16x194x258 .f32) (v : Vec Ideal S1x192x256 .f32) (u : Fin 1) (h : Fin 192) (w : Fin 256) :
    k1_pay9 (F := Ideal) (k1_pay8 x0 x1) v (ix3 u h w) = v (ix3 (0 : Fin 1) h w) + grp x0 x1 (2 : Fin 9) h w := by
  unfold k1_pay9 k1_pay8 k1_pay4 k1_pay5
  refine (row_add v _ u h w).trans ?_
  exact congrArg (v (ix3 (0 : Fin 1) h w) + ·) (chan_sum x0 x1 (2 : Fin 9) 0 2 rfl rfl _ _ _ _ h w)

/-- Window offset 3 = (1, 0). -/
theorem pay_row3 (x0 x1 : Vec Ideal S1x16x194x258 .f32) (v : Vec Ideal S1x192x256 .f32) (u : Fin 1) (h : Fin 192) (w : Fin 256) :
    k1_pay10 (F := Ideal) (k1_pay4 x0) (k1_pay5 x1) v (ix3 u h w) = v (ix3 (0 : Fin 1) h w) + grp x0 x1 (3 : Fin 9) h w := by
  unfold k1_pay10 k1_pay4 k1_pay5
  refine (row_add v _ u h w).trans ?_
  exact congrArg (v (ix3 (0 : Fin 1) h w) + ·) (chan_sum x0 x1 (3 : Fin 9) 1 0 rfl rfl _ _ _ _ h w)

/-- Window offset 4 = (1, 1). -/
theorem pay_row4 (x0 x1 : Vec Ideal S1x16x194x258 .f32) (v : Vec Ideal S1x192x256 .f32) (u : Fin 1) (h : Fin 192) (w : Fin 256) :
    k1_pay11 (F := Ideal) (k1_pay4 x0) (k1_pay5 x1) v (ix3 u h w) = v (ix3 (0 : Fin 1) h w) + grp x0 x1 (4 : Fin 9) h w := by
  unfold k1_pay11 k1_pay4 k1_pay5
  refine (row_add v _ u h w).trans ?_
  exact congrArg (v (ix3 (0 : Fin 1) h w) + ·) (chan_sum x0 x1 (4 : Fin 9) 1 1 rfl rfl _ _ _ _ h w)

/-- Window offset 5 = (1, 2). -/
theorem pay_row5 (x0 x1 : Vec Ideal S1x16x194x258 .f32) (v : Vec Ideal S1x192x256 .f32) (u : Fin 1) (h : Fin 192) (w : Fin 256) :
    k1_pay14 (F := Ideal) (k1_pay12 (k1_pay4 x0) (k1_pay5 x1)) (k1_pay13 v) (ix3 u h w)
      = v (ix3 (0 : Fin 1) h w) + grp x0 x1 (5 : Fin 9) h w := by
  unfold k1_pay14 k1_pay12 k1_pay13 k1_pay4 k1_pay5
  refine (row_add v _ u h w).trans ?_
  exact congrArg (v (ix3 (0 : Fin 1) h w) + ·) (chan_sum x0 x1 (5 : Fin 9) 1 2 rfl rfl _ _ _ _ h w)

/-- Window offset 6 = (2, 0). -/
theorem pay_row6 (x0 x1 : Vec Ideal S1x16x194x258 .f32) (v : Vec Ideal S1x192x256 .f32) (u : Fin 1) (h : Fin 192) (w : Fin 256) :
    k1_pay15 (F := Ideal) (k1_pay4 x0) (k1_pay5 x1) v (ix3 u h w) = v (ix3 (0 : Fin 1) h w) + grp x0 x1 (6 : Fin 9) h w := by
  unfold k1_pay15 k1_pay4 k1_pay5
  refine (row_add v _ u h w).trans ?_
  exact congrArg (v (ix3 (0 : Fin 1) h w) + ·) (chan_sum x0 x1 (6 : Fin 9) 2 0 rfl rfl _ _ _ _ h w)

/-- Window offset 7 = (2, 1). -/
theorem pay_row7 (x0 x1 : Vec Ideal S1x16x194x258 .f32) (v : Vec Ideal S1x192x256 .f32) (u : Fin 1) (h : Fin 192) (w : Fin 256) :
    k1_pay16 (F := Ideal) (k1_pay4 x0) (k1_pay5 x1) v (ix3 u h w) = v (ix3 (0 : Fin 1) h w) + grp x0 x1 (7 : Fin 9) h w := by
  unfold k1_pay16 k1_pay4 k1_pay5
  refine (row_add v _ u h w).trans ?_
  exact congrArg (v (ix3 (0 : Fin 1) h w) + ·) (chan_sum x0 x1 (7 : Fin 9) 2 1 rfl rfl _ _ _ _ h w)

/-- Window offset 8 = (2, 2). -/
theorem pay_row8 (x0 x1 : Vec Ideal S1x16x194x258 .f32) (v : Vec Ideal S1x192x256 .f32) (u : Fin 1) (h : Fin 192) (w : Fin 256) :
    k1_pay1 (F := Ideal) (k1_pay17 (k1_pay4 x0) (k1_pay5 x1) v) (ix3 u h w) = v (ix3 (0 : Fin 1) h w) + grp x0 x1 (8 : Fin 9) h w := by
  unfold k1_pay1 k1_pay17 k1_pay4 k1_pay5
  refine (row_add v _ u h w).trans ?_
  exact congrArg (v (ix3 (0 : Fin 1) h w) + ·) (chan_sum x0 x1 (8 : Fin 9) 2 2 rfl rfl _ _ _ _ h w)

/-- The four zero offsets, however spelt, are the zero function. -/
theorem hz4 : (![0, 0, 0, 0] : Fin 4 → Nat) = fun _ => 0 :=
  funext fun a => match a with | ⟨0, _⟩ => rfl | ⟨1, _⟩ => rfl | ⟨2, _⟩ => rfl | ⟨3, _⟩ => rfl

/-- The three zero offsets likewise. -/
theorem hz3 : (![0, 0, 0] : Fin 3 → Nat) = fun _ => 0 :=
  funext fun a => match a with | ⟨0, _⟩ => rfl | ⟨1, _⟩ => rfl | ⟨2, _⟩ => rfl

/-- A whole staged block, loaded, is the block. -/
theorem readAt_blk (arg : Memref sig .tc .vmem S1x16x194x258 .f32) (harg : arg.IsWhole) (x : Vec Ideal S1x16x194x258 .f32)
    (inb : ∀ a, (![0, 0, 0, 0] : Fin 4 → Nat) a + S1x16x194x258.size a ≤ S1x16x194x258.size a) :
    View.readAt (Elt Ideal) arg.view (Rect.unit (s := S1x16x194x258) ![0, 0, 0, 0] S1x16x194x258.size inb).toLoadRect (harg.unread x) = x := by
  rw [View.readAt_eq_ld, harg.read_unread]
  exact View.ld_unit_zero hz4 inb x

/-- The row-m rectangle of the accumulator places (u, h, w) at (m, h, w). -/
theorem row_emb (m : Fin 9) (off : Fin 3 → Nat) (hoff : off = ![m.val, 0, 0])
    (inb : ∀ a, off a + S1x192x256.size a ≤ S9x192x256.size a) (u : Fin 1) (h : Fin 192) (w : Fin 256) :
    (Rect.unit (s := S9x192x256) off S1x192x256.size inb).emb (ix3 u h w) = ix3 m h w := by
  subst hoff
  have hu : u.val = 0 := by omega
  funext a
  apply Fin.ext
  match a with
  | ⟨0, _⟩ => show m.val + 1 * u.val = m.val; omega
  | ⟨1, _⟩ => show 0 + 1 * h.val = h.val; omega
  | ⟨2, _⟩ => show 0 + 1 * w.val = w.val; omega

/-- Row m of the accumulator's entry contents, loaded, reads them at (m, h, w). -/
theorem readAt_row (arg : Memref sig .tc .vmem S9x192x256 .f32) (harg : arg.IsWhole) (xs : Vec Ideal S9x192x256 .f32)
    (m : Fin 9) (off : Fin 3 → Nat) (hoff : off = ![m.val, 0, 0])
    (inb : ∀ a, off a + S1x192x256.size a ≤ S9x192x256.size a) (u : Fin 1) (h : Fin 192) (w : Fin 256) :
    View.readAt (Elt Ideal) arg.view (Rect.unit (s := S9x192x256) off S1x192x256.size inb).toLoadRect (harg.unread xs) (ix3 u h w)
      = xs (ix3 m h w) := by
  rw [View.readAt_eq_ld, harg.read_unread]
  exact congrArg xs (row_emb m off hoff inb u h w)

/-- Row m loaded after the stores L reads what they left at (m, h, w). -/
theorem readCov_row (arg : Memref sig .tc .vmem S9x192x256 .f32) (L : List (View.Piece (Elt Ideal) S9x192x256 .f32))
    (m : Fin 9) (off : Fin 3 → Nat) (hoff : off = ![m.val, 0, 0])
    (inb : ∀ a, off a + S1x192x256.size a ≤ S9x192x256.size a) (u : Fin 1) (h : Fin 192) (w : Fin 256) :
    arg.view.readCov L (Rect.unit (s := S9x192x256) off S1x192x256.size inb).toLoadRect (ix3 u h w) = View.canon L (ix3 m h w) := by
  rw [View.readCov_eq_canon']
  exact congrArg (View.canon L) (row_emb m off hoff inb u h w)

/-- A store of row m on top of the stores L: at row m its payload, elsewhere what L left. -/
theorem canon_row_cons (m : Fin 9) (off : Fin 3 → Nat) (hoff : off = ![m.val, 0, 0])
    (inb : ∀ a, off a + S1x192x256.size a ≤ S9x192x256.size a)
    (pay : Vec Ideal S1x192x256 .f32) (L : List (View.Piece (Elt Ideal) S9x192x256 .f32)) (k : Fin 9) (h : Fin 192) (w : Fin 256) :
    View.canon ((⟨Rect.unit (s := S9x192x256) off S1x192x256.size inb, pay⟩ : View.Piece (Elt Ideal) S9x192x256 .f32) :: L) (ix3 k h w)
      = if k = m then pay (ix3 (0 : Fin 1) h w) else View.canon L (ix3 k h w) := by
  by_cases hk : k = m
  · subst hk
    rw [if_pos rfl, ← row_emb k off hoff inb (0 : Fin 1) h w]
    exact View.canon_cons_emb _ _ _ _
  · rw [if_neg hk]
    refine View.canon_cons_of_not_mem _ _ ?_
    intro hmem
    subst hoff
    have h0 := ((Rect.mem_set_unit (s := S9x192x256) (inb := inb)).mp hmem) (0 : Fin 3)
    have h1 : m.val ≤ k.val := h0.1
    have h2 : k.val < m.val + 1 := h0.2
    exact hk (Fin.ext (by omega))

/-- What the rows 0 .. n - 1 hold once stored (the prior value P plus the group's contribution) over what the rows not yet
    stored hold (Z). -/
def acc (x0 x1 : Vec Ideal S1x16x194x258 .f32) (P Z : Fin 9 → Fin 192 → Fin 256 → EReal) (n : Nat)
    (k : Fin 9) (h : Fin 192) (w : Fin 256) : EReal :=
  if k.val < n then P k h w + grp x0 x1 k h w else Z k h w

theorem acc_full (x0 x1 : Vec Ideal S1x16x194x258 .f32) (P Z : Fin 9 → Fin 192 → Fin 256 → EReal)
    (k : Fin 9) (h : Fin 192) (w : Fin 256) : acc x0 x1 P Z 9 k h w = P k h w + grp x0 x1 k h w :=
  if_pos k.isLt

theorem acc_at (x0 x1 : Vec Ideal S1x16x194x258 .f32) (P Z : Fin 9 → Fin 192 → Fin 256 → EReal) (n : Nat)
    (m : Fin 9) (hm : m.val = n) (h : Fin 192) (w : Fin 256) : acc x0 x1 P Z n m h w = Z m h w :=
  if_neg (by omega)

/-- Storing row n on top of rows 0 .. n - 1. -/
theorem canon_rows_step (x0 x1 : Vec Ideal S1x16x194x258 .f32) (P Z : Fin 9 → Fin 192 → Fin 256 → EReal) (n : Nat)
    (m : Fin 9) (hm : m.val = n) (off : Fin 3 → Nat) (hoff : off = ![m.val, 0, 0])
    (inb : ∀ a, off a + S1x192x256.size a ≤ S9x192x256.size a)
    (pay : Vec Ideal S1x192x256 .f32) (L : List (View.Piece (Elt Ideal) S9x192x256 .f32))
    (hL : ∀ (k : Fin 9) (h : Fin 192) (w : Fin 256), View.canon L (ix3 k h w) = acc x0 x1 P Z n k h w)
    (hpay : ∀ (h : Fin 192) (w : Fin 256), pay (ix3 (0 : Fin 1) h w) = P m h w + grp x0 x1 m h w)
    (k : Fin 9) (h : Fin 192) (w : Fin 256) :
    View.canon ((⟨Rect.unit (s := S9x192x256) off S1x192x256.size inb, pay⟩ : View.Piece (Elt Ideal) S9x192x256 .f32) :: L) (ix3 k h w)
      = acc x0 x1 P Z (n + 1) k h w := by
  refine (canon_row_cons m off hoff inb pay L k h w).trans ?_
  by_cases hk : k = m
  · subst hk
    rw [if_pos rfl, hpay h w]
    exact (if_pos (by omega)).symm
  · rw [if_neg hk, hL k h w]
    have hne : k.val ≠ n := fun e => hk (Fin.ext (e.trans hm.symm))
    unfold acc
    by_cases hlt : k.val < n
    · rw [if_pos hlt, if_pos (by omega)]
    · rw [if_neg hlt, if_neg (by omega)]

/-- The accumulator's entry contents as a function of the three coordinates. -/
def prior (xs : Vec Ideal S9x192x256 .f32) : Fin 9 → Fin 192 → Fin 256 → EReal := fun k h w => xs (ix3 k h w)

/-- What no store has touched. -/
def untouched : Fin 9 → Fin 192 → Fin 256 → EReal :=
  fun k h w => View.canon ([] : List (View.Piece (Elt Ideal) S9x192x256 .f32)) (ix3 k h w)

theorem canonB (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec Ideal S1x16x194x258 .f32) (xs0 : Vec Ideal S9x192x256 .f32) (k : Fin 9) (h : Fin 192) (w : Fin 256) :
    View.canon (kernelRun1_B (F := Ideal) c i arg2 harg2 arg3 harg3 arg4 harg4 arg5 harg5 hc0 hc1 x0 x1 xs0).2.1 (ix3 k h w) = xs0 (ix3 k h w) + grp x0 x1 k h w := by
  unfold kernelRun1_B
  dsimp only
  sl_unfold_words
  rw [readAt_blk arg2 harg2 x0, readAt_blk arg3 harg3 x1]
  refine (canon_rows_step x0 x1 (prior xs0) untouched 8 (8 : Fin 9) rfl _ rfl _ _ _ (fun k h w => ?_) (fun h w => ?p8) k h w).trans (acc_full x0 x1 (prior xs0) untouched k h w)
  case p8 => exact (pay_row8 x0 x1 _ (0 : Fin 1) h w).trans (congrArg (· + grp x0 x1 (8 : Fin 9) h w) (readAt_row arg5 harg5 xs0 (8 : Fin 9) _ rfl _ (0 : Fin 1) h w))
  refine canon_rows_step x0 x1 (prior xs0) untouched 7 (7 : Fin 9) rfl _ rfl _ _ _ (fun k h w => ?_) (fun h w => ?p7) k h w
  case p7 => exact (pay_row7 x0 x1 _ (0 : Fin 1) h w).trans (congrArg (· + grp x0 x1 (7 : Fin 9) h w) (readAt_row arg5 harg5 xs0 (7 : Fin 9) _ rfl _ (0 : Fin 1) h w))
  refine canon_rows_step x0 x1 (prior xs0) untouched 6 (6 : Fin 9) rfl _ rfl _ _ _ (fun k h w => ?_) (fun h w => ?p6) k h w
  case p6 => exact (pay_row6 x0 x1 _ (0 : Fin 1) h w).trans (congrArg (· + grp x0 x1 (6 : Fin 9) h w) (readAt_row arg5 harg5 xs0 (6 : Fin 9) _ rfl _ (0 : Fin 1) h w))
  refine canon_rows_step x0 x1 (prior xs0) untouched 5 (5 : Fin 9) rfl _ rfl _ _ _ (fun k h w => ?_) (fun h w => ?p5) k h w
  case p5 => exact (pay_row5 x0 x1 _ (0 : Fin 1) h w).trans (congrArg (· + grp x0 x1 (5 : Fin 9) h w) (readAt_row arg5 harg5 xs0 (5 : Fin 9) _ rfl _ (0 : Fin 1) h w))
  refine canon_rows_step x0 x1 (prior xs0) untouched 4 (4 : Fin 9) rfl _ rfl _ _ _ (fun k h w => ?_) (fun h w => ?p4) k h w
  case p4 => exact (pay_row4 x0 x1 _ (0 : Fin 1) h w).trans (congrArg (· + grp x0 x1 (4 : Fin 9) h w) (readAt_row arg5 harg5 xs0 (4 : Fin 9) _ rfl _ (0 : Fin 1) h w))
  refine canon_rows_step x0 x1 (prior xs0) untouched 3 (3 : Fin 9) rfl _ rfl _ _ _ (fun k h w => ?_) (fun h w => ?p3) k h w
  case p3 => exact (pay_row3 x0 x1 _ (0 : Fin 1) h w).trans (congrArg (· + grp x0 x1 (3 : Fin 9) h w) (readAt_row arg5 harg5 xs0 (3 : Fin 9) _ rfl _ (0 : Fin 1) h w))
  refine canon_rows_step x0 x1 (prior xs0) untouched 2 (2 : Fin 9) rfl _ rfl _ _ _ (fun k h w => ?_) (fun h w => ?p2) k h w
  case p2 => exact (pay_row2 x0 x1 _ (0 : Fin 1) h w).trans (congrArg (· + grp x0 x1 (2 : Fin 9) h w) (readAt_row arg5 harg5 xs0 (2 : Fin 9) _ rfl _ (0 : Fin 1) h w))
  refine canon_rows_step x0 x1 (prior xs0) untouched 1 (1 : Fin 9) rfl _ rfl _ _ _ (fun k h w => ?_) (fun h w => ?p1) k h w
  case p1 => exact (pay_row1 x0 x1 _ (0 : Fin 1) h w).trans (congrArg (· + grp x0 x1 (1 : Fin 9) h w) (readAt_row arg5 harg5 xs0 (1 : Fin 9) _ rfl _ (0 : Fin 1) h w))
  refine canon_rows_step x0 x1 (prior xs0) untouched 0 (0 : Fin 9) rfl _ rfl _ _ _ (fun k h w => ?_) (fun h w => ?p0) k h w
  case p0 => exact (pay_row0 x0 x1 _ (0 : Fin 1) h w).trans (congrArg (· + grp x0 x1 (0 : Fin 9) h w) (readAt_row arg5 harg5 xs0 (0 : Fin 9) _ rfl _ (0 : Fin 1) h w))
  exact (if_neg (Nat.not_lt_zero _)).symm

/-- Nothing before the group's first point: the prior value, and what the reset leaves in a row not yet stored, are zero. -/
def zero3 : Fin 9 → Fin 192 → Fin 256 → EReal := fun _ _ _ => 0

/-- Case A, after the reset alone: zero everywhere. -/
theorem canonA_rows0 (x0 x1 : Vec Ideal S1x16x194x258 .f32) (k : Fin 9) (h : Fin 192) (w : Fin 256) :
    View.canon (kernelRun1_A.sl.HS0_1 (F := Ideal)) (ix3 k h w) = acc x0 x1 zero3 zero3 0 k h w := by
  unfold kernelRun1_A.sl.HS0_1
  rw [View.canon_unit_zero hz3]
  unfold k1_pay3
  rw [shapeCast_self]
  show Ideal.ofBits .f32 0x00000000#32 = _
  rw [Ideal.ofBits_zero_f32]
  exact (if_neg (Nat.not_lt_zero _)).symm

/-- Case A, after the reset and the stores of rows 0 .. 0. -/
theorem canonA_rows1 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_2 (F := Ideal) c arg2 harg2 arg3 harg3 arg5 x0 x1) (ix3 k h w) = acc x0 x1 zero3 zero3 1 k h w := by
  unfold kernelRun1_A.sl.HS0_2
  rw [readAt_blk arg2 harg2 x0, readAt_blk arg3 harg3 x1]
  refine canon_rows_step x0 x1 zero3 zero3 0 (0 : Fin 9) rfl _ rfl _ _ _ (fun k h w => canonA_rows0 x0 x1 k h w) (fun h w => ?_) k h w
  refine (pay_row0 x0 x1 _ (0 : Fin 1) h w).trans (congrArg (· + grp x0 x1 (0 : Fin 9) h w) ?_)
  unfold kernelRun1_A.sl.v11
  refine (readCov_row arg5 _ (0 : Fin 9) _ rfl _ (0 : Fin 1) h w).trans ?_
  exact (canonA_rows0 x0 x1 (0 : Fin 9) h w).trans (acc_at x0 x1 zero3 zero3 0 (0 : Fin 9) rfl h w)

/-- Case A, after the reset and the stores of rows 0 .. 1. -/
theorem canonA_rows2 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_3 (F := Ideal) c arg2 harg2 arg3 harg3 arg5 x0 x1) (ix3 k h w) = acc x0 x1 zero3 zero3 2 k h w := by
  unfold kernelRun1_A.sl.HS0_3
  rw [readAt_blk arg2 harg2 x0, readAt_blk arg3 harg3 x1]
  refine canon_rows_step x0 x1 zero3 zero3 1 (1 : Fin 9) rfl _ rfl _ _ _ (fun k h w => canonA_rows1 c arg2 harg2 arg3 harg3 arg5 x0 x1 k h w) (fun h w => ?_) k h w
  refine (pay_row1 x0 x1 _ (0 : Fin 1) h w).trans (congrArg (· + grp x0 x1 (1 : Fin 9) h w) ?_)
  unfold kernelRun1_A.sl.v21
  refine (readCov_row arg5 _ (1 : Fin 9) _ rfl _ (0 : Fin 1) h w).trans ?_
  exact (canonA_rows1 c arg2 harg2 arg3 harg3 arg5 x0 x1 (1 : Fin 9) h w).trans (acc_at x0 x1 zero3 zero3 1 (1 : Fin 9) rfl h w)

/-- Case A, after the reset and the stores of rows 0 .. 2. -/
theorem canonA_rows3 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_4 (F := Ideal) c arg2 harg2 arg3 harg3 arg5 x0 x1) (ix3 k h w) = acc x0 x1 zero3 zero3 3 k h w := by
  unfold kernelRun1_A.sl.HS0_4 kernelRun1_A.sl.r_2
  rw [readAt_blk arg2 harg2 x0, readAt_blk arg3 harg3 x1]
  refine canon_rows_step x0 x1 zero3 zero3 2 (2 : Fin 9) rfl _ rfl _ _ _ (fun k h w => canonA_rows2 c arg2 harg2 arg3 harg3 arg5 x0 x1 k h w) (fun h w => ?_) k h w
  refine (pay_row2 x0 x1 _ (0 : Fin 1) h w).trans (congrArg (· + grp x0 x1 (2 : Fin 9) h w) ?_)
  unfold kernelRun1_A.sl.v31
  refine (readCov_row arg5 _ (2 : Fin 9) _ rfl _ (0 : Fin 1) h w).trans ?_
  exact (canonA_rows2 c arg2 harg2 arg3 harg3 arg5 x0 x1 (2 : Fin 9) h w).trans (acc_at x0 x1 zero3 zero3 2 (2 : Fin 9) rfl h w)

/-- Case A, after the reset and the stores of rows 0 .. 3. -/
theorem canonA_rows4 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_5 (F := Ideal) c arg2 harg2 arg3 harg3 arg5 x0 x1) (ix3 k h w) = acc x0 x1 zero3 zero3 4 k h w := by
  unfold kernelRun1_A.sl.HS0_5 kernelRun1_A.sl.r kernelRun1_A.sl.r_1
  rw [readAt_blk arg2 harg2 x0, readAt_blk arg3 harg3 x1]
  refine canon_rows_step x0 x1 zero3 zero3 3 (3 : Fin 9) rfl _ rfl _ _ _ (fun k h w => canonA_rows3 c arg2 harg2 arg3 harg3 arg5 x0 x1 k h w) (fun h w => ?_) k h w
  refine (pay_row3 x0 x1 _ (0 : Fin 1) h w).trans (congrArg (· + grp x0 x1 (3 : Fin 9) h w) ?_)
  unfold kernelRun1_A.sl.v41
  refine (readCov_row arg5 _ (3 : Fin 9) _ rfl _ (0 : Fin 1) h w).trans ?_
  exact (canonA_rows3 c arg2 harg2 arg3 harg3 arg5 x0 x1 (3 : Fin 9) h w).trans (acc_at x0 x1 zero3 zero3 3 (3 : Fin 9) rfl h w)

/-- Case A, after the reset and the stores of rows 0 .. 4. -/
theorem canonA_rows5 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_6 (F := Ideal) c arg2 harg2 arg3 harg3 arg5 x0 x1) (ix3 k h w) = acc x0 x1 zero3 zero3 5 k h w := by
  unfold kernelRun1_A.sl.HS0_6 kernelRun1_A.sl.r kernelRun1_A.sl.r_1
  rw [readAt_blk arg2 harg2 x0, readAt_blk arg3 harg3 x1]
  refine canon_rows_step x0 x1 zero3 zero3 4 (4 : Fin 9) rfl _ rfl _ _ _ (fun k h w => canonA_rows4 c arg2 harg2 arg3 harg3 arg5 x0 x1 k h w) (fun h w => ?_) k h w
  refine (pay_row4 x0 x1 _ (0 : Fin 1) h w).trans (congrArg (· + grp x0 x1 (4 : Fin 9) h w) ?_)
  unfold kernelRun1_A.sl.v51
  refine (readCov_row arg5 _ (4 : Fin 9) _ rfl _ (0 : Fin 1) h w).trans ?_
  exact (canonA_rows4 c arg2 harg2 arg3 harg3 arg5 x0 x1 (4 : Fin 9) h w).trans (acc_at x0 x1 zero3 zero3 4 (4 : Fin 9) rfl h w)

/-- Case A, after the reset and the stores of rows 0 .. 5. -/
theorem canonA_rows6 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_7 (F := Ideal) c arg2 harg2 arg3 harg3 arg5 x0 x1) (ix3 k h w) = acc x0 x1 zero3 zero3 6 k h w := by
  unfold kernelRun1_A.sl.HS0_7 kernelRun1_A.sl.r_3 kernelRun1_A.sl.r_4 kernelRun1_A.sl.r kernelRun1_A.sl.r_1
  rw [readAt_blk arg2 harg2 x0, readAt_blk arg3 harg3 x1]
  refine canon_rows_step x0 x1 zero3 zero3 5 (5 : Fin 9) rfl _ rfl _ _ _ (fun k h w => canonA_rows5 c arg2 harg2 arg3 harg3 arg5 x0 x1 k h w) (fun h w => ?_) k h w
  refine (pay_row5 x0 x1 _ (0 : Fin 1) h w).trans (congrArg (· + grp x0 x1 (5 : Fin 9) h w) ?_)
  unfold kernelRun1_A.sl.v61
  refine (readCov_row arg5 _ (5 : Fin 9) _ rfl _ (0 : Fin 1) h w).trans ?_
  exact (canonA_rows5 c arg2 harg2 arg3 harg3 arg5 x0 x1 (5 : Fin 9) h w).trans (acc_at x0 x1 zero3 zero3 5 (5 : Fin 9) rfl h w)

/-- Case A, after the reset and the stores of rows 0 .. 6. -/
theorem canonA_rows7 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_8 (F := Ideal) c arg2 harg2 arg3 harg3 arg5 x0 x1) (ix3 k h w) = acc x0 x1 zero3 zero3 7 k h w := by
  unfold kernelRun1_A.sl.HS0_8 kernelRun1_A.sl.r kernelRun1_A.sl.r_1
  rw [readAt_blk arg2 harg2 x0, readAt_blk arg3 harg3 x1]
  refine canon_rows_step x0 x1 zero3 zero3 6 (6 : Fin 9) rfl _ rfl _ _ _ (fun k h w => canonA_rows6 c arg2 harg2 arg3 harg3 arg5 x0 x1 k h w) (fun h w => ?_) k h w
  refine (pay_row6 x0 x1 _ (0 : Fin 1) h w).trans (congrArg (· + grp x0 x1 (6 : Fin 9) h w) ?_)
  unfold kernelRun1_A.sl.v71
  refine (readCov_row arg5 _ (6 : Fin 9) _ rfl _ (0 : Fin 1) h w).trans ?_
  exact (canonA_rows6 c arg2 harg2 arg3 harg3 arg5 x0 x1 (6 : Fin 9) h w).trans (acc_at x0 x1 zero3 zero3 6 (6 : Fin 9) rfl h w)

/-- Case A, after the reset and the stores of rows 0 .. 7. -/
theorem canonA_rows8 (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32)
    (x0 x1 : Vec Ideal S1x16x194x258 .f32) (k : Fin 9) (h : Fin 192) (w : Fin 256) :
    View.canon (kernelRun1_A.sl.HS0_9 (F := Ideal) c arg2 harg2 arg3 harg3 arg5 x0 x1) (ix3 k h w) = acc x0 x1 zero3 zero3 8 k h w := by
  unfold kernelRun1_A.sl.HS0_9 kernelRun1_A.sl.r kernelRun1_A.sl.r_1
  rw [readAt_blk arg2 harg2 x0, readAt_blk arg3 harg3 x1]
  refine canon_rows_step x0 x1 zero3 zero3 7 (7 : Fin 9) rfl _ rfl _ _ _ (fun k h w => canonA_rows7 c arg2 harg2 arg3 harg3 arg5 x0 x1 k h w) (fun h w => ?_) k h w
  refine (pay_row7 x0 x1 _ (0 : Fin 1) h w).trans (congrArg (· + grp x0 x1 (7 : Fin 9) h w) ?_)
  unfold kernelRun1_A.sl.v81
  refine (readCov_row arg5 _ (7 : Fin 9) _ rfl _ (0 : Fin 1) h w).trans ?_
  exact (canonA_rows7 c arg2 harg2 arg3 harg3 arg5 x0 x1 (7 : Fin 9) h w).trans (acc_at x0 x1 zero3 zero3 7 (7 : Fin 9) rfl h w)

/-- Case C's nine stores: each row is what the accumulator held plus the group's contribution. -/
theorem canonC (c : Dev nD) (arg2 : Memref sig .tc .vmem S1x16x194x258 .f32) (harg2 : arg2.IsWhole) (arg3 : Memref sig .tc .vmem S1x16x194x258 .f32) (harg3 : arg3.IsWhole) (arg5 : Memref sig .tc .vmem S9x192x256 .f32) (harg5 : arg5.IsWhole)
    (x0 x1 : Vec Ideal S1x16x194x258 .f32) (xs0 : Vec Ideal S9x192x256 .f32) (k : Fin 9) (h : Fin 192) (w : Fin 256) :
    View.canon (kernelRun1_C.sl.HS0_9 (F := Ideal) c arg2 harg2 arg3 harg3 arg5 harg5 x0 x1 xs0) (ix3 k h w) = xs0 (ix3 k h w) + grp x0 x1 k h w := by
  unfold kernelRun1_C.sl.HS0_9
  sl_unfold_words
  rw [readAt_blk arg2 harg2 x0, readAt_blk arg3 harg3 x1]
  refine (canon_rows_step x0 x1 (prior xs0) untouched 8 (8 : Fin 9) rfl _ rfl _ _ _ (fun k h w => ?_) (fun h w => ?p8) k h w).trans (acc_full x0 x1 (prior xs0) untouched k h w)
  case p8 => exact (pay_row8 x0 x1 _ (0 : Fin 1) h w).trans (congrArg (· + grp x0 x1 (8 : Fin 9) h w) (readAt_row arg5 harg5 xs0 (8 : Fin 9) _ rfl _ (0 : Fin 1) h w))
  refine canon_rows_step x0 x1 (prior xs0) untouched 7 (7 : Fin 9) rfl _ rfl _ _ _ (fun k h w => ?_) (fun h w => ?p7) k h w
  case p7 => exact (pay_row7 x0 x1 _ (0 : Fin 1) h w).trans (congrArg (· + grp x0 x1 (7 : Fin 9) h w) (readAt_row arg5 harg5 xs0 (7 : Fin 9) _ rfl _ (0 : Fin 1) h w))
  refine canon_rows_step x0 x1 (prior xs0) untouched 6 (6 : Fin 9) rfl _ rfl _ _ _ (fun k h w => ?_) (fun h w => ?p6) k h w
  case p6 => exact (pay_row6 x0 x1 _ (0 : Fin 1) h w).trans (congrArg (· + grp x0 x1 (6 : Fin 9) h w) (readAt_row arg5 harg5 xs0 (6 : Fin 9) _ rfl _ (0 : Fin 1) h w))
  refine canon_rows_step x0 x1 (prior xs0) untouched 5 (5 : Fin 9) rfl _ rfl _ _ _ (fun k h w => ?_) (fun h w => ?p5) k h w
  case p5 => exact (pay_row5 x0 x1 _ (0 : Fin 1) h w).trans (congrArg (· + grp x0 x1 (5 : Fin 9) h w) (readAt_row arg5 harg5 xs0 (5 : Fin 9) _ rfl _ (0 : Fin 1) h w))
  refine canon_rows_step x0 x1 (prior xs0) untouched 4 (4 : Fin 9) rfl _ rfl _ _ _ (fun k h w => ?_) (fun h w => ?p4) k h w
  case p4 => exact (pay_row4 x0 x1 _ (0 : Fin 1) h w).trans (congrArg (· + grp x0 x1 (4 : Fin 9) h w) (readAt_row arg5 harg5 xs0 (4 : Fin 9) _ rfl _ (0 : Fin 1) h w))
  refine canon_rows_step x0 x1 (prior xs0) untouched 3 (3 : Fin 9) rfl _ rfl _ _ _ (fun k h w => ?_) (fun h w => ?p3) k h w
  case p3 => exact (pay_row3 x0 x1 _ (0 : Fin 1) h w).trans (congrArg (· + grp x0 x1 (3 : Fin 9) h w) (readAt_row arg5 harg5 xs0 (3 : Fin 9) _ rfl _ (0 : Fin 1) h w))
  refine canon_rows_step x0 x1 (prior xs0) untouched 2 (2 : Fin 9) rfl _ rfl _ _ _ (fun k h w => ?_) (fun h w => ?p2) k h w
  case p2 => exact (pay_row2 x0 x1 _ (0 : Fin 1) h w).trans (congrArg (· + grp x0 x1 (2 : Fin 9) h w) (readAt_row arg5 harg5 xs0 (2 : Fin 9) _ rfl _ (0 : Fin 1) h w))
  refine canon_rows_step x0 x1 (prior xs0) untouched 1 (1 : Fin 9) rfl _ rfl _ _ _ (fun k h w => ?_) (fun h w => ?p1) k h w
  case p1 => exact (pay_row1 x0 x1 _ (0 : Fin 1) h w).trans (congrArg (· + grp x0 x1 (1 : Fin 9) h w) (readAt_row arg5 harg5 xs0 (1 : Fin 9) _ rfl _ (0 : Fin 1) h w))
  refine canon_rows_step x0 x1 (prior xs0) untouched 0 (0 : Fin 9) rfl _ rfl _ _ _ (fun k h w => ?_) (fun h w => ?p0) k h w
  case p0 => exact (pay_row0 x0 x1 _ (0 : Fin 1) h w).trans (congrArg (· + grp x0 x1 (0 : Fin 9) h w) (readAt_row arg5 harg5 xs0 (0 : Fin 9) _ rfl _ (0 : Fin 1) h w))
  exact (if_neg (Nat.not_lt_zero _)).symm

/-- The whole accumulator, loaded after the stores L, reads what they left. -/
theorem readCov_whole (arg : Memref sig .tc .vmem S9x192x256 .f32) (L : List (View.Piece (Elt Ideal) S9x192x256 .f32))
    {off : Fin 3 → Nat} (hoff : off = fun _ => 0) (inb : ∀ a, off a + S9x192x256.size a ≤ S9x192x256.size a) (y : S9x192x256.Idx) :
    arg.view.readCov L (Rect.unit (s := S9x192x256) off S9x192x256.size inb).toLoadRect y = View.canon L y := by
  subst hoff
  rw [View.readCov_eq_canon']
  show View.canon L ((Rect.whole S9x192x256).emb y) = _
  rw [Rect.emb_whole_apply]

/-- The clamp of the whole accumulator, stored as the output block, at (u, k, h, w). -/
theorem pay_clamp (V : Vec Ideal S9x192x256 .f32) (u : Fin 1) (k : Fin 9) (h : Fin 192) (w : Fin 256) :
    k1_pay2 (F := Ideal) V (ix4 u k h w) = max (V (ix3 k h w)) 0 := by
  unfold k1_pay2
  refine (shapeCast_abc_1abc_apply _ _ u k h w).trans ?_
  refine (maximumf_apply _ _ (ix3 k h w)).trans ?_
  refine congrArg (max (V (ix3 k h w))) ?_
  show Ideal.ofBits .f32 0x00000000#32 = 0
  exact Ideal.ofBits_zero_f32

end Pieces

open Pieces

/-- Case A leaves in the accumulator the group's contribution alone (the reset row is zero). -/
theorem sout_A_apply (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : cond1_0 i) (hc1 : ¬cond1_1 i)
    (x0 x1 : Vec Ideal S1x16x194x258 .f32) (k : Fin 9) (h : Fin 192) (w : Fin 256) :
    sout1_A_0 (F := Ideal) c i arg2 harg2 arg3 harg3 arg4 harg4 arg5 harg5 hc0 hc1 x0 x1 (ix3 k h w) = grp x0 x1 k h w := by
  unfold sout1_A_0
  rw [View.read_writes_eq_canon _ _ _ (scover1_A_0 c i arg2 harg2 arg3 harg3 arg4 harg4 arg5 harg5 hc0 hc1 x0 x1)]
  unfold kernelRun1_A
  dsimp only
  unfold kernelRun1_A.sl.r_5 kernelRun1_A.sl.r kernelRun1_A.sl.r_1
  rw [readAt_blk arg2 harg2 x0, readAt_blk arg3 harg3 x1]
  refine (canon_rows_step x0 x1 zero3 zero3 8 (8 : Fin 9) rfl _ rfl _ _ _ (fun k h w => canonA_rows8 c arg2 harg2 arg3 harg3 arg5 x0 x1 k h w) (fun h w => ?_) k h w).trans
    ((acc_full x0 x1 zero3 zero3 k h w).trans (zero_add _))
  refine (pay_row8 x0 x1 _ (0 : Fin 1) h w).trans (congrArg (· + grp x0 x1 (8 : Fin 9) h w) ?_)
  unfold kernelRun1_A.sl.v91
  refine (readCov_row arg5 _ (8 : Fin 9) _ rfl _ (0 : Fin 1) h w).trans ?_
  exact (canonA_rows8 c arg2 harg2 arg3 harg3 arg5 x0 x1 (8 : Fin 9) h w).trans (acc_at x0 x1 zero3 zero3 8 (8 : Fin 9) rfl h w)

/-- Case B adds the group's contribution to what the accumulator held. -/
theorem sout_B_apply (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : ¬cond1_1 i)
    (x0 x1 : Vec Ideal S1x16x194x258 .f32) (xs0 : Vec Ideal S9x192x256 .f32) (k : Fin 9) (h : Fin 192) (w : Fin 256) :
    sout1_B_0 (F := Ideal) c i arg2 harg2 arg3 harg3 arg4 harg4 arg5 harg5 hc0 hc1 x0 x1 xs0 (ix3 k h w) = xs0 (ix3 k h w) + grp x0 x1 k h w := by
  unfold sout1_B_0
  rw [View.read_writes_eq_canon _ _ _ (scover1_B_0 c i arg2 harg2 arg3 harg3 arg4 harg4 arg5 harg5 hc0 hc1 x0 x1 xs0)]
  exact canonB c i arg2 harg2 arg3 harg3 arg4 harg4 arg5 harg5 hc0 hc1 x0 x1 xs0 k h w

/-- Case C updates the accumulator as case B does, -/
theorem sout_C_apply (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec Ideal S1x16x194x258 .f32) (xs0 : Vec Ideal S9x192x256 .f32) (k : Fin 9) (h : Fin 192) (w : Fin 256) :
    sout1_C_0 (F := Ideal) c i arg2 harg2 arg3 harg3 arg4 harg4 arg5 harg5 hc0 hc1 x0 x1 xs0 (ix3 k h w) = xs0 (ix3 k h w) + grp x0 x1 k h w := by
  unfold sout1_C_0
  rw [View.read_writes_eq_canon _ _ _ (scover1_C_0 c i arg2 harg2 arg3 harg3 arg4 harg4 arg5 harg5 hc0 hc1 x0 x1 xs0)]
  unfold kernelRun1_C
  dsimp only
  exact canonC c arg2 harg2 arg3 harg3 arg5 harg5 x0 x1 xs0 k h w

/-- and stores the clamped updated accumulator over the output block. -/
theorem out_C_apply (c : Dev nD) (i : grid1.Coords) (arg2 : Memref sig .tc .vmem S1x16x194x258 .f32) (harg2 : arg2.IsWhole) (arg3 : Memref sig .tc .vmem S1x16x194x258 .f32) (harg3 : arg3.IsWhole) (arg4 : Memref sig .tc .vmem S1x9x192x256 .f32) (harg4 : arg4.IsWhole) (arg5 : Memref sig .tc .vmem S9x192x256 .f32) (harg5 : arg5.IsWhole) (hc0 : ¬cond1_0 i) (hc1 : cond1_1 i)
    (x0 x1 : Vec Ideal S1x16x194x258 .f32) (xs0 : Vec Ideal S9x192x256 .f32) (k : Fin 9) (h : Fin 192) (w : Fin 256) :
    out1_C_2 (F := Ideal) c i arg2 harg2 arg3 harg3 arg4 harg4 arg5 harg5 hc0 hc1 x0 x1 xs0 (ix4 (0 : Fin 1) k h w) = max (xs0 (ix3 k h w) + grp x0 x1 k h w) 0 := by
  unfold out1_C_2
  rw [View.read_writes_eq_canon _ _ _ (cover1_C_2 c i arg2 harg2 arg3 harg3 arg4 harg4 arg5 harg5 hc0 hc1 x0 x1 xs0)]
  unfold kernelRun1_C
  dsimp only
  rw [View.canon_unit_zero hz4]
  refine (pay_clamp _ (0 : Fin 1) k h w).trans (congrArg (fun z => max z 0) ?_)
  unfold kernelRun1_C.sl.v100
  exact (readCov_whole arg5 _ hz3 _ (ix3 k h w)).trans (canonC c arg2 harg2 arg3 harg3 arg5 harg5 x0 x1 xs0 k h w)

end Cert.KernelIdeal.Val

end
-- ==== Proof.Val1.lean ====
/-
  What the correlation kernel region leaves in the result array, at the ideal instance.

  Grid (4, 8): point t = 8 b + g stages channels 16 g .. 16 g + 15 of batch b of the two padded arrays P and Q, so the
  group contribution of its two blocks at (k, h, w) is the sum over r of P (b, 16 g + r, h + i, w + j) * Q (the same),
  k = 3 i + j. By induction on the position the scratch accumulator after point t holds the contributions of groups
  0 .. g of batch b; at g = 7 that is, by the regrouping law, the sum over all 128 channels, and the output block
  holds its maximum with zero: the clamped correlation of batch b. Those four blocks, written back at the points
  8 b + 7, cover the result array.
-/
import proofs.«111086_j22445499089557_1_alg».proof.Proof.Val1Pieces
import proofs.«111086_j22445499089557_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)
open Cert.WinCorr

/-! The printed index maps of the three windows, decided once over the grid: point t = 8 b + g stages block
    (b, g, 0, 0) of each padded array and owns block (b, 0, 0, 0) of the result. -/

theorem idx_facts0 : ∀ t : Fin cfg1.N, win1_0.index t (0 : Fin 4) = t.val / 8 ∧ win1_0.index t (1 : Fin 4) = t.val % 8
    ∧ win1_0.index t (2 : Fin 4) = 0 ∧ win1_0.index t (3 : Fin 4) = 0 :=
  (by decide +kernel : ∀ t : Fin grid1.N, _)

theorem idx_facts1 : ∀ t : Fin cfg1.N, win1_1.index t (0 : Fin 4) = t.val / 8 ∧ win1_1.index t (1 : Fin 4) = t.val % 8
    ∧ win1_1.index t (2 : Fin 4) = 0 ∧ win1_1.index t (3 : Fin 4) = 0 :=
  (by decide +kernel : ∀ t : Fin grid1.N, _)

theorem idx_facts2 : ∀ t : Fin cfg1.N, win1_2.index t (0 : Fin 4) = t.val / 8 ∧ win1_2.index t (1 : Fin 4) = 0
    ∧ win1_2.index t (2 : Fin 4) = 0 ∧ win1_2.index t (3 : Fin 4) = 0 :=
  (by decide +kernel : ∀ t : Fin grid1.N, _)

/-! ## The sums -/

/-- Channel group g's contribution at (b, k, h, w): the sum over its sixteen channels of the padded arrays' product. -/
def gsum (P Q : SP.Idx → EReal) (b : Fin 4) (g : Fin 8) (k : Fin 9) (h : Fin 192) (w : Fin 256) : EReal :=
  ∑ r : Fin 16, P (pidx b (chan g r) k h w) * Q (pidx b (chan g r) k h w)

/-- The same with the group a natural number: zero from eight on. -/
def gterm (P Q : SP.Idx → EReal) (b : Fin 4) (k : Fin 9) (h : Fin 192) (w : Fin 256) (g : Nat) : EReal :=
  if hg : g < 8 then gsum P Q b ⟨g, hg⟩ k h w else 0

/-- The sum of the contributions of groups 0 .. n. -/
def psum (P Q : SP.Idx → EReal) (b : Fin 4) (k : Fin 9) (h : Fin 192) (w : Fin 256) (n : Nat) : EReal :=
  ∑ g ∈ Finset.range (n + 1), gterm P Q b k h w g

theorem psum_zero (P Q : SP.Idx → EReal) (b : Fin 4) (k : Fin 9) (h : Fin 192) (w : Fin 256) :
    psum P Q b k h w 0 = gterm P Q b k h w 0 := by
  unfold psum
  rw [Finset.sum_range_succ, Finset.range_zero, Finset.sum_empty, zero_add]

theorem psum_succ (P Q : SP.Idx → EReal) (b : Fin 4) (k : Fin 9) (h : Fin 192) (w : Fin 256) (n : Nat) :
    psum P Q b k h w (n + 1) = psum P Q b k h w n + gterm P Q b k h w (n + 1) := by
  unfold psum
  rw [Finset.sum_range_succ]

/-- All eight groups' contributions add up to the channel dot product (the regrouping law). -/
theorem psum_seven (P Q : SP.Idx → EReal) (b : Fin 4) (k : Fin 9) (h : Fin 192) (w : Fin 256) :
    psum P Q b k h w 7 = dotAt P Q b k h w := by
  unfold psum dotAt
  rw [Finset.sum_range, sum_groups (fun c : Fin 128 => P (pidx b c k h w) * Q (pidx b c k h w))]
  refine Finset.sum_congr rfl fun g _ => ?_
  unfold gterm
  rw [dif_pos g.isLt]
  rfl

section
variable (V : (c : Dev nD) → (b : Ref sig .tc) → Buf (Elt Ideal) ((c : Thread nD τ).loc b)) (c : Dev nD)

/-! ## The staged blocks as parts of the padded arrays -/

/-- The first window's block at point t, at a block index x, is the first padded array at the index with batch t / 8,
    channel 16 (t % 8) + the block's channel, and the block's own spatial coordinates. -/
theorem iblk0_apply (t : Fin cfg1.N) (x : S1x16x194x258.Idx) (j : S4x128x194x258.Idx)
    (h0 : (j 0).val = t.val / 8 + (x 0).val) (h1 : (j 1).val = t.val % 8 * 16 + (x 1).val)
    (h2 : (j 2).val = (x 2).val) (h3 : (j 3).val = (x 3).val) :
    (iblk1 (F := Ideal) V c 0 t : Vec Ideal S1x16x194x258 .f32) x = (V c main_v1 : S4x128x194x258.Idx → EReal) j := by
  obtain ⟨e0, e1, e2, e3⟩ := idx_facts0 t
  unfold iblk1
  rw [View.read_apply]
  show V c main_v1 _ = V c main_v1 j
  congr 1
  funext a
  apply Fin.ext
  match a with
  | ⟨0, _⟩ => show win1_0.index t (0 : Fin 4) * 1 + 1 * (x 0).val = (j 0).val; rw [e0, h0]; omega
  | ⟨1, _⟩ => show win1_0.index t (1 : Fin 4) * 16 + 1 * (x 1).val = (j 1).val; rw [e1, h1]; omega
  | ⟨2, _⟩ => show win1_0.index t (2 : Fin 4) * 194 + 1 * (x 2).val = (j 2).val; rw [e2, h2]; omega
  | ⟨3, _⟩ => show win1_0.index t (3 : Fin 4) * 258 + 1 * (x 3).val = (j 3).val; rw [e3, h3]; omega

/-- The second window's block likewise, of the second padded array. -/
theorem iblk1_apply (t : Fin cfg1.N) (x : S1x16x194x258.Idx) (j : S4x128x194x258.Idx)
    (h0 : (j 0).val = t.val / 8 + (x 0).val) (h1 : (j 1).val = t.val % 8 * 16 + (x 1).val)
    (h2 : (j 2).val = (x 2).val) (h3 : (j 3).val = (x 3).val) :
    (iblk1 (F := Ideal) V c 1 t : Vec Ideal S1x16x194x258 .f32) x = (V c main_v2 : S4x128x194x258.Idx → EReal) j := by
  obtain ⟨e0, e1, e2, e3⟩ := idx_facts1 t
  unfold iblk1
  rw [View.read_apply]
  show V c main_v2 _ = V c main_v2 j
  congr 1
  funext a
  apply Fin.ext
  match a with
  | ⟨0, _⟩ => show win1_1.index t (0 : Fin 4) * 1 + 1 * (x 0).val = (j 0).val; rw [e0, h0]; omega
  | ⟨1, _⟩ => show win1_1.index t (1 : Fin 4) * 16 + 1 * (x 1).val = (j 1).val; rw [e1, h1]; omega
  | ⟨2, _⟩ => show win1_1.index t (2 : Fin 4) * 194 + 1 * (x 2).val = (j 2).val; rw [e2, h2]; omega
  | ⟨3, _⟩ => show win1_1.index t (3 : Fin 4) * 258 + 1 * (x 3).val = (j 3).val; rw [e3, h3]; omega

/-- So the group contribution of the two blocks staged at point t is group t % 8's contribution of batch t / 8. -/
theorem grp_iblk (t : Fin cfg1.N) (b : Fin 4) (hb : b.val = t.val / 8) (k : Fin 9) (h : Fin 192) (w : Fin 256) :
    grp (iblk1 (F := Ideal) V c 0 t) (iblk1 (F := Ideal) V c 1 t) k h w
      = gterm (V c main_v1) (V c main_v2) b k h w (t.val % 8) := by
  unfold gterm
  rw [dif_pos (Nat.mod_lt _ (by decide))]
  unfold grp gsum
  refine Finset.sum_congr rfl fun r _ => ?_
  refine congrArg₂ (· * ·) (iblk0_apply V c t (bidx r k h w) _ ?_ ?_ rfl rfl) (iblk1_apply V c t (bidx r k h w) _ ?_ ?_ rfl rfl)
  · show b.val = t.val / 8 + 0; omega
  · show 16 * (t.val % 8) + r.val = t.val % 8 * 16 + r.val; omega
  · show b.val = t.val / 8 + 0; omega
  · show 16 * (t.val % 8) + r.val = t.val % 8 * 16 + r.val; omega

end

section
variable (V : (c : Dev nD) → (b : Ref sig .tc) → Buf (Elt Ideal) ((c : Thread nD τ).loc b)) (c : Dev nD)

/-! ## The accumulator after each point -/

/-- After position n = 8 b + g the scratch accumulator holds, at (k, h, w), the contributions of groups 0 .. g of
    batch b: a group's first point starts from its own contribution, a later point adds its own to what the point
    before left. -/
theorem scratch_inv (n : ℕ) : ∀ (hn : n < cfg1.N) (b : Fin 4), b.val = n / 8 →
    ∀ (k : Fin 9) (h : Fin 192) (w : Fin 256),
      (outsAt1 (F := Ideal) V c n hn).2 (ix3 k h w) = psum (V c main_v1) (V c main_v2) b k h w (n % 8) := by
  induction n using Nat.strong_induction_on with
  | _ n ih =>
    intro hn b hb k h w
    by_cases h0 : n % 8 = 0
    · have h1 : ¬n % 8 = 7 := by omega
      rw [outsAt1_A V c ⟨n, hn⟩ h0 h1]
      dsimp only
      refine (sout_A_apply c (grid1.coords ⟨n, hn⟩) (ms1_0 ⟨n, hn⟩) (hs1_0 ⟨n, hn⟩) (ms1_1 ⟨n, hn⟩) (hs1_1 ⟨n, hn⟩)
        (ms1_2 ⟨n, hn⟩) (hs1_2 ⟨n, hn⟩) scM1_0 (Memref.isWhole_whole _) ((hcond1_0 ⟨n, hn⟩).mpr h0)
        (fun h => h1 ((hcond1_1 ⟨n, hn⟩).mp h)) (iblk1 V c 0 ⟨n, hn⟩) (iblk1 V c 1 ⟨n, hn⟩) k h w).trans ?_
      rw [grp_iblk V c ⟨n, hn⟩ b hb k h w]
      show gterm _ _ b k h w (n % 8) = _
      rw [h0, psum_zero]
    · have hpos : 0 < n := Nat.pos_of_ne_zero fun e => h0 (by rw [e])
      have hb' : b.val = (n - 1) / 8 := by omega
      have e : n % 8 = (n - 1) % 8 + 1 := by omega
      by_cases h1 : n % 8 = 7
      · rw [outsAt1_C V c ⟨n, hn⟩ h0 h1]
        dsimp only
        refine (sout_C_apply c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) scM1_0 (Memref.isWhole_whole _) (fun h => h0 ((hcond1_0 ⟨n, hn⟩).mp h))
          ((hcond1_1 ⟨n, hn⟩).mpr h1) (iblk1 V c 0 ⟨n, hn⟩) (iblk1 V c 1 ⟨n, hn⟩)
          (outsAt1 V c (n - 1) (Nat.lt_of_le_of_lt (Nat.sub_le _ _) hn)).2 k h w).trans ?_
        rw [ih (n - 1) (by omega) _ b hb' k h w, grp_iblk V c ⟨n, hn⟩ b hb k h w]
        show _ + gterm _ _ b k h w (n % 8) = _
        rw [e, psum_succ]
      · rw [outsAt1_B V c ⟨n, hn⟩ h0 h1]
        dsimp only
        refine (sout_B_apply c (grid1.coords ⟨n, hn⟩) (ms1_0 ⟨n, hn⟩) (hs1_0 ⟨n, hn⟩) (ms1_1 ⟨n, hn⟩) (hs1_1 ⟨n, hn⟩)
          (ms1_2 ⟨n, hn⟩) (hs1_2 ⟨n, hn⟩) scM1_0 (Memref.isWhole_whole _) (fun h => h0 ((hcond1_0 ⟨n, hn⟩).mp h))
          (fun h => h1 ((hcond1_1 ⟨n, hn⟩).mp h)) (iblk1 V c 0 ⟨n, hn⟩) (iblk1 V c 1 ⟨n, hn⟩)
          (outsAt1 V c (n - 1) (Nat.lt_of_le_of_lt (Nat.sub_le _ _) hn)).2 k h w).trans ?_
        rw [ih (n - 1) (by omega) _ b hb' k h w, grp_iblk V c ⟨n, hn⟩ b hb k h w]
        show _ + gterm _ _ b k h w (n % 8) = _
        rw [e, psum_succ]

/-- At a group's last point the output block holds, at (0, k, h, w), the clamped channel dot product of batch t / 8. -/
theorem out_last (t : Fin cfg1.N) (h1 : t.val % 8 = 7) (b : Fin 4) (hb : b.val = t.val / 8)
    (k : Fin 9) (h : Fin 192) (w : Fin 256) :
    (outsAt1 (F := Ideal) V c t.val t.isLt).1 (ix4 (0 : Fin 1) k h w) = corrAt (V c main_v1) (V c main_v2) b k h w := by
  have h0 : ¬t.val % 8 = 0 := by omega
  have hb' : b.val = (t.val - 1) / 8 := by omega
  have e6 : (t.val - 1) % 8 = 6 := by omega
  rw [outsAt1_C V c t h0 h1]
  dsimp only
  refine (out_C_apply c (grid1.coords t) (ms1_0 t) (hs1_0 t) (ms1_1 t) (hs1_1 t) (ms1_2 t) (hs1_2 t) scM1_0
    (Memref.isWhole_whole _) (fun h => h0 ((hcond1_0 t).mp h)) ((hcond1_1 t).mpr h1) (iblk1 V c 0 t) (iblk1 V c 1 t)
    (outsAt1 V c (t.val - 1) (Nat.lt_of_le_of_lt (Nat.sub_le _ _) t.isLt)).2 k h w).trans ?_
  rw [scratch_inv V c (t.val - 1) _ b hb' k h w, grp_iblk V c t b hb k h w, e6, h1, ← psum_succ, psum_seven]
  rfl

end

section
variable (V : (c : Dev nD) → (b : Ref sig .tc) → Buf (Elt Ideal) ((c : Thread nD τ).loc b)) (c : Dev nD)

/-! ## From the blocks to the array -/

/-- The output block at a group's last point, at a block index y, is the clamped correlation at the array index i
    with batch t / 8 and y's other coordinates. -/
theorem out_last_at (t : Fin cfg1.N) (h1 : t.val % 8 = 7) (y : S1x9x192x256.Idx) (i : S4x9x192x256.Idx)
    (hi0 : (i 0).val = t.val / 8) (hi1 : (i 1).val = (y 1).val) (hi2 : (i 2).val = (y 2).val)
    (hi3 : (i 3).val = (y 3).val) :
    (outsAt1 (F := Ideal) V c t.val t.isLt).1 y = corr (V c main_v1) (V c main_v2) i := by
  obtain ⟨y0, k, h, w, rfl⟩ : ∃ (y0 : Fin 1) (k : Fin 9) (h : Fin 192) (w : Fin 256), y = ix4 y0 k h w :=
    ⟨y 0, y 1, y 2, y 3, eq_ix4 y⟩
  obtain ⟨b, k', h', w', rfl⟩ : ∃ (b : Fin 4) (k' : Fin 9) (h' : Fin 192) (w' : Fin 256), i = ix4 b k' h' w' :=
    ⟨i 0, i 1, i 2, i 3, eq_ix4 i⟩
  obtain rfl : y0 = 0 := Subsingleton.elim _ _
  obtain rfl : k' = k := Fin.ext hi1
  obtain rfl : h' = h := Fin.ext hi2
  obtain rfl : w' = w := Fin.ext hi3
  exact out_last V c t h1 b hi0 k' h' w'

/-- What a writing point writes back is its block of the clamped correlation of the two padded arrays. -/
theorem flushed_eq (t : Fin cfg1.N) (hf : (cfg1.win 2).flush t = true) :
    (dat1 (F := Ideal) V c).flushed 2 t
      = ((cfg1.win 2).blk t).view.read (Elt Ideal) (corr (V c main_v1) (V c main_v2)) := by
  have h7 : t.val % 8 = 7 := (flush1_2 t).mp hf
  obtain ⟨e0, e1, e2, e3⟩ := idx_facts2 t
  show (cfg1.win 2).cut (grid1.coords t) ((dat1 V c).after 2 t) = _
  rw [after1_2]
  funext y
  rw [View.read_apply]
  refine out_last_at V c t h7 _ _ ?_ ?_ ?_ ?_
  · show win1_2.index t (0 : Fin 4) * 1 + 1 * (y 0).val = t.val / 8
    have hy : (y 0).val < 1 := (y 0).isLt
    rw [e0]; omega
  · show win1_2.index t (1 : Fin 4) * 9 + 1 * (y 1).val = (y 1).val
    rw [e1]; omega
  · show win1_2.index t (2 : Fin 4) * 192 + 1 * (y 2).val = (y 2).val
    rw [e2]; omega
  · show win1_2.index t (3 : Fin 4) * 256 + 1 * (y 3).val = (y 3).val
    rw [e3]; omega

/-- An index of the result array is in point t's block iff each coordinate is in the block's range on its axis. -/
theorem mem_blk (t : Fin cfg1.N) (i : S4x9x192x256.Idx) :
    i ∈ ((cfg1.win 2).blk t).view.set ↔ ∀ a : Fin 4, win1_2.index t a * S1x9x192x256.size a ≤ (i a).val
      ∧ (i a).val < win1_2.index t a * S1x9x192x256.size a + S1x9x192x256.size a := by
  show i ∈ ((View.whole main_v3).slice (win1_2.rect t)).set ↔ _
  rw [View.set_slice_whole, Rect.mem_set_unit]
  exact Iff.rfl

end

/-- The result array after the region: the clamped window correlation of the two padded arrays (batch b's block is
    written back at point 8 b + 7, and those four blocks cover the array). -/
theorem arrAt1_2 (V : (c : Dev nD) → (b : Ref sig .tc) → Buf (Elt Ideal) ((c : Thread nD τ).loc b)) (c : Dev nD) :
    (dat1 (F := Ideal) V c).arrAt 2 cfg1.N = Cert.WinCorr.corr (V c main_v1) (V c main_v2) :=
  (dat1 (F := Ideal) V c).arrAt_eq_of_cover 2 (corr (V c main_v1) (V c main_v2)) (flushed_eq V c) fun i => by
    have hi0 : (i 0).val < 4 := (i 0).isLt
    have hi1 : (i 1).val < 9 := (i 1).isLt
    have hi2 : (i 2).val < 192 := (i 2).isLt
    have hi3 : (i 3).val < 256 := (i 3).isLt
    have hN : cfg1.N = 32 := N_1
    refine ⟨⟨8 * (i 0).val + 7, by rw [hN]; omega⟩, (flush1_2 _).mpr (by show (8 * (i 0).val + 7) % 8 = 7; omega), ?_⟩
    obtain ⟨e0, e1, e2, e3⟩ := idx_facts2 ⟨8 * (i 0).val + 7, by rw [hN]; omega⟩
    rw [mem_blk]
    intro a
    match a with
    | ⟨0, _⟩ =>
      show win1_2.index _ (0 : Fin 4) * 1 ≤ (i 0).val ∧ (i 0).val < win1_2.index _ (0 : Fin 4) * 1 + 1
      rw [e0]; show (8 * (i 0).val + 7) / 8 * 1 ≤ (i 0).val ∧ (i 0).val < (8 * (i 0).val + 7) / 8 * 1 + 1; omega
    | ⟨1, _⟩ =>
      show win1_2.index _ (1 : Fin 4) * 9 ≤ (i 1).val ∧ (i 1).val < win1_2.index _ (1 : Fin 4) * 9 + 9
      rw [e1]; omega
    | ⟨2, _⟩ =>
      show win1_2.index _ (2 : Fin 4) * 192 ≤ (i 2).val ∧ (i 2).val < win1_2.index _ (2 : Fin 4) * 192 + 192
      rw [e2]; omega
    | ⟨3, _⟩ =>
      show win1_2.index _ (3 : Fin 4) * 256 ≤ (i 3).val ∧ (i 3).val < win1_2.index _ (3 : Fin 4) * 256 + 256
      rw [e3]; omega

end Cert.KernelIdeal.Val

end
-- ==== Proof.lean ====
/-
  The certificate of the windowed channel correlation kernel against its jnp reference.

  Both programs L2-normalise image and event over the channel axis (x / max (sqrt (sum of squares)) eps, the same f32
  word for eps on both sides), zero-pad the two spatial axes by one, and for each of the nine offsets of a 3 x 3 window
  take the channel dot product of the two shifted padded arrays, clamped below at zero. The kernel does the
  normalisation in one kernel region over blocks of sixteen rows, pads on the host, and does the correlation in a second
  region that adds the 128 channels up in eight groups of sixteen into a scratch accumulator reset at each batch's first
  group and written out, clamped, at its last. At the ideal instance the two results are the same function of the
  arguments (Cert.WinCorr.result): the reference by reading its host operations one by one, the kernel by the
  accumulator's invariant over the grid and the regrouping of a sum over 128 = 8 * 16 indices, a law of commutative
  addition that holds at the infinities too, so the precondition (finite inputs) is never opened.

  The three frames: each kernel program's run (both regions and the host stretches between them) ends with every
  unscoped buffer at a named content, the arguments at their launch contents; the reference is host operations only.
  The ideal pass rewrote nothing, so the idealization conjunct is trivial.
-/
import proofs.«111086_j22445499089557_1_alg».proof.Defs
import proofs.«111086_j22445499089557_1_alg».proof.Proof.Gen.Kernel
import proofs.«111086_j22445499089557_1_alg».proof.Proof.Gen.KernelIdeal
import proofs.«111086_j22445499089557_1_alg».proof.Proof.Gen.ReferenceIdeal
import proofs.«111086_j22445499089557_1_alg».proof.Proof.Gen.Pre_finite_inputs
import proofs.«111086_j22445499089557_1_alg».proof.Proof.RunBits
import proofs.«111086_j22445499089557_1_alg».proof.Proof.Assemble
import proofs.«111086_j22445499089557_1_alg».proof.Proof.Val0
import proofs.«111086_j22445499089557_1_alg».proof.Proof.Val1
import Idealize.ShloMosaic.Adequacy
import Idealize.ShloMosaic.Init

noncomputable section

namespace Cert.Proof

open Idealize.ShloMosaic Idealize.SL.Sem

/-- What the two kernel regions leave in their output arrays, at the ideal instance. -/
theorem regionValues : Cert.KernelIdeal.Val.RegionValues :=
  ⟨Cert.KernelIdeal.Val.arrAt0_2, Cert.KernelIdeal.Val.arrAt0_3, Cert.KernelIdeal.Val.arrAt1_2⟩

theorem claim : Cert.Claim := ⟨Cert.Kernel.Gen.facts, Cert.KernelIdeal.Gen.facts, Cert.ReferenceIdeal.Gen.facts, Cert.Pre_finite_inputs.Gen.facts,
  fun m ρ _ => Cert.Kernel.Frm.frame (F := Bits) m ρ,
  fun m ρ _ => Cert.KernelIdeal.Frm.frame (F := Ideal) m ρ,
  fun m ρ _ => (θ_run Cert.ReferenceIdeal.defs _ _).mono (fun _ h c => (h c).2) (Cert.ReferenceIdeal.Value.run (F := Ideal) m ρ),
  trivial,
  Parts.algebraic regionValues⟩

end Cert.Proof

end
